-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512 : Shape := ⟨3, ![16, 512, 512]⟩
abbrev S2x65536 : Shape := ⟨2, ![2, 65536]⟩
abbrev S65536 : Shape := ⟨1, ![65536]⟩
abbrev S8192x8 : Shape := ⟨2, ![8192, 8]⟩
abbrev S8192x1 : Shape := ⟨2, ![8192, 1]⟩
abbrev S16x512 : Shape := ⟨2, ![16, 512]⟩
abbrev S512x512 : Shape := ⟨2, ![512, 512]⟩
abbrev S64x512 : Shape := ⟨2, ![64, 512]⟩
abbrev S512x1 : Shape := ⟨2, ![512, 1]⟩
abbrev S64x1 : Shape := ⟨2, ![64, 1]⟩
abbrev S512 : Shape := ⟨1, ![512]⟩
abbrev S_ : Shape := ⟨0, ![]⟩
abbrev S1x65536 : Shape := ⟨2, ![1, 65536]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S8192x1 : S_.BroadcastsInDim S8192x1 (![] : Fin 0 → Fin S8192x1.rank)
  reducesTo_S8192x1_S_d0_1 : S8192x1.ReducesTo [0, 1] S_
  bcast_S_S16x512 : S_.BroadcastsInDim S16x512 (![] : Fin 0 → Fin S16x512.rank)
  reducesTo_S16x512_S_d0_1 : S16x512.ReducesTo [0, 1] S_
  bcast_S_S512x512 : S_.BroadcastsInDim S512x512 (![] : Fin 0 → Fin S512x512.rank)
  reducesTo_S512x512_S_d0_1 : S512x512.ReducesTo [0, 1] S_
  bcast_S_S64x512 : S_.BroadcastsInDim S64x512 (![] : Fin 0 → Fin S64x512.rank)
  reducesTo_S64x512_S_d0_1 : S64x512.ReducesTo [0, 1] S_
  bcast_S_S512x1 : S_.BroadcastsInDim S512x1 (![] : Fin 0 → Fin S512x1.rank)
  reducesTo_S512x1_S_d0_1 : S512x1.ReducesTo [0, 1] S_
  bcast_S_S64x1 : S_.BroadcastsInDim S64x1 (![] : Fin 0 → Fin S64x1.rank)
  reducesTo_S64x1_S_d0_1 : S64x1.ReducesTo [0, 1] S_
  bcast_S_S512 : S_.BroadcastsInDim S512 (![] : Fin 0 → Fin S512.rank)
  reducesTo_S512_S_d0 : S512.ReducesTo [0] S_
  slices_S2x65536_S1x65536_0_0 : S2x65536.Slices ![0, 0] S1x65536
  shapeCasts_S1x65536_S65536 : S1x65536.ShapeCasts S65536
  bcast_S_S65536 : S_.BroadcastsInDim S65536 (![] : Fin 0 → Fin S65536.rank)
  reducesTo_S65536_S_d0 : S65536.ReducesTo [0] S_
  slices_S2x65536_S1x65536_1_0 : S2x65536.Slices ![1, 0] S1x65536

variable [Facts]

def fn_part8 {F : FTy → Type} [FloatOps F] (main_v134 : IVec S_ 1) (main_v139 : IVec S65536 1) (main_c_49 : IVec S_ 1) : IVec S_ 1 :=
  let main_v140 : IVec S_ 1 := (fun x v => Host.reduce IntOp.andi x v reducesTo_S65536_S_d0 h_S_) main_v139 main_c_49
  let main_v141 : IVec S_ 1 := andi main_v134 main_v140
  main_v141

def fn_part7 {F : FTy → Type} [FloatOps F] (main_arg3 : IVec S2x65536 32) (main_arg4 : IVec S65536 32) (main_v112 : IVec S_ 1) (main_v121 : IVec S65536 1) (main_c_43 : IVec S_ 1) : IVec S_ 1 :=
  let main_v122 : IVec S_ 1 := (fun x v => Host.reduce IntOp.andi x v reducesTo_S65536_S_d0 h_S_) main_v121 main_c_43
  let main_v123 : IVec S_ 1 := andi main_v112 main_v122
  let main_v124 : IVec S1x65536 32 := (extractStridedSlice S1x65536 ![1, 0] · slices_S2x65536_S1x65536_1_0) main_arg3
  let main_v125 : IVec S65536 32 := shapeCast S65536 main_v124 shapeCasts_S1x65536_S65536
  let main_c_44 : IVec S_ 32 := constantI S_ 32 0#32
  let main_v126 : IVec S65536 32 := broadcastInDim S65536 ![] bcast_S_S65536 main_c_44
  let main_v127 : IVec S65536 1 := cmpi .sge main_v125 main_v126
  let main_v128 : IVec S1x65536 32 := (extractStridedSlice S1x65536 ![1, 0] · slices_S2x65536_S1x65536_1_0) main_arg3
  let main_v129 : IVec S65536 32 := shapeCast S65536 main_v128 shapeCasts_S1x65536_S65536
  let main_c_45 : IVec S_ 32 := constantI S_ 32 512#32
  let main_v130 : IVec S65536 32 := broadcastInDim S65536 ![] bcast_S_S65536 main_c_45
  let main_v131 : IVec S65536 1 := cmpi .slt main_v129 main_v130
  let main_v132 : IVec S65536 1 := andi main_v127 main_v131
  let main_c_46 : IVec S_ 1 := constantI S_ 1 1#1
  let main_v133 : IVec S_ 1 := (fun x v => Host.reduce IntOp.andi x v reducesTo_S65536_S_d0 h_S_) main_v132 main_c_46
  let main_v134 : IVec S_ 1 := andi main_v123 main_v133
  let main_c_47 : IVec S_ 32 := constantI S_ 32 0#32
  let main_v135 : IVec S65536 32 := broadcastInDim S65536 ![] bcast_S_S65536 main_c_47
  let main_v136 : IVec S65536 1 := cmpi .sge main_arg4 main_v135
  let main_c_48 : IVec S_ 32 := constantI S_ 32 64#32
  let main_v137 : IVec S65536 32 := broadcastInDim S65536 ![] bcast_S_S65536 main_c_48
  let main_v138 : IVec S65536 1 := cmpi .slt main_arg4 main_v137
  let main_v139 : IVec S65536 1 := andi main_v136 main_v138
  let main_c_49 : IVec S_ 1 := constantI S_ 1 1#1
  fn_part8 (F := F) main_v134 main_v139 main_c_49

def fn_part6 {F : FTy → Type} [FloatOps F] (main_arg2 : IVec S65536 32) (main_arg3 : IVec S2x65536 32) (main_arg4 : IVec S65536 32) (main_v94 : IVec S_ 1) (main_v103 : IVec S65536 1) (main_c_37 : IVec S_ 1) : IVec S_ 1 :=
  let main_v104 : IVec S_ 1 := (fun x v => Host.reduce IntOp.andi x v reducesTo_S65536_S_d0 h_S_) main_v103 main_c_37
  let main_v105 : IVec S_ 1 := andi main_v94 main_v104
  let main_c_38 : IVec S_ 32 := constantI S_ 32 0#32
  let main_v106 : IVec S65536 32 := broadcastInDim S65536 ![] bcast_S_S65536 main_c_38
  let main_v107 : IVec S65536 1 := cmpi .sge main_arg2 main_v106
  let main_c_39 : IVec S_ 32 := constantI S_ 32 64#32
  let main_v108 : IVec S65536 32 := broadcastInDim S65536 ![] bcast_S_S65536 main_c_39
  let main_v109 : IVec S65536 1 := cmpi .slt main_arg2 main_v108
  let main_v110 : IVec S65536 1 := andi main_v107 main_v109
  let main_c_40 : IVec S_ 1 := constantI S_ 1 1#1
  let main_v111 : IVec S_ 1 := (fun x v => Host.reduce IntOp.andi x v reducesTo_S65536_S_d0 h_S_) main_v110 main_c_40
  let main_v112 : IVec S_ 1 := andi main_v105 main_v111
  let main_v113 : IVec S1x65536 32 := (extractStridedSlice S1x65536 ![0, 0] · slices_S2x65536_S1x65536_0_0) main_arg3
  let main_v114 : IVec S65536 32 := shapeCast S65536 main_v113 shapeCasts_S1x65536_S65536
  let main_c_41 : IVec S_ 32 := constantI S_ 32 0#32
  let main_v115 : IVec S65536 32 := broadcastInDim S65536 ![] bcast_S_S65536 main_c_41
  let main_v116 : IVec S65536 1 := cmpi .sge main_v114 main_v115
  let main_v117 : IVec S1x65536 32 := (extractStridedSlice S1x65536 ![0, 0] · slices_S2x65536_S1x65536_0_0) main_arg3
  let main_v118 : IVec S65536 32 := shapeCast S65536 main_v117 shapeCasts_S1x65536_S65536
  let main_c_42 : IVec S_ 32 := constantI S_ 32 16#32
  let main_v119 : IVec S65536 32 := broadcastInDim S65536 ![] bcast_S_S65536 main_c_42
  let main_v120 : IVec S65536 1 := cmpi .slt main_v118 main_v119
  let main_v121 : IVec S65536 1 := andi main_v116 main_v120
  let main_c_43 : IVec S_ 1 := constantI S_ 1 1#1
  fn_part7 (F := F) main_arg3 main_arg4 main_v112 main_v121 main_c_43

def fn_part5 {F : FTy → Type} [FloatOps F] (main_arg1 : IVec S2x65536 32) (main_arg2 : IVec S65536 32) (main_arg3 : IVec S2x65536 32) (main_arg4 : IVec S65536 32) (main_v83 : IVec S_ 1) (main_v85 : IVec S65536 32) : IVec S_ 1 :=
  let main_c_32 : IVec S_ 32 := constantI S_ 32 0#32
  let main_v86 : IVec S65536 32 := broadcastInDim S65536 ![] bcast_S_S65536 main_c_32
  let main_v87 : IVec S65536 1 := cmpi .sge main_v85 main_v86
  let main_v88 : IVec S1x65536 32 := (extractStridedSlice S1x65536 ![0, 0] · slices_S2x65536_S1x65536_0_0) main_arg1
  let main_v89 : IVec S65536 32 := shapeCast S65536 main_v88 shapeCasts_S1x65536_S65536
  let main_c_33 : IVec S_ 32 := constantI S_ 32 16#32
  let main_v90 : IVec S65536 32 := broadcastInDim S65536 ![] bcast_S_S65536 main_c_33
  let main_v91 : IVec S65536 1 := cmpi .slt main_v89 main_v90
  let main_v92 : IVec S65536 1 := andi main_v87 main_v91
  let main_c_34 : IVec S_ 1 := constantI S_ 1 1#1
  let main_v93 : IVec S_ 1 := (fun x v => Host.reduce IntOp.andi x v reducesTo_S65536_S_d0 h_S_) main_v92 main_c_34
  let main_v94 : IVec S_ 1 := andi main_v83 main_v93
  let main_v95 : IVec S1x65536 32 := (extractStridedSlice S1x65536 ![1, 0] · slices_S2x65536_S1x65536_1_0) main_arg1
  let main_v96 : IVec S65536 32 := shapeCast S65536 main_v95 shapeCasts_S1x65536_S65536
  let main_c_35 : IVec S_ 32 := constantI S_ 32 0#32
  let main_v97 : IVec S65536 32 := broadcastInDim S65536 ![] bcast_S_S65536 main_c_35
  let main_v98 : IVec S65536 1 := cmpi .sge main_v96 main_v97
  let main_v99 : IVec S1x65536 32 := (extractStridedSlice S1x65536 ![1, 0] · slices_S2x65536_S1x65536_1_0) main_arg1
  let main_v100 : IVec S65536 32 := shapeCast S65536 main_v99 shapeCasts_S1x65536_S65536
  let main_c_36 : IVec S_ 32 := constantI S_ 32 512#32
  let main_v101 : IVec S65536 32 := broadcastInDim S65536 ![] bcast_S_S65536 main_c_36
  let main_v102 : IVec S65536 1 := cmpi .slt main_v100 main_v101
  let main_v103 : IVec S65536 1 := andi main_v98 main_v102
  let main_c_37 : IVec S_ 1 := constantI S_ 1 1#1
  fn_part6 (F := F) main_arg2 main_arg3 main_arg4 main_v94 main_v103 main_c_37

def fn_part4 {F : FTy → Type} [FloatOps F] (main_arg1 : IVec S2x65536 32) (main_arg2 : IVec S65536 32) (main_arg3 : IVec S2x65536 32) (main_arg4 : IVec S65536 32) (main_arg18 : FVec F S512x1 .f32) (main_arg19 : FVec F S512 .f32) (main_arg20 : FVec F S512 .f32) (main_v63 : IVec S_ 1) (main_v67 : IVec S_ 1) : IVec S_ 1 :=
  let main_v68 : IVec S_ 1 := andi main_v63 main_v67
  let main_v69 : FVec F S512x1 .f32 := Host.absf main_arg18
  let main_cst_26 : FVec F S_ .f32 := constant S_ .f32 0x7F800000#32
  let main_v70 : FVec F S512x1 .f32 := broadcastInDim S512x1 ![] bcast_S_S512x1 main_cst_26
  let main_v71 : IVec S512x1 1 := cmpf .olt main_v69 main_v70
  let main_c_27 : IVec S_ 1 := constantI S_ 1 1#1
  let main_v72 : IVec S_ 1 := (fun x v => Host.reduce IntOp.andi x v reducesTo_S512x1_S_d0_1 h_S_) main_v71 main_c_27
  let main_v73 : IVec S_ 1 := andi main_v68 main_v72
  let main_v74 : FVec F S512 .f32 := Host.absf main_arg19
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg20
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : IVec S1x65536 32 := (extractStridedSlice S1x65536 ![0, 0] · slices_S2x65536_S1x65536_0_0) main_arg1
  let main_v85 : IVec S65536 32 := shapeCast S65536 main_v84 shapeCasts_S1x65536_S65536
  fn_part5 (F := F) main_arg1 main_arg2 main_arg3 main_arg4 main_v83 main_v85

def fn_part3 {F : FTy → Type} [FloatOps F] (main_arg1 : IVec S2x65536 32) (main_arg2 : IVec S65536 32) (main_arg3 : IVec S2x65536 32) (main_arg4 : IVec S65536 32) (main_arg15 : FVec F S512x1 .f32) (main_arg16 : FVec F S64x1 .f32) (main_arg17 : FVec F S512x512 .f32) (main_arg18 : FVec F S512x1 .f32) (main_arg19 : FVec F S512 .f32) (main_arg20 : FVec F S512 .f32) (main_v48 : IVec S_ 1) (main_v49 : FVec F S64x512 .f32) (main_v50 : FVec F S64x512 .f32) : IVec S_ 1 :=
  let main_v51 : IVec S64x512 1 := cmpf .olt main_v49 main_v50
  let main_c_19 : IVec S_ 1 := constantI S_ 1 1#1
  let main_v52 : IVec S_ 1 := (fun x v => Host.reduce IntOp.andi x v reducesTo_S64x512_S_d0_1 h_S_) main_v51 main_c_19
  let main_v53 : IVec S_ 1 := andi main_v48 main_v52
  let main_v54 : FVec F S512x1 .f32 := Host.absf main_arg15
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S64x1 .f32 := Host.absf main_arg16
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S512x512 .f32 := Host.absf main_arg17
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg1 main_arg2 main_arg3 main_arg4 main_arg18 main_arg19 main_arg20 main_v63 main_v67

def fn_part2 {F : FTy → Type} [FloatOps F] (main_arg1 : IVec S2x65536 32) (main_arg2 : IVec S65536 32) (main_arg3 : IVec S2x65536 32) (main_arg4 : IVec S65536 32) (main_arg11 : FVec F S512x1 .f32) (main_arg12 : FVec F S64x1 .f32) (main_arg13 : FVec F S512x512 .f32) (main_arg14 : FVec F S64x512 .f32) (main_arg15 : FVec F S512x1 .f32) (main_arg16 : FVec F S64x1 .f32) (main_arg17 : FVec F S512x512 .f32) (main_arg18 : FVec F S512x1 .f32) (main_arg19 : FVec F S512 .f32) (main_arg20 : FVec F S512 .f32) (main_v33 : IVec S_ 1) : IVec S_ 1 :=
  let main_v34 : FVec F S512x1 .f32 := Host.absf main_arg11
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S64x1 .f32 := Host.absf main_arg12
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S512x512 .f32 := Host.absf main_arg13
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S64x512 .f32 := Host.absf main_arg14
  let main_cst_18 : FVec F S_ .f32 := constant S_ .f32 0x7F800000#32
  let main_v50 : FVec F S64x512 .f32 := broadcastInDim S64x512 ![] bcast_S_S64x512 main_cst_18
  fn_part3 (F := F) main_arg1 main_arg2 main_arg3 main_arg4 main_arg15 main_arg16 main_arg17 main_arg18 main_arg19 main_arg20 main_v48 main_v49 main_v50

def fn_part1 {F : FTy → Type} [FloatOps F] (main_arg1 : IVec S2x65536 32) (main_arg2 : IVec S65536 32) (main_arg3 : IVec S2x65536 32) (main_arg4 : IVec S65536 32) (main_arg8 : FVec F S16x512 .f32) (main_arg9 : FVec F S512x512 .f32) (main_arg10 : FVec F S64x512 .f32) (main_arg11 : FVec F S512x1 .f32) (main_arg12 : FVec F S64x1 .f32) (main_arg13 : FVec F S512x512 .f32) (main_arg14 : FVec F S64x512 .f32) (main_arg15 : FVec F S512x1 .f32) (main_arg16 : FVec F S64x1 .f32) (main_arg17 : FVec F S512x512 .f32) (main_arg18 : FVec F S512x1 .f32) (main_arg19 : FVec F S512 .f32) (main_arg20 : FVec F S512 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S16x512 .f32 := Host.absf main_arg8
  let main_cst_6 : FVec F S_ .f32 := constant S_ .f32 0x7F800000#32
  let main_v20 : FVec F S16x512 .f32 := broadcastInDim S16x512 ![] bcast_S_S16x512 main_cst_6
  let main_v21 : IVec S16x512 1 := cmpf .olt main_v19 main_v20
  let main_c_7 : IVec S_ 1 := constantI S_ 1 1#1
  let main_v22 : IVec S_ 1 := (fun x v => Host.reduce IntOp.andi x v reducesTo_S16x512_S_d0_1 h_S_) main_v21 main_c_7
  let main_v23 : IVec S_ 1 := andi main_v18 main_v22
  let main_v24 : FVec F S512x512 .f32 := Host.absf main_arg9
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S64x512 .f32 := Host.absf main_arg10
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg1 main_arg2 main_arg3 main_arg4 main_arg11 main_arg12 main_arg13 main_arg14 main_arg15 main_arg16 main_arg17 main_arg18 main_arg19 main_arg20 main_v33

def fn {F : FTy → Type} [FloatOps F] (main_arg0 : FVec F S16x512x512 .f32) (main_arg1 : IVec S2x65536 32) (main_arg2 : IVec S65536 32) (main_arg3 : IVec S2x65536 32) (main_arg4 : IVec S65536 32) (main_arg5 : FVec F S8192x8 .f32) (main_arg6 : FVec F S8192x8 .f32) (main_arg7 : FVec F S8192x1 .f32) (main_arg8 : FVec F S16x512 .f32) (main_arg9 : FVec F S512x512 .f32) (main_arg10 : FVec F S64x512 .f32) (main_arg11 : FVec F S512x1 .f32) (main_arg12 : FVec F S64x1 .f32) (main_arg13 : FVec F S512x512 .f32) (main_arg14 : FVec F S64x512 .f32) (main_arg15 : FVec F S512x1 .f32) (main_arg16 : FVec F S64x1 .f32) (main_arg17 : FVec F S512x512 .f32) (main_arg18 : FVec F S512x1 .f32) (main_arg19 : FVec F S512 .f32) (main_arg20 : FVec F S512 .f32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  let main_v4 : FVec F S8192x8 .f32 := Host.absf main_arg5
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  let main_v9 : FVec F S8192x8 .f32 := Host.absf main_arg6
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_c_3 : IVec S_ 1 := constantI S_ 1 1#1
  let main_v12 : IVec S_ 1 := (fun x v => Host.reduce IntOp.andi x v reducesTo_S8192x8_S_d0_1 h_S_) main_v11 main_c_3
  let main_v13 : IVec S_ 1 := andi main_v8 main_v12
  let main_v14 : FVec F S8192x1 .f32 := Host.absf main_arg7
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg1 main_arg2 main_arg3 main_arg4 main_arg8 main_arg9 main_arg10 main_arg11 main_arg12 main_arg13 main_arg14 main_arg15 main_arg16 main_arg17 main_arg18 main_arg19 main_arg20 main_v13 main_v16
-- ==== Kernel.lean ====
abbrev S16x512x512 : Shape := ⟨3, ![16, 512, 512]⟩
abbrev S2x65536 : Shape := ⟨2, ![2, 65536]⟩
abbrev S65536 : Shape := ⟨1, ![65536]⟩
abbrev S8192x8 : Shape := ⟨2, ![8192, 8]⟩
abbrev S8192x1 : Shape := ⟨2, ![8192, 1]⟩
abbrev S16x512 : Shape := ⟨2, ![16, 512]⟩
abbrev S512x512 : Shape := ⟨2, ![512, 512]⟩
abbrev S64x512 : Shape := ⟨2, ![64, 512]⟩
abbrev S512x1 : Shape := ⟨2, ![512, 1]⟩
abbrev S64x1 : Shape := ⟨2, ![64, 1]⟩
abbrev S512 : Shape := ⟨1, ![512]⟩
abbrev S8192x512 : Shape := ⟨2, ![8192, 512]⟩
abbrev S1x65536 : Shape := ⟨2, ![1, 65536]⟩
abbrev S_ : Shape := ⟨0, ![]⟩
abbrev S65536x1 : Shape := ⟨2, ![65536, 1]⟩
abbrev S512x128 : Shape := ⟨2, ![512, 128]⟩
abbrev S1 : Shape := ⟨1, ![1]⟩
abbrev S512x640 : Shape := ⟨2, ![512, 640]⟩
abbrev S64x128 : Shape := ⟨2, ![64, 128]⟩
abbrev S64 : Shape := ⟨1, ![64]⟩
abbrev S64x640 : Shape := ⟨2, ![64, 640]⟩
abbrev S8192x640 : Shape := ⟨2, ![8192, 640]⟩
abbrev S1024x512 : Shape := ⟨2, ![1024, 512]⟩
abbrev S1024x640 : Shape := ⟨2, ![1024, 640]⟩
abbrev S65536x640 : Shape := ⟨2, ![65536, 640]⟩
abbrev S1x512 : Shape := ⟨2, ![1, 512]⟩
abbrev S1024x1 : Shape := ⟨2, ![1024, 1]⟩
abbrev S128x8 : Shape := ⟨2, ![128, 8]⟩
abbrev S128x1 : Shape := ⟨2, ![128, 1]⟩
abbrev S128x512 : Shape := ⟨2, ![128, 512]⟩
abbrev S1x64 : Shape := ⟨2, ![1, 64]⟩
abbrev S1024x64 : Shape := ⟨2, ![1024, 64]⟩
abbrev S128x8x512 : Shape := ⟨3, ![128, 8, 512]⟩
abbrev S128x8x1 : Shape := ⟨3, ![128, 8, 1]⟩
abbrev S128x640 : Shape := ⟨2, ![128, 640]⟩
abbrev S128 : Shape := ⟨1, ![128]⟩

abbrev nBuf : Space → Nat
  | .hbm => 135
  | .vmem => 33
  | .smem => 0
  | _ => 0

abbrev hbmTy0_0 (i : Nat) : BufTy := match i % 128 with
  | 0 => ⟨S16x512x512, .f32⟩
  | 1 => ⟨S2x65536, .i32⟩
  | 2 => ⟨S65536, .i32⟩
  | 3 => ⟨S2x65536, .i32⟩
  | 4 => ⟨S65536, .i32⟩
  | 5 => ⟨S8192x8, .f32⟩
  | 6 => ⟨S8192x8, .f32⟩
  | 7 => ⟨S8192x1, .f32⟩
  | 8 => ⟨S16x512, .f32⟩
  | 9 => ⟨S512x512, .f32⟩
  | 10 => ⟨S64x512, .f32⟩
  | 11 => ⟨S512x1, .f32⟩
  | 12 => ⟨S64x1, .f32⟩
  | 13 => ⟨S512x512, .f32⟩
  | 14 => ⟨S64x512, .f32⟩
  | 15 => ⟨S512x1, .f32⟩
  | 16 => ⟨S64x1, .f32⟩
  | 17 => ⟨S512x512, .f32⟩
  | 18 => ⟨S512x1, .f32⟩
  | 19 => ⟨S512, .f32⟩
  | 20 => ⟨S512, .f32⟩
  | 21 => ⟨S8192x512, .f32⟩
  | 22 => ⟨S1x65536, .i32⟩
  | 23 => ⟨S65536, .i32⟩
  | 24 => ⟨S_, .i32⟩
  | 25 => ⟨S65536, .i32⟩
  | 26 => ⟨S65536, .i32⟩
  | 27 => ⟨S1x65536, .i32⟩
  | 28 => ⟨S65536, .i32⟩
  | 29 => ⟨S65536, .i32⟩
  | 30 => ⟨S_, .i32⟩
  | 31 => ⟨S_, .i32⟩
  | 32 => ⟨S_, .i32⟩
  | 33 => ⟨S65536, .i32⟩
  | 34 => ⟨S65536, .i32⟩
  | 35 => ⟨S_, .i32⟩
  | 36 => ⟨S65536, .i32⟩
  | 37 => ⟨S65536, .i32⟩
  | 38 => ⟨S1x65536, .i32⟩
  | 39 => ⟨S65536, .i32⟩
  | 40 => ⟨S_, .i32⟩
  | 41 => ⟨S65536, .i32⟩
  | 42 => ⟨S65536, .i32⟩
  | 43 => ⟨S1x65536, .i32⟩
  | 44 => ⟨S65536, .i32⟩
  | 45 => ⟨S65536, .i32⟩
  | 46 => ⟨S_, .i32⟩
  | 47 => ⟨S_, .i32⟩
  | 48 => ⟨S_, .i32⟩
  | 49 => ⟨S65536, .i32⟩
  | 50 => ⟨S65536, .i32⟩
  | 51 => ⟨S_, .i32⟩
  | 52 => ⟨S65536, .i32⟩
  | 53 => ⟨S65536, .i32⟩
  | 54 => ⟨S_, .i32⟩
  | 55 => ⟨S_, .i32⟩
  | 56 => ⟨S_, .i32⟩
  | 57 => ⟨S65536, .i32⟩
  | 58 => ⟨S65536, .i32⟩
  | 59 => ⟨S_, .i32⟩
  | 60 => ⟨S65536, .i32⟩
  | 61 => ⟨S65536, .i32⟩
  | 62 => ⟨S65536x1, .i32⟩
  | 63 => ⟨S_, .i32⟩
  | 64 => ⟨S_, .i32⟩
  | 65 => ⟨S_, .i32⟩
  | 66 => ⟨S65536, .i32⟩
  | 67 => ⟨S65536, .i32⟩
  | 68 => ⟨S_, .i32⟩
  | 69 => ⟨S65536, .i32⟩
  | 70 => ⟨S65536, .i32⟩
  | 71 => ⟨S65536x1, .i32⟩
  | 72 => ⟨S_, .f32⟩
  | 73 => ⟨S512x128, .f32⟩
  | 74 => ⟨S512, .f32⟩
  | 75 => ⟨S_, .i32⟩
  | 76 => ⟨S1, .i32⟩
  | 77 => ⟨S512x128, .f32⟩
  | 78 => ⟨S_, .f32⟩
  | 79 => ⟨S512x128, .f32⟩
  | 80 => ⟨S512, .f32⟩
  | 81 => ⟨S_, .i32⟩
  | 82 => ⟨S1, .i32⟩
  | 83 => ⟨S512x128, .f32⟩
  | 84 => ⟨S_, .f32⟩
  | 85 => ⟨S512x128, .f32⟩
  | 86 => ⟨S512, .f32⟩
  | 87 => ⟨S_, .i32⟩
  | 88 => ⟨S1, .i32⟩
  | 89 => ⟨S512x128, .f32⟩
  | 90 => ⟨S512x640, .f32⟩
  | 91 => ⟨S512x640, .bf16⟩
  | 92 => ⟨S512x640, .f32⟩
  | 93 => ⟨S512x640, .bf16⟩
  | 94 => ⟨S512x640, .f32⟩
  | 95 => ⟨S512x640, .bf16⟩
  | 96 => ⟨S_, .f32⟩
  | 97 => ⟨S64x128, .f32⟩
  | 98 => ⟨S64, .f32⟩
  | 99 => ⟨S_, .i32⟩
  | 100 => ⟨S1, .i32⟩
  | 101 => ⟨S64x128, .f32⟩
  | 102 => ⟨S_, .f32⟩
  | 103 => ⟨S64x128, .f32⟩
  | 104 => ⟨S64, .f32⟩
  | 105 => ⟨S_, .i32⟩
  | 106 => ⟨S1, .i32⟩
  | 107 => ⟨S64x128, .f32⟩
  | 108 => ⟨S64x640, .f32⟩
  | 109 => ⟨S64x640, .f32⟩
  | 110 => ⟨S8192x640, .f32⟩
  | 111 => ⟨S8192x640, .f32⟩
  | 112 => ⟨S_, .i32⟩
  | 113 => ⟨S65536, .i32⟩
  | 114 => ⟨S65536, .i1⟩
  | 115 => ⟨S_, .i32⟩
  | 116 => ⟨S65536, .i32⟩
  | 117 => ⟨S65536, .i32⟩
  | 118 => ⟨S65536, .i32⟩
  | 119 => ⟨S65536x1, .i32⟩
  | 120 => ⟨S65536x640, .f32⟩
  | 121 => ⟨S_, .i32⟩
  | 122 => ⟨S65536, .i32⟩
  | 123 => ⟨S65536, .i1⟩
  | 124 => ⟨S_, .i32⟩
  | 125 => ⟨S65536, .i32⟩
  | 126 => ⟨S65536, .i32⟩
  | 127 => ⟨S65536, .i32⟩
  | _ => ⟨S16x512x512, .f32⟩

abbrev hbmTy0_1 (i : Nat) : BufTy := match i % 128 with
  | 0 => ⟨S65536x1, .i32⟩
  | 1 => ⟨S65536x640, .f32⟩
  | 2 => ⟨S8192x1, .f32⟩
  | 3 => ⟨S1x512, .f32⟩
  | 4 => ⟨S1x512, .f32⟩
  | 5 => ⟨S8192x512, .f32⟩
  | 6 => ⟨S16x512x512, .f32⟩
  | _ => ⟨S16x512x512, .f32⟩

abbrev hbmTy (i : Nat) : BufTy := match i / 128 with
  | 0 => hbmTy0_0 i
  | 1 => hbmTy0_1 i
  | _ => ⟨S16x512x512, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S512x640, .bf16⟩
  | .local _ .vmem, ⟨3, _⟩ => ⟨S512x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | .local _ .vmem, ⟨7, _⟩ => ⟨S1024x640, .f32⟩
  | .local _ .vmem, ⟨8, _⟩ => ⟨S1024x640, .f32⟩
  | .local _ .vmem, ⟨9, _⟩ => ⟨S1024x640, .f32⟩
  | .local _ .vmem, ⟨10, _⟩ => ⟨S1024x640, .f32⟩
  | .local _ .vmem, ⟨11, _⟩ => ⟨S1024x640, .f32⟩
  | .local _ .vmem, ⟨12, _⟩ => ⟨S64x640, .f32⟩
  | .local _ .vmem, ⟨13, _⟩ => ⟨S64x640, .f32⟩
  | .local _ .vmem, ⟨14, _⟩ => ⟨S1024x1, .i32⟩
  | .local _ .vmem, ⟨15, _⟩ => ⟨S1024x1, .i32⟩
  | .local _ .vmem, ⟨16, _⟩ => ⟨S1024x1, .i32⟩
  | .local _ .vmem, ⟨17, _⟩ => ⟨S1024x1, .i32⟩
  | .local _ .vmem, ⟨18, _⟩ => ⟨S128x8, .f32⟩
  | .local _ .vmem, ⟨19, _⟩ => ⟨S128x8, .f32⟩
  | .local _ .vmem, ⟨20, _⟩ => ⟨S128x8, .f32⟩
  | .local _ .vmem, ⟨21, _⟩ => ⟨S128x8, .f32⟩
  | .local _ .vmem, ⟨22, _⟩ => ⟨S128x1, .f32⟩
  | .local _ .vmem, ⟨23, _⟩ => ⟨S128x1, .f32⟩
  | .local _ .vmem, ⟨24, _⟩ => ⟨S128x1, .f32⟩
  | .local _ .vmem, ⟨25, _⟩ => ⟨S128x1, .f32⟩
  | .local _ .vmem, ⟨26, _⟩ => ⟨S128x512, .f32⟩
  | .local _ .vmem, ⟨27, _⟩ => ⟨S128x512, .f32⟩
  | .local _ .vmem, ⟨28, _⟩ => ⟨S512x640, .bf16⟩
  | .local _ .vmem, ⟨29, _⟩ => ⟨S1x512, .f32⟩
  | .local _ .vmem, ⟨30, _⟩ => ⟨S1x512, .f32⟩
  | .local _ .vmem, ⟨31, _⟩ => ⟨S128x512, .f32⟩
  | .local _ .vmem, ⟨32, _⟩ => ⟨S128x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_c : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_c_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_2 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_3 : Ref sig .tc := ⟨.hbm, 46, rfl⟩
abbrev main_c_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v16 : Ref sig .tc := ⟨.hbm, 53, rfl⟩
abbrev main_c_5 : Ref sig .tc := ⟨.hbm, 54, rfl⟩
abbrev main_c_6 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v17 : Ref sig .tc := ⟨.hbm, 61, rfl⟩
abbrev main_v18 : Ref sig .tc := ⟨.hbm, 62, rfl⟩
abbrev main_c_7 : Ref sig .tc := ⟨.hbm, 63, rfl⟩
abbrev main_c_8 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v19 : Ref sig .tc := ⟨.hbm, 70, rfl⟩
abbrev main_v20 : Ref sig .tc := ⟨.hbm, 71, rfl⟩
abbrev main_cst : Ref sig .tc := ⟨.hbm, 72, rfl⟩
abbrev main_v21 : Ref sig .tc := ⟨.hbm, 73, rfl⟩
abbrev main_v22 : Ref sig .tc := ⟨.hbm, 74, rfl⟩
abbrev main_c_9 : Ref sig .tc := ⟨.hbm, 75, rfl⟩
abbrev main_v23 : Ref sig .tc := ⟨.hbm, 76, rfl⟩
abbrev main_v24 : Ref sig .tc := ⟨.hbm, 77, rfl⟩
abbrev main_cst_10 : Ref sig .tc := ⟨.hbm, 78, rfl⟩
abbrev main_v25 : Ref sig .tc := ⟨.hbm, 79, rfl⟩
abbrev main_v26 : Ref sig .tc := ⟨.hbm, 80, rfl⟩
abbrev main_c_11 : Ref sig .tc := ⟨.hbm, 81, rfl⟩
abbrev main_v27 : Ref sig .tc := ⟨.hbm, 82, rfl⟩
abbrev main_v28 : Ref sig .tc := ⟨.hbm, 83, rfl⟩
abbrev main_cst_12 : Ref sig .tc := ⟨.hbm, 84, rfl⟩
abbrev main_v29 : Ref sig .tc := ⟨.hbm, 85, rfl⟩
abbrev main_v30 : Ref sig .tc := ⟨.hbm, 86, rfl⟩
abbrev main_c_13 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_cst_14 : Ref sig .tc := ⟨.hbm, 96, rfl⟩
abbrev main_v39 : Ref sig .tc := ⟨.hbm, 97, rfl⟩
abbrev main_v40 : Ref sig .tc := ⟨.hbm, 98, rfl⟩
abbrev main_c_15 : Ref sig .tc := ⟨.hbm, 99, rfl⟩
abbrev main_v41 : Ref sig .tc := ⟨.hbm, 100, rfl⟩
abbrev main_v42 : Ref sig .tc := ⟨.hbm, 101, rfl⟩
abbrev main_cst_16 : Ref sig .tc := ⟨.hbm, 102, rfl⟩
abbrev main_v43 : Ref sig .tc := ⟨.hbm, 103, rfl⟩
abbrev main_v44 : Ref sig .tc := ⟨.hbm, 104, rfl⟩
abbrev main_c_17 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49_0 : Ref sig .tc := ⟨.hbm, 110, rfl⟩
abbrev main_v49_1 : Ref sig .tc := ⟨.hbm, 111, rfl⟩
abbrev main_c_18 : Ref sig .tc := ⟨.hbm, 112, rfl⟩
abbrev main_v50 : Ref sig .tc := ⟨.hbm, 113, rfl⟩
abbrev main_v51 : Ref sig .tc := ⟨.hbm, 114, rfl⟩
abbrev main_c_19 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_c_20 : Ref sig .tc := ⟨.hbm, 121, rfl⟩
abbrev main_v57 : Ref sig .tc := ⟨.hbm, 122, rfl⟩
abbrev main_v58 : Ref sig .tc := ⟨.hbm, 123, rfl⟩
abbrev main_c_21 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg14_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem14_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x640 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x640 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S128x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S512x640 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S128x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  shapeCasts_S16x512x512_S8192x512 : S16x512x512.ShapeCasts S8192x512
  slices_S2x65536_S1x65536_0_0 : S2x65536.Slices ![0, 0] S1x65536
  shapeCasts_S1x65536_S65536 : S1x65536.ShapeCasts S65536
  bcast_S_S65536 : S_.BroadcastsInDim S65536 (![] : Fin 0 → Fin S65536.rank)
  slices_S2x65536_S1x65536_1_0 : S2x65536.Slices ![1, 0] S1x65536
  shapeCasts_S65536_S65536x1 : S65536.ShapeCasts S65536x1
  bcast_S_S512x128 : S_.BroadcastsInDim S512x128 (![] : Fin 0 → Fin S512x128.rank)
  shapeCasts_S512x1_S512 : S512x1.ShapeCasts S512
  bcast_S_S1 : S_.BroadcastsInDim S1 (![] : Fin 0 → Fin S1.rank)
  concatenates_S512x512_S512x128_S512x640_d1 : Shape.Concatenates [S512x512, S512x128] S512x640 1
  bitsLt_bf16_f32 : FTy.bits .bf16 < FTy.bits .f32
  bcast_S_S64x128 : S_.BroadcastsInDim S64x128 (![] : Fin 0 → Fin S64x128.rank)
  shapeCasts_S64x1_S64 : S64x1.ShapeCasts S64
  concatenates_S64x512_S64x128_S64x640_d1 : Shape.Concatenates [S64x512, S64x128] S64x640 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S1024x640_S1024x640_0_0 : ∀ a, (![0, 0] : Fin 2 → Nat) a + S1024x640.size a ≤ S1024x640.size a
  h_S1024x640 : 0 < S1024x640.numel
  bcast_S65536_S65536x1_0 : S65536.BroadcastsInDim S65536x1 (![0] : Fin 1 → Fin S65536x1.rank)
  shapeCasts_S16x512_S8192x1 : S16x512.ShapeCasts S8192x1
  shapeCasts_S512_S1x512 : S512.ShapeCasts S1x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x64_d1_w32 : S1x64.Iotas .tc 32 [1]
  broadcasts_S1024x1_S1024x64 : S1024x1.Broadcasts S1024x64
  broadcasts_S1x64_S1024x64 : S1x64.Broadcasts S1024x64
  natLt_1_32 : 1 < 32
  inb_S64x640_S64x640_0_0 : ∀ a, (![0, 0] : Fin 2 → Nat) a + S64x640.size a ≤ S64x640.size a
  h_S64x640 : 0 < S64x640.numel
  shapeCasts_S64x640_S64x640 : S64x640.ShapeCasts S64x640
  shapeCasts_S1024x640_S1024x640 : S1024x640.ShapeCasts S1024x640
  slices_S1024x640_o0_0_S1024x512 : S1024x640.Slices ![0, 0] S1024x512
  shapeCasts_S1024x512_S128x8x512 : S1024x512.ShapeCasts S128x8x512
  slices_S1024x640_o0_512_S1024x1 : S1024x640.Slices ![0, 512] S1024x1
  shapeCasts_S1024x1_S128x8x1 : S1024x1.ShapeCasts S128x8x1
  inb_S128x8_S128x8_0_0 : ∀ a, (![0, 0] : Fin 2 → Nat) a + S128x8.size a ≤ S128x8.size a
  h_S128x8 : 0 < S128x8.numel
  shapeCasts_S128x8_S128x8x1 : S128x8.ShapeCasts S128x8x1
  broadcasts_S128x8x1_S128x8x512 : S128x8x1.Broadcasts S128x8x512
  reduces_S128x8x512_S128x512 : S128x8x512.Reduces [1] S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S128x640_o0_0_S128x512 : S128x640.Slices ![0, 0] S128x512
  slices_S128x640_o0_512_S128x1 : S128x640.Slices ![0, 512] S128x1
  inb_S128x1_S128x1_0_0 : ∀ a, (![0, 0] : Fin 2 → Nat) a + S128x1.size a ≤ S128x1.size a
  h_S128x1 : 0 < S128x1.numel
  broadcasts_S128x1_S128x512 : S128x1.Broadcasts S128x512
  reduces_S128x512_S128 : S128x512.Reduces [1] S128
  shapeCasts_S128_S128x1 : S128.ShapeCasts S128x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  shapeCasts_S128x1_S128x1 : S128x1.ShapeCasts S128x1
  shapeCasts_S8192x512_S16x512x512 : S8192x512.ShapeCasts S16x512x512
  scatter_S512x128_S1_S512_0_1_1_0_wf : ScatterDims.WF S512x128 S1 S512 [0] [1] [1] 0
  scatter_S64x128_S1_S64_0_1_1_0_wf : ScatterDims.WF S64x128 S1 S64 [0] [1] [1] 0
  dot_S1024x512_S512x640_S1024x640_1_0_0_1_n_n_wf : DotDims.WF S1024x512 S512x640 S1024x640 [1] [0] [0] [1] [] []
  gather_S8192x640_S65536x1_S65536x640_1_0_n_n_0_1_1640_wf : GatherDims.WF S8192x640 S65536x1 S65536x640 [1] [0] [] [0] [] 1 ![1, 640]
  dot_S1024x64_S64x640_S1024x640_1_0_0_1_n_n_wf : DotDims.WF S1024x64 S64x640 S1024x640 [1] [0] [0] [1] [] []
  dot_S128x512_S512x640_S128x640_1_0_0_1_n_n_wf : DotDims.WF S128x512 S512x640 S128x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x640.size a ≤ S512x640.size a
  hwx0_1 : ∀ i : grid0.Coords, EltTy.bits .bf16 = 32 ∨ (Rect.block (s := S512x640) S512x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .bf16 = 32 ∨ (Rect.block (s := S512x640) S512x640.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x640.size a ≤ S8192x640.size a
  hwx0_3 : ∀ i : grid0.Coords, EltTy.bits .f32 = 32 ∨ (Rect.block (s := S8192x640) S1024x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x640.size a ≤ S8192x640.size a
  hwx0_4 : ∀ i : grid0.Coords, EltTy.bits .f32 = 32 ∨ (Rect.block (s := S8192x640) S1024x640.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x640.size a ≤ S65536x640.size a
  hwx1_0 : ∀ i : grid1.Coords, EltTy.bits .f32 = 32 ∨ (Rect.block (s := S65536x640) S1024x640.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x640.size a ≤ S65536x640.size a
  hwx1_1 : ∀ i : grid1.Coords, EltTy.bits .f32 = 32 ∨ (Rect.block (s := S65536x640) S1024x640.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x640.size a ≤ S64x640.size a
  hwx1_2 : ∀ i : grid1.Coords, EltTy.bits .f32 = 32 ∨ (Rect.block (s := S64x640) S64x640.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x640.size a ≤ S64x640.size a
  hwx1_3 : ∀ i : grid1.Coords, EltTy.bits .f32 = 32 ∨ (Rect.block (s := S64x640) S64x640.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S65536x1.size a
  hwx1_4 : ∀ i : grid1.Coords, EltTy.bits .i32 = 32 ∨ (Rect.block (s := S65536x1) S1024x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S65536x1.size a
  hwx1_5 : ∀ i : grid1.Coords, EltTy.bits .i32 = 32 ∨ (Rect.block (s := S65536x1) S1024x1.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x8.size a ≤ S8192x8.size a
  hwx1_6 : ∀ i : grid1.Coords, EltTy.bits .f32 = 32 ∨ (Rect.block (s := S8192x8) S128x8.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x8.size a ≤ S8192x8.size a
  hwx1_7 : ∀ i : grid1.Coords, EltTy.bits .f32 = 32 ∨ (Rect.block (s := S8192x8) S128x8.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x1.size a ≤ S8192x1.size a
  hwx1_8 : ∀ i : grid1.Coords, EltTy.bits .f32 = 32 ∨ (Rect.block (s := S8192x1) S128x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x1.size a ≤ S8192x1.size a
  hwx1_9 : ∀ i : grid1.Coords, EltTy.bits .f32 = 32 ∨ (Rect.block (s := S8192x1) S128x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S128x512.size a ≤ S8192x512.size a
  hwx1_10 : ∀ i : grid1.Coords, EltTy.bits .f32 = 32 ∨ (Rect.block (s := S8192x512) S128x512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S512x640.size a ≤ S512x640.size a
  hwx1_11 : ∀ i : grid1.Coords, EltTy.bits .bf16 = 32 ∨ (Rect.block (s := S512x640) S512x640.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x512.size a ≤ S1x512.size a
  hwx1_12 : ∀ i : grid1.Coords, EltTy.bits .f32 = 32 ∨ (Rect.block (s := S1x512) S1x512.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x512.size a ≤ S1x512.size a
  hwx1_13 : ∀ i : grid1.Coords, EltTy.bits .f32 = 32 ∨ (Rect.block (s := S1x512) S1x512.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S128x512.size a ≤ S8192x512.size a
  hwx1_14 : ∀ i : grid1.Coords, EltTy.bits .f32 = 32 ∨ (Rect.block (s := S8192x512) S128x512.size (cc1_transform_14 i) (hinb1_14 i)).WholeWords (EltTy.packing .f32)

variable [Facts₀]

def scatter_S512x128_S1_S512_0_1_1_0 : ScatterDims S512x128 S1 S512 where
  updateWindowDims := [0]
  insertedWindowDims := [1]
  scatterDimsToOperandDims := [1]
  indexVectorDim := 0
  wf := scatter_S512x128_S1_S512_0_1_1_0_wf
def scatter_S64x128_S1_S64_0_1_1_0 : ScatterDims S64x128 S1 S64 where
  updateWindowDims := [0]
  insertedWindowDims := [1]
  scatterDimsToOperandDims := [1]
  indexVectorDim := 0
  wf := scatter_S64x128_S1_S64_0_1_1_0_wf
def dot_S1024x512_S512x640_S1024x640_1_0_0_1_n_n : DotDims S1024x512 S512x640 S1024x640 where
  lhsContracting := [1]
  rhsContracting := [0]
  lhsNonContracting := [0]
  rhsNonContracting := [1]
  lhsBatch := []
  rhsBatch := []
  wf := dot_S1024x512_S512x640_S1024x640_1_0_0_1_n_n_wf
def gather_S8192x640_S65536x1_S65536x640_1_0_n_n_0_1_1640 : GatherDims S8192x640 S65536x1 S65536x640 where
  offsetDims := [1]
  collapsedSliceDims := [0]
  operandBatchingDims := []
  startIndicesBatchingDims := []
  startIndexMap := [0]
  indexVectorDim := 1
  sliceSizes := ![1, 640]
  wf := gather_S8192x640_S65536x1_S65536x640_1_0_n_n_0_1_1640_wf
def dot_S1024x64_S64x640_S1024x640_1_0_0_1_n_n : DotDims S1024x64 S64x640 S1024x640 where
  lhsContracting := [1]
  rhsContracting := [0]
  lhsNonContracting := [0]
  rhsNonContracting := [1]
  lhsBatch := []
  rhsBatch := []
  wf := dot_S1024x64_S64x640_S1024x640_1_0_0_1_n_n_wf
def dot_S128x512_S512x640_S128x640_1_0_0_1_n_n : DotDims S128x512 S512x640 S128x640 where
  lhsContracting := [1]
  rhsContracting := [0]
  lhsNonContracting := [0]
  rhsNonContracting := [1]
  lhsBatch := []
  rhsBatch := []
  wf := dot_S128x512_S512x640_S128x640_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S512x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49_0) S1024x640.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49_1) S1024x640.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v56) S1024x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S1024x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S64x640.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S64x640.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1024x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S128x8.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S128x8.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg7) S128x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v64) S128x1.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v0) S128x512.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v38) S512x640.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v65) S1x512.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v66) S1x512.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v67) S128x512.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S16x512x512 : Shape := ⟨3, ![16, 512, 512]⟩
abbrev S2x65536 : Shape := ⟨2, ![2, 65536]⟩
abbrev S65536 : Shape := ⟨1, ![65536]⟩
abbrev S8192x8 : Shape := ⟨2, ![8192, 8]⟩
abbrev S8192x1 : Shape := ⟨2, ![8192, 1]⟩
abbrev S16x512 : Shape := ⟨2, ![16, 512]⟩
abbrev S512x512 : Shape := ⟨2, ![512, 512]⟩
abbrev S64x512 : Shape := ⟨2, ![64, 512]⟩
abbrev S512x1 : Shape := ⟨2, ![512, 1]⟩
abbrev S64x1 : Shape := ⟨2, ![64, 1]⟩
abbrev S512 : Shape := ⟨1, ![512]⟩
abbrev S8192x512 : Shape := ⟨2, ![8192, 512]⟩
abbrev S1x65536 : Shape := ⟨2, ![1, 65536]⟩
abbrev S_ : Shape := ⟨0, ![]⟩
abbrev S65536x1 : Shape := ⟨2, ![65536, 1]⟩
abbrev S65536x512 : Shape := ⟨2, ![65536, 512]⟩
abbrev S8192x8x512 : Shape := ⟨3, ![8192, 8, 512]⟩
abbrev S8192x1x512 : Shape := ⟨3, ![8192, 1, 512]⟩
abbrev S8192x17x512 : Shape := ⟨3, ![8192, 17, 512]⟩
abbrev S8192x17 : Shape := ⟨2, ![8192, 17]⟩
abbrev S8192x17x1 : Shape := ⟨3, ![8192, 17, 1]⟩
abbrev S8192 : Shape := ⟨1, ![8192]⟩
abbrev S1x512 : Shape := ⟨2, ![1, 512]⟩
abbrev S16x512x1 : Shape := ⟨3, ![16, 512, 1]⟩

abbrev nBuf : Space → Nat
  | .hbm => 182
  | .vmem => 0
  | .smem => 0
  | _ => 0

abbrev hbmTy0_0 (i : Nat) : BufTy := match i % 128 with
  | 0 => ⟨S16x512x512, .f32⟩
  | 1 => ⟨S2x65536, .i32⟩
  | 2 => ⟨S65536, .i32⟩
  | 3 => ⟨S2x65536, .i32⟩
  | 4 => ⟨S65536, .i32⟩
  | 5 => ⟨S8192x8, .f32⟩
  | 6 => ⟨S8192x8, .f32⟩
  | 7 => ⟨S8192x1, .f32⟩
  | 8 => ⟨S16x512, .f32⟩
  | 9 => ⟨S512x512, .f32⟩
  | 10 => ⟨S64x512, .f32⟩
  | 11 => ⟨S512x1, .f32⟩
  | 12 => ⟨S64x1, .f32⟩
  | 13 => ⟨S512x512, .f32⟩
  | 14 => ⟨S64x512, .f32⟩
  | 15 => ⟨S512x1, .f32⟩
  | 16 => ⟨S64x1, .f32⟩
  | 17 => ⟨S512x512, .f32⟩
  | 18 => ⟨S512x1, .f32⟩
  | 19 => ⟨S512, .f32⟩
  | 20 => ⟨S512, .f32⟩
  | 21 => ⟨S8192x512, .f32⟩
  | 22 => ⟨S1x65536, .i32⟩
  | 23 => ⟨S65536, .i32⟩
  | 24 => ⟨S_, .i32⟩
  | 25 => ⟨S65536, .i32⟩
  | 26 => ⟨S65536, .i32⟩
  | 27 => ⟨S1x65536, .i32⟩
  | 28 => ⟨S65536, .i32⟩
  | 29 => ⟨S65536, .i32⟩
  | 30 => ⟨S1x65536, .i32⟩
  | 31 => ⟨S65536, .i32⟩
  | 32 => ⟨S_, .i32⟩
  | 33 => ⟨S65536, .i32⟩
  | 34 => ⟨S65536, .i32⟩
  | 35 => ⟨S1x65536, .i32⟩
  | 36 => ⟨S65536, .i32⟩
  | 37 => ⟨S65536, .i32⟩
  | 38 => ⟨S8192x512, .f32⟩
  | 39 => ⟨S_, .i32⟩
  | 40 => ⟨S65536, .i32⟩
  | 41 => ⟨S65536, .i1⟩
  | 42 => ⟨S_, .i32⟩
  | 43 => ⟨S65536, .i32⟩
  | 44 => ⟨S65536, .i32⟩
  | 45 => ⟨S65536, .i32⟩
  | 46 => ⟨S65536x1, .i32⟩
  | 47 => ⟨S65536x512, .f32⟩
  | 48 => ⟨S_, .i32⟩
  | 49 => ⟨S65536, .i32⟩
  | 50 => ⟨S65536, .i1⟩
  | 51 => ⟨S_, .i32⟩
  | 52 => ⟨S65536, .i32⟩
  | 53 => ⟨S65536, .i32⟩
  | 54 => ⟨S65536, .i32⟩
  | 55 => ⟨S65536x1, .i32⟩
  | 56 => ⟨S65536x512, .f32⟩
  | 57 => ⟨S65536x512, .f32⟩
  | 58 => ⟨S8192x1, .f32⟩
  | 59 => ⟨S_, .i32⟩
  | 60 => ⟨S65536, .i32⟩
  | 61 => ⟨S65536, .i1⟩
  | 62 => ⟨S_, .i32⟩
  | 63 => ⟨S65536, .i32⟩
  | 64 => ⟨S65536, .i32⟩
  | 65 => ⟨S65536, .i32⟩
  | 66 => ⟨S65536x1, .i32⟩
  | 67 => ⟨S65536x1, .f32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S65536x1, .i32⟩
  | 76 => ⟨S65536x1, .f32⟩
  | 77 => ⟨S65536x1, .f32⟩
  | 78 => ⟨S8192x512, .f32⟩
  | 79 => ⟨S_, .i32⟩
  | 80 => ⟨S65536, .i32⟩
  | 81 => ⟨S65536, .i1⟩
  | 82 => ⟨S_, .i32⟩
  | 83 => ⟨S65536, .i32⟩
  | 84 => ⟨S65536, .i32⟩
  | 85 => ⟨S65536, .i32⟩
  | 86 => ⟨S65536x1, .i32⟩
  | 87 => ⟨S65536x512, .f32⟩
  | 88 => ⟨S_, .i32⟩
  | 89 => ⟨S65536, .i32⟩
  | 90 => ⟨S65536, .i1⟩
  | 91 => ⟨S_, .i32⟩
  | 92 => ⟨S65536, .i32⟩
  | 93 => ⟨S65536, .i32⟩
  | 94 => ⟨S65536, .i32⟩
  | 95 => ⟨S65536x1, .i32⟩
  | 96 => ⟨S65536x512, .f32⟩
  | 97 => ⟨S65536x512, .f32⟩
  | 98 => ⟨S8192x1, .f32⟩
  | 99 => ⟨S_, .i32⟩
  | 100 => ⟨S65536, .i32⟩
  | 101 => ⟨S65536, .i1⟩
  | 102 => ⟨S_, .i32⟩
  | 103 => ⟨S65536, .i32⟩
  | 104 => ⟨S65536, .i32⟩
  | 105 => ⟨S65536, .i32⟩
  | 106 => ⟨S65536x1, .i32⟩
  | 107 => ⟨S65536x1, .f32⟩
  | 108 => ⟨S_, .i32⟩
  | 109 => ⟨S65536, .i32⟩
  | 110 => ⟨S65536, .i1⟩
  | 111 => ⟨S_, .i32⟩
  | 112 => ⟨S65536, .i32⟩
  | 113 => ⟨S65536, .i32⟩
  | 114 => ⟨S65536, .i32⟩
  | 115 => ⟨S65536x1, .i32⟩
  | 116 => ⟨S65536x1, .f32⟩
  | 117 => ⟨S65536x1, .f32⟩
  | 118 => ⟨S8192x512, .f32⟩
  | 119 => ⟨S8192x1, .f32⟩
  | 120 => ⟨S8192x8x512, .f32⟩
  | 121 => ⟨S8192x8x512, .f32⟩
  | 122 => ⟨S8192x1x512, .f32⟩
  | 123 => ⟨S8192x17x512, .f32⟩
  | 124 => ⟨S8192x8, .f32⟩
  | 125 => ⟨S8192x8, .f32⟩
  | 126 => ⟨S8192x17, .f32⟩
  | 127 => ⟨S8192x17, .f32⟩
  | _ => ⟨S16x512x512, .f32⟩

abbrev hbmTy0_1 (i : Nat) : BufTy := match i % 128 with
  | 0 => ⟨S8192x17, .f32⟩
  | 1 => ⟨S8192x17, .f32⟩
  | 2 => ⟨S_, .f32⟩
  | 3 => ⟨S8192x17, .f32⟩
  | 4 => ⟨S8192x17, .f32⟩
  | 5 => ⟨S_, .f32⟩
  | 6 => ⟨S8192x17, .f32⟩
  | 7 => ⟨S8192x17, .f32⟩
  | 8 => ⟨S8192x17, .f32⟩
  | 9 => ⟨S8192x17x1, .f32⟩
  | 10 => ⟨S8192x17x512, .f32⟩
  | 11 => ⟨S8192x17x512, .f32⟩
  | 12 => ⟨S_, .f32⟩
  | 13 => ⟨S8192x512, .f32⟩
  | 14 => ⟨S8192x1, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S8192x512, .f32⟩
  | 22 => ⟨S8192x512, .f32⟩
  | 23 => ⟨S8192x512, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x512, .f32⟩
  | 31 => ⟨S8192x512, .f32⟩
  | 32 => ⟨S_, .f32⟩
  | 33 => ⟨S8192x1, .f32⟩
  | 34 => ⟨S8192x1, .f32⟩
  | 35 => ⟨S8192x1, .f32⟩
  | 36 => ⟨S8192x512, .f32⟩
  | 37 => ⟨S8192x512, .f32⟩
  | 38 => ⟨S1x512, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S8192x512, .f32⟩
  | 45 => ⟨S8192x512, .f32⟩
  | 46 => ⟨S_, .f32⟩
  | 47 => ⟨S8192x512, .f32⟩
  | 48 => ⟨S8192x512, .f32⟩
  | 49 => ⟨S16x512x512, .f32⟩
  | 50 => ⟨S16x512x1, .f32⟩
  | 51 => ⟨S16x512x512, .f32⟩
  | 52 => ⟨S16x512x512, .f32⟩
  | 53 => ⟨S16x512x512, .f32⟩
  | _ => ⟨S16x512x512, .f32⟩

abbrev hbmTy (i : Nat) : BufTy := match i / 128 with
  | 0 => hbmTy0_0 i
  | 1 => hbmTy0_1 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_c : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_1 : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_3 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_7 : Ref sig .tc := ⟨.hbm, 68, rfl⟩
abbrev main_v39 : Ref sig .tc := ⟨.hbm, 69, rfl⟩
abbrev main_v40 : Ref sig .tc := ⟨.hbm, 70, rfl⟩
abbrev main_c_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_9 : Ref sig .tc := ⟨.hbm, 79, rfl⟩
abbrev main_v48 : Ref sig .tc := ⟨.hbm, 80, rfl⟩
abbrev main_v49 : Ref sig .tc := ⟨.hbm, 81, rfl⟩
abbrev main_c_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_11 : Ref sig .tc := ⟨.hbm, 88, rfl⟩
abbrev main_v55 : Ref sig .tc := ⟨.hbm, 89, rfl⟩
abbrev main_v56 : Ref sig .tc := ⟨.hbm, 90, rfl⟩
abbrev main_c_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_13 : Ref sig .tc := ⟨.hbm, 99, rfl⟩
abbrev main_v64 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_c_16 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_18 : Ref sig .tc := ⟨.hbm, 140, rfl⟩
abbrev main_v99 : Ref sig .tc := ⟨.hbm, 141, rfl⟩
abbrev main_v100 : Ref sig .tc := ⟨.hbm, 142, rfl⟩
abbrev main_cst_19 : Ref sig .tc := ⟨.hbm, 143, rfl⟩
abbrev main_v101 : Ref sig .tc := ⟨.hbm, 144, rfl⟩
abbrev main_v102 : Ref sig .tc := ⟨.hbm, 145, rfl⟩
abbrev main_cst_20 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_21 : Ref sig .tc := ⟨.hbm, 152, rfl⟩
abbrev main_v108 : Ref sig .tc := ⟨.hbm, 153, rfl⟩
abbrev main_v109 : Ref sig .tc := ⟨.hbm, 154, rfl⟩
abbrev main_cst_22 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_23 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_call0_cst : Ref sig .tc := ⟨.hbm, 174, rfl⟩
abbrev main_call0_v0 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩

abbrev nD : Nat := 1
abbrev τ : Topo := Topo.v7x

variable {F : FTy → Type} [FloatOps F]

class Facts₀ : Prop where
  shapeCasts_S16x512x512_S8192x512 : S16x512x512.ShapeCasts S8192x512
  slices_S2x65536_S1x65536_0_0 : S2x65536.Slices ![0, 0] S1x65536
  shapeCasts_S1x65536_S65536 : S1x65536.ShapeCasts S65536
  bcast_S_S65536 : S_.BroadcastsInDim S65536 (![] : Fin 0 → Fin S65536.rank)
  slices_S2x65536_S1x65536_1_0 : S2x65536.Slices ![1, 0] S1x65536
  bcast_S65536_S65536x1_0 : S65536.BroadcastsInDim S65536x1 (![0] : Fin 1 → Fin S65536x1.rank)
  shapeCasts_S65536x512_S8192x8x512 : S65536x512.ShapeCasts S8192x8x512
  bcast_S8192x512_S8192x1x512_0_2 : S8192x512.BroadcastsInDim S8192x1x512 (![0, 2] : Fin 2 → Fin S8192x1x512.rank)
  concatenates_S8192x8x512_S8192x8x512_S8192x1x512_S8192x17x512_d1 : Shape.Concatenates [S8192x8x512, S8192x8x512, S8192x1x512] S8192x17x512 1
  shapeCasts_S65536x1_S8192x8 : S65536x1.ShapeCasts S8192x8
  concatenates_S8192x8_S8192x8_S8192x1_S8192x17_d1 : Shape.Concatenates [S8192x8, S8192x8, S8192x1] S8192x17 1
  bcast_S_S8192x17 : S_.BroadcastsInDim S8192x17 (![] : Fin 0 → Fin S8192x17.rank)
  bcast_S8192x17_S8192x17x1_0_1 : S8192x17.BroadcastsInDim S8192x17x1 (![0, 1] : Fin 2 → Fin S8192x17x1.rank)
  bcast_S8192x17x1_S8192x17x512_0_1_2 : S8192x17x1.BroadcastsInDim S8192x17x512 (![0, 1, 2] : Fin 3 → Fin S8192x17x512.rank)
  reducesTo_S8192x17x512_S8192x512_d1 : S8192x17x512.ReducesTo [1] S8192x512
  h_S_ : 0 < S_.numel
  shapeCasts_S16x512_S8192x1 : S16x512.ShapeCasts S8192x1
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  shapeCasts_S8192x512_S16x512x512 : S8192x512.ShapeCasts S16x512x512
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  dot_S8192x512_S512x512_S8192x512_1_0_0_1_n_n_wf : DotDims.WF S8192x512 S512x512 S8192x512 [1] [0] [0] [1] [] []
  gather_S8192x512_S65536x1_S65536x512_1_0_n_n_0_1_1512_wf : GatherDims.WF S8192x512 S65536x1 S65536x512 [1] [0] [] [0] [] 1 ![1, 512]
  gather_S64x512_S65536x1_S65536x512_1_0_n_n_0_1_1512_wf : GatherDims.WF S64x512 S65536x1 S65536x512 [1] [0] [] [0] [] 1 ![1, 512]
  dot_S8192x512_S512x1_S8192x1_1_0_0_1_n_n_wf : DotDims.WF S8192x512 S512x1 S8192x1 [1] [0] [0] [1] [] []
  gather_S8192x1_S65536x1_S65536x1_1_0_n_n_0_1_11_wf : GatherDims.WF S8192x1 S65536x1 S65536x1 [1] [0] [] [0] [] 1 ![1, 1]
  gather_S64x1_S65536x1_S65536x1_1_0_n_n_0_1_11_wf : GatherDims.WF S64x1 S65536x1 S65536x1 [1] [0] [] [0] [] 1 ![1, 1]

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def gather_S8192x512_S65536x1_S65536x512_1_0_n_n_0_1_1512 : GatherDims S8192x512 S65536x1 S65536x512 where
  offsetDims := [1]
  collapsedSliceDims := [0]
  operandBatchingDims := []
  startIndicesBatchingDims := []
  startIndexMap := [0]
  indexVectorDim := 1
  sliceSizes := ![1, 512]
  wf := gather_S8192x512_S65536x1_S65536x512_1_0_n_n_0_1_1512_wf
def gather_S64x512_S65536x1_S65536x512_1_0_n_n_0_1_1512 : GatherDims S64x512 S65536x1 S65536x512 where
  offsetDims := [1]
  collapsedSliceDims := [0]
  operandBatchingDims := []
  startIndicesBatchingDims := []
  startIndexMap := [0]
  indexVectorDim := 1
  sliceSizes := ![1, 512]
  wf := gather_S64x512_S65536x1_S65536x512_1_0_n_n_0_1_1512_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def gather_S8192x1_S65536x1_S65536x1_1_0_n_n_0_1_11 : GatherDims S8192x1 S65536x1 S65536x1 where
  offsetDims := [1]
  collapsedSliceDims := [0]
  operandBatchingDims := []
  startIndicesBatchingDims := []
  startIndexMap := [0]
  indexVectorDim := 1
  sliceSizes := ![1, 1]
  wf := gather_S8192x1_S65536x1_S65536x1_1_0_n_n_0_1_11_wf
def gather_S64x1_S65536x1_S65536x1_1_0_n_n_0_1_11 : GatherDims S64x1 S65536x1 S65536x1 where
  offsetDims := [1]
  collapsedSliceDims := [0]
  operandBatchingDims := []
  startIndicesBatchingDims := []
  startIndexMap := [0]
  indexVectorDim := 1
  sliceSizes := ![1, 1]
  wf := gather_S64x1_S65536x1_S65536x1_1_0_n_n_0_1_11_wf

class Facts : Prop extends Facts₀ where

variable [Facts]
-- ==== Proof.Spec.lean ====
/-
  The mathematics both programs compute, stated once, index by index, over the extended reals.

  Nodes are numbered n = b * 512 + s (16 sentences of 512 positions), edges e = n * 8 + d (8 arcs per node and
  direction).  For an arc e the gathered row is the node whose number is arc[0, e] * 512 + arc[1, e], and its label is
  lab[e].  With x the [8192, 512] matrix of node features:

    pot  e j = (x V) (row e) j + b (lab e) j                      the projected feature of the arc's source, plus the label bias
    gate e   = (x Vg) (row e) + bg (lab e)                        its scalar gate
    h n j    = sum_d pot_in (n, d) j * (sigma (gate_in (n, d)) * mask_in n d)
             + sum_d pot_out (n, d) j * (sigma (gate_out (n, d)) * mask_out n d)
             + (sigma ((x Wg) n) * mask_loop n) * (x W) n j
    out n j  = max (layernorm (h n) j * sm n) 0 * sm n + x n j

  sigma is the logistic function, layernorm subtracts the row mean, multiplies by rsqrt (row variance + eps) and applies
  the affine pair (gamma, beta); mean and variance divide the row sums by 512.
-/
import Idealize.ShloMosaic.PureOps.Ideal
import Idealize.ShloMosaic.Lib.ValueIdx

noncomputable section

namespace Cert.Spec

open Idealize.ShloMosaic Idealize.ShloMosaic.ValueIdx

/-- Arrays of extended reals and of 32-bit words over literal shapes. -/
abbrev A3 (a b c : Nat) : Type := (⟨3, ![a, b, c]⟩ : Shape).Idx → EReal
abbrev A2 (a b : Nat) : Type := (⟨2, ![a, b]⟩ : Shape).Idx → EReal
abbrev A1 (a : Nat) : Type := (⟨1, ![a]⟩ : Shape).Idx → EReal
abbrev W2 (a b : Nat) : Type := (⟨2, ![a, b]⟩ : Shape).Idx → BitVec 32
abbrev W1 (a : Nat) : Type := (⟨1, ![a]⟩ : Shape).Idx → BitVec 32

/-- Node number of position `s` of sentence `b`. -/
def node (b : Fin 16) (s : Fin 512) : Fin 8192 := ⟨b.val * 512 + s.val, by omega⟩
/-- Edge number of arc `d` of node `n`. -/
def edge (n : Fin 8192) (d : Fin 8) : Fin 65536 := ⟨n.val * 8 + d.val, by omega⟩
/-- The sentence and the position of a node. -/
def sentOf (n : Fin 8192) : Fin 16 := ⟨n.val / 512, by omega⟩
def posOf (n : Fin 8192) : Fin 512 := ⟨n.val % 512, Nat.mod_lt _ (by norm_num)⟩

theorem sentOf_node (b : Fin 16) (s : Fin 512) : sentOf (node b s) = b := by
  apply Fin.ext; show (b.val * 512 + s.val) / 512 = b.val; omega
theorem posOf_node (b : Fin 16) (s : Fin 512) : posOf (node b s) = s := by
  apply Fin.ext; show (b.val * 512 + s.val) % 512 = s.val; omega
theorem node_sentOf_posOf (n : Fin 8192) : node (sentOf n) (posOf n) = n := by
  apply Fin.ext; show n.val / 512 * 512 + n.val % 512 = n.val; omega

/-- The node an arc points at: sentence word times 512 plus position word. -/
def rowOf (arc : W2 2 65536) (e : Fin 65536) : Fin 8192 :=
  ⟨((arc (ix2 0 e)).toNat * 512 + (arc (ix2 1 e)).toNat) % 8192, Nat.mod_lt _ (by norm_num)⟩
/-- The label class of an arc. -/
def labOf (lab : W1 65536) (e : Fin 65536) : Fin 64 := ⟨(lab (ix1 e)).toNat % 64, Nat.mod_lt _ (by norm_num)⟩

/-- The index inputs of one direction are in range: sentence words below 16, position words below 512, labels below 64
    (as unsigned words; so they are non-negative as signed ones). -/
structure InRange (arc : W2 2 65536) (lab : W1 65536) : Prop where
  sent : ∀ e : Fin 65536, (arc (ix2 0 e)).toNat < 16
  pos : ∀ e : Fin 65536, (arc (ix2 1 e)).toNat < 512
  lab : ∀ e : Fin 65536, (lab (ix1 e)).toNat < 64

theorem rowOf_val {arc : W2 2 65536} {lab : W1 65536} (h : InRange arc lab) (e : Fin 65536) :
    (rowOf arc e).val = (arc (ix2 0 e)).toNat * 512 + (arc (ix2 1 e)).toNat := by
  have h0 := h.sent e; have h1 := h.pos e
  show ((arc (ix2 0 e)).toNat * 512 + (arc (ix2 1 e)).toNat) % 8192 = _
  omega
theorem labOf_val {arc : W2 2 65536} {lab : W1 65536} (h : InRange arc lab) (e : Fin 65536) :
    (labOf lab e).val = (lab (ix1 e)).toNat := by
  have h2 := h.lab e
  show (lab (ix1 e)).toNat % 64 = _
  omega

/-! ## The features and the aggregated message -/

/-- Feature `k` of node `n`. -/
def xAt (src : A3 16 512 512) (n : Fin 8192) (k : Fin 512) : EReal := src (ix3 (sentOf n) (posOf n) k)

theorem xAt_node (src : A3 16 512 512) (b : Fin 16) (s : Fin 512) (k : Fin 512) : xAt src (node b s) k = src (ix3 b s k) := by
  unfold xAt; rw [sentOf_node, posOf_node]

/-- Column `j` of the product of the feature matrix with a weight matrix of `c` columns, at node `n`. -/
def dotCol {c : Nat} (src : A3 16 512 512) (W : A2 512 c) (n : Fin 8192) (j : Fin c) : EReal :=
  ∑ k : Fin 512, xAt src n k * W (ix2 k j)

/-- The potential of arc `e`: its source node's projected feature plus its label's bias row. -/
def potE (src : A3 16 512 512) (arc : W2 2 65536) (lab : W1 65536) (V : A2 512 512) (b : A2 64 512)
    (e : Fin 65536) (j : Fin 512) : EReal :=
  dotCol src V (rowOf arc e) j + b (ix2 (labOf lab e) j)

/-- The gate of arc `e`. -/
def gateE (src : A3 16 512 512) (arc : W2 2 65536) (lab : W1 65536) (Vg : A2 512 1) (bg : A2 64 1)
    (e : Fin 65536) : EReal :=
  dotCol src Vg (rowOf arc e) 0 + bg (ix2 (labOf lab e) 0)

/-- One direction's message into node `n`: the gated, masked sum of its eight arcs' potentials. -/
def arcSum (src : A3 16 512 512) (arc : W2 2 65536) (lab : W1 65536) (V : A2 512 512) (b : A2 64 512)
    (Vg : A2 512 1) (bg : A2 64 1) (mask : A2 8192 8) (n : Fin 8192) (j : Fin 512) : EReal :=
  ∑ d : Fin 8, potE src arc lab V b (edge n d) j * (Ideal.logistic (gateE src arc lab Vg bg (edge n d)) * mask (ix2 n d))

/-- The aggregated message: incoming arcs, outgoing arcs, the self loop. -/
def hSpec (src : A3 16 512 512) (arcIn : W2 2 65536) (labIn : W1 65536) (arcOut : W2 2 65536) (labOut : W1 65536)
    (maskIn maskOut : A2 8192 8) (maskLoop : A2 8192 1)
    (Vin : A2 512 512) (bIn : A2 64 512) (VinG : A2 512 1) (bInG : A2 64 1)
    (Vout : A2 512 512) (bOut : A2 64 512) (VoutG : A2 512 1) (bOutG : A2 64 1)
    (Wl : A2 512 512) (WlG : A2 512 1) (n : Fin 8192) (j : Fin 512) : EReal :=
  arcSum src arcIn labIn Vin bIn VinG bInG maskIn n j
    + arcSum src arcOut labOut Vout bOut VoutG bOutG maskOut n j
    + (Ideal.logistic (dotCol src WlG n 0) * maskLoop (ix2 n 0)) * dotCol src Wl n j

/-! ## Layer normalisation, the sentence mask, the rectifier and the residual -/

/-- The divisor of the mean, 512, and the variance's epsilon, as the words both programs carry. -/
def c512 : EReal := Ideal.ofBits .f32 0x44000000#32
def epsC : EReal := Ideal.ofBits .f32 0x3727C5AC#32

def mu {ι : Type} (h : ι → Fin 512 → EReal) (n : ι) : EReal := Ideal.div (∑ j : Fin 512, h n j) c512
def var {ι : Type} (h : ι → Fin 512 → EReal) (n : ι) : EReal :=
  Ideal.div (∑ j : Fin 512, (h n j - mu h n) * (h n j - mu h n)) c512

/-- The sentence mask of node `n`. -/
def smAt (sent : A2 16 512) (n : Fin 8192) : EReal := sent (ix2 (sentOf n) (posOf n))

theorem smAt_node (sent : A2 16 512) (b : Fin 16) (s : Fin 512) : smAt sent (node b s) = sent (ix2 b s) := by
  unfold smAt; rw [sentOf_node, posOf_node]

/-- The layer's output at node `n`, feature `j`, from the aggregated message `h`, the node's mask `sm` and its own
    feature `xv`. -/
def outOf {ι : Type} (h : ι → Fin 512 → EReal) (gamma beta : Fin 512 → EReal) (sm xv : EReal) (n : ι) (j : Fin 512) : EReal :=
  max (((h n j - mu h n) * Ideal.rsqrt (var h n + epsC) * gamma j + beta j) * sm) 0 * sm + xv

/-- The output at a row depends on the message only through that row: two messages (over any two row types) that agree
    on a pair of rows give the same output there. -/
theorem outOf_congr_row {ι κ : Type} (h : ι → Fin 512 → EReal) (h' : κ → Fin 512 → EReal) (gamma beta : Fin 512 → EReal)
    (sm xv : EReal) (n : ι) (n' : κ) (hrow : ∀ j, h n j = h' n' j) (j : Fin 512) :
    outOf h gamma beta sm xv n j = outOf h' gamma beta sm xv n' j := by
  have hmu : mu h n = mu h' n' := by unfold mu; simp only [hrow]
  have hvar : var h n = var h' n' := by unfold var; simp only [hrow, hmu]
  unfold outOf; rw [hrow, hmu, hvar]

/-- The whole layer as one function of the inputs. -/
def G (src : A3 16 512 512) (arcIn : W2 2 65536) (labIn : W1 65536) (arcOut : W2 2 65536) (labOut : W1 65536)
    (maskIn maskOut : A2 8192 8) (maskLoop : A2 8192 1) (sent : A2 16 512)
    (Vin : A2 512 512) (bIn : A2 64 512) (VinG : A2 512 1) (bInG : A2 64 1)
    (Vout : A2 512 512) (bOut : A2 64 512) (VoutG : A2 512 1) (bOutG : A2 64 1)
    (Wl : A2 512 512) (WlG : A2 512 1) (gamma beta : A1 512) : A3 16 512 512 :=
  fun i => outOf (hSpec src arcIn labIn arcOut labOut maskIn maskOut maskLoop Vin bIn VinG bInG Vout bOut VoutG bOutG Wl WlG)
    (fun j => gamma (ix1 j)) (fun j => beta (ix1 j)) (sent (ix2 (i 0) (i 1))) (src (ix3 (i 0) (i 1) (i 2))) (node (i 0) (i 1)) (i 2)

/-! ## A one-hot row selects one row of a table -/

/-- The sum over the 64 classes of (1 where the word is the class, else 0) times the table's row. -/
def oneHotSel (bp : A2 64 640) (w : BitVec 32) (j : Fin 640) : EReal :=
  ∑ l : Fin 64, (if w = BitVec.ofNat 32 l.val then (1 : EReal) else 0) * bp (ix2 l j)

theorem oneHotSel_eq (bp : A2 64 640) (w : BitVec 32) (hw : w.toNat < 64) (j : Fin 640) :
    oneHotSel bp w j = bp (ix2 ⟨w.toNat, hw⟩ j) := by
  unfold oneHotSel
  rw [Finset.sum_eq_single (⟨w.toNat, hw⟩ : Fin 64)]
  · rw [if_pos (by apply BitVec.eq_of_toNat_eq; simp [BitVec.toNat_ofNat] <;> omega), one_mul]
  · intro l _ hl
    rw [if_neg, zero_mul]
    intro h
    apply hl
    apply Fin.ext
    have : w.toNat = (BitVec.ofNat 32 l.val).toNat := by rw [h]
    simp [BitVec.toNat_ofNat] at this
    have hl64 := l.isLt
    show l.val = w.toNat
    omega
  · intro h; exact absurd (Finset.mem_univ _) h

/-! ## The kernel's packed tables

  The kernel carries each direction's weight matrix and gate vector in ONE table of 640 columns: columns 0..511 are the
  weight matrix, column 512 is the gate vector, columns 513..639 are zero.  The bias tables are packed the same way. -/

/-- Feature column `j` of a packed table, and the gate column. -/
def col (j : Fin 512) : Fin 640 := ⟨j.val, by omega⟩
def gcol : Fin 640 := ⟨512, by norm_num⟩

/-- The packed table of a matrix `V` of 512 columns and a column vector `Vg`, of `R` rows. -/
def packT {R : Nat} (V : A2 R 512) (Vg : A2 R 1) (k : Fin R) (j : Fin 640) : EReal :=
  if h : j.val < 512 then V (ix2 k ⟨j.val, h⟩) else if j.val = 512 then Vg (ix2 k 0) else 0

theorem packT_col {R : Nat} (V : A2 R 512) (Vg : A2 R 1) (k : Fin R) (j : Fin 512) : packT V Vg k (col j) = V (ix2 k j) := by
  unfold packT col; rw [dif_pos j.isLt]
theorem packT_gcol {R : Nat} (V : A2 R 512) (Vg : A2 R 1) (k : Fin R) : packT V Vg k gcol = Vg (ix2 k 0) := by
  unfold packT gcol; rw [dif_neg (by norm_num), if_pos rfl]

/-- An arc's packed value: the gathered row of the projected table plus the one-hot selected row of the bias table. -/
def combE (cp : A2 65536 640) (bp : A2 64 640) (lab : W2 65536 1) (e : Fin 65536) (j : Fin 640) : EReal :=
  cp (ix2 e j) + oneHotSel bp (lab (ix2 e 0)) j

/-- One direction's message from the packed arrays. -/
def combArc (cp : A2 65536 640) (bp : A2 64 640) (lab : W2 65536 1) (mask : A2 8192 8) (n : Fin 8192) (j : Fin 512) : EReal :=
  ∑ d : Fin 8, combE cp bp lab (edge n d) (col j) * (Ideal.logistic (combE cp bp lab (edge n d) gcol) * mask (ix2 n d))

/-- The self loop's packed projection of node `n`. -/
def combLoop (x : A2 8192 512) (wl : A2 512 640) (n : Fin 8192) (j : Fin 640) : EReal :=
  ∑ k : Fin 512, x (ix2 n k) * wl (ix2 k j)

/-- The aggregated message as the second kernel computes it from its fourteen arrays. -/
def combH (cpIn cpOut : A2 65536 640) (bpIn bpOut : A2 64 640) (labIn labOut : W2 65536 1)
    (maskIn maskOut : A2 8192 8) (maskLoop : A2 8192 1) (x : A2 8192 512) (wl : A2 512 640)
    (n : Fin 8192) (j : Fin 512) : EReal :=
  combArc cpIn bpIn labIn maskIn n j + combArc cpOut bpOut labOut maskOut n j
    + (Ideal.logistic (combLoop x wl n gcol) * maskLoop (ix2 n 0)) * combLoop x wl n (col j)

/-! ## One block of the second kernel: 128 nodes, their 1024 arcs per direction -/

/-- Arc `d` of the block's node `r`, as a row of the block's arc arrays. -/
def bedge (r : Fin 128) (d : Fin 8) : Fin 1024 := ⟨r.val * 8 + d.val, by omega⟩

def blkE (cp : A2 1024 640) (bp : A2 64 640) (lab : W2 1024 1) (r : Fin 128) (d : Fin 8) (j : Fin 640) : EReal :=
  cp (ix2 (bedge r d) j) + oneHotSel bp (lab (ix2 (bedge r d) 0)) j

def blkArc (cp : A2 1024 640) (bp : A2 64 640) (lab : W2 1024 1) (mask : A2 128 8) (r : Fin 128) (j : Fin 512) : EReal :=
  ∑ d : Fin 8, blkE cp bp lab r d (col j) * (Ideal.logistic (blkE cp bp lab r d gcol) * mask (ix2 r d))

def blkLoop (x : A2 128 512) (wl : A2 512 640) (r : Fin 128) (j : Fin 640) : EReal :=
  ∑ k : Fin 512, x (ix2 r k) * wl (ix2 k j)

/-- The aggregated message of the block's node `r` from the block's arrays. -/
def blkH (cpIn cpOut : A2 1024 640) (bpIn bpOut : A2 64 640) (labIn labOut : W2 1024 1)
    (maskIn maskOut : A2 128 8) (maskLoop : A2 128 1) (x : A2 128 512) (wl : A2 512 640)
    (r : Fin 128) (j : Fin 512) : EReal :=
  blkArc cpIn bpIn labIn maskIn r j + blkArc cpOut bpOut labOut maskOut r j
    + (Ideal.logistic (blkLoop x wl r gcol) * maskLoop (ix2 r 0)) * blkLoop x wl r (col j)

end Cert.Spec

end
-- ==== Proof.PreDecode.lean ====
/-
  The precondition's index conjuncts, decoded: when the printed predicate is all ones, the sentence words of both arc
  tables are below 16, the position words below 512 and the labels below 64 (each also non-negative as a signed word,
  which for a word below 2^31 is the same as its unsigned value being that small).
-/
import proofs.«408033_j214748365179_3_alg».proof.Pre_finite_inputs
import proofs.«408033_j214748365179_3_alg».proof.Proof.Spec
import Idealize.ShloMosaic.PureOps.Ideal
import Idealize.ShloMosaic.Lib.ValueIdx
import Idealize.ShloMosaic.Lib.ReduceAll
import Idealize.ShloMosaic.Lib.StableHlo.Predicate
import Idealize.ShloMosaic.Lib.ValueLayout
import Idealize.ShloMosaic.Lib.Pipeline.Value

noncomputable section

namespace Cert.Pre_finite_inputs.Bridge

open Idealize.ShloMosaic Idealize.ShloMosaic.ValueIdx Cert.Pre_finite_inputs

variable [Cert.Pre_finite_inputs.Facts]

/-- A 32-bit word that is at least 0 and below `n` as a signed word (`n` below 2^31) has unsigned value below `n`. -/
private theorem word_lt (w : BitVec 32) (n : Nat) (hn : n < 2 ^ 31)
    (h : IntOp.andi (IntOp.cmpi .sge w 0#32) (IntOp.cmpi .slt w (BitVec.ofNat 32 n)) = 1#1) : w.toNat < n := by
  obtain ⟨h0, h1⟩ := IntOp.andi_eq_one.1 h
  rw [IntOp.cmpi_sge] at h0
  rw [IntOp.cmpi_slt, StableHlo.Predicate.toInt_ofNat_small n hn] at h1
  have hz : (0#32 : BitVec 32).toInt = 0 := by decide
  rw [hz, BitVec.toInt_eq_toNat_cond] at h0
  rw [BitVec.toInt_eq_toNat_cond] at h1
  have hw := w.isLt
  split at h0 <;> omega

/-- Row `k` of a two-row word table, cut out as a [1, 65536] block at row offset `o = k` and flattened, reads at
    position `e` the table's entry `(k, e)`: the flat position of `(0, e)` in the block is `0 * 65536 + e = e`. -/
private theorem row_read (x : IVec S2x65536 32) (o : Nat) (k : Fin 2) (hk : k.val = o)
    (hs : S2x65536.Slices ![o, 0] S1x65536) (hc : S1x65536.ShapeCasts S65536) (e : Fin 65536) :
    shapeCast S65536 (extractStridedSlice S1x65536 ![o, 0] x hs) hc (ix1 e) = x (ix2 k e) := by
  refine (shapeCast_apply _ hc (ix1 e) (ix2 (0 : Fin 1) e) ?_).trans ?_
  · rw [Shape.rowMajor_val_two, Shape.rowMajor_val_one]
    show (0 : Nat) * 65536 + e.val = e.val
    omega
  · exact slice2_axis0_apply o x hs (0 : Fin 1) e k (by rw [hk]; rfl)

/-- A full reduction by `and` of a [65536] array of bits that came out 1 had a 1 at every position. -/
private theorem all_ones (p : IVec S65536 1) (init : IVec S_ 1)
    (h : Host.reduce IntOp.andi p init Facts.reducesTo_S65536_S_d0 Facts.h_S_ ix0 = 1#1) (e : Fin 65536) : p (ix1 e) = 1#1 := by
  -- the empty shape has exactly one index, so every position reduces into the one result
  haveI : Subsingleton S_.Idx := ⟨fun _ _ => funext fun d => d.elim0⟩
  exact Host.reduce_andi_all p init Facts.reducesTo_S65536_S_d0 Facts.h_S_ ix0 h (ix1 e)

/-- The last part of the predicate: its running conjunction and the last array of bits. -/
private theorem part8_dec (v134 : IVec S_ 1) (v139 : IVec S65536 1) (c49 : IVec S_ 1)
    (h : fn_part8 (F := Ideal) v134 v139 c49 ix0 = 1#1) :
    v134 ix0 = 1#1 ∧ ∀ e : Fin 65536, v139 (ix1 e) = 1#1 := by
  unfold fn_part8 at h
  obtain ⟨h1, h2⟩ := IntOp.andi_eq_one.1 h
  exact ⟨h1, all_ones _ _ h2⟩

private theorem part7_dec (x3 : IVec S2x65536 32) (x4 : IVec S65536 32) (v112 : IVec S_ 1) (v121 : IVec S65536 1) (c43 : IVec S_ 1)
    (h : fn_part7 (F := Ideal) x3 x4 v112 v121 c43 ix0 = 1#1) :
    v112 ix0 = 1#1 ∧ (∀ e : Fin 65536, v121 (ix1 e) = 1#1) ∧ (∀ e : Fin 65536, (x3 (ix2 1 e)).toNat < 512)
      ∧ (∀ e : Fin 65536, (x4 (ix1 e)).toNat < 64) := by
  unfold fn_part7 at h
  obtain ⟨h134, h139⟩ := part8_dec _ _ _ h
  obtain ⟨h123, h133⟩ := IntOp.andi_eq_one.1 h134
  obtain ⟨h112, h122⟩ := IntOp.andi_eq_one.1 h123
  refine ⟨h112, all_ones _ _ h122, fun e => ?_, fun e => ?_⟩
  · have hb := all_ones _ _ h133 e
    have hr := row_read x3 1 1 rfl Facts.slices_S2x65536_S1x65536_1_0 Facts.shapeCasts_S1x65536_S65536 e
    rw [← hr]
    exact word_lt _ 512 (by norm_num) hb
  · exact word_lt _ 64 (by norm_num) (h139 e)

private theorem part6_dec (x2 : IVec S65536 32) (x3 : IVec S2x65536 32) (x4 : IVec S65536 32) (v94 : IVec S_ 1)
    (v103 : IVec S65536 1) (c37 : IVec S_ 1)
    (h : fn_part6 (F := Ideal) x2 x3 x4 v94 v103 c37 ix0 = 1#1) :
    v94 ix0 = 1#1 ∧ (∀ e : Fin 65536, v103 (ix1 e) = 1#1) ∧ (∀ e : Fin 65536, (x2 (ix1 e)).toNat < 64)
      ∧ (∀ e : Fin 65536, (x3 (ix2 0 e)).toNat < 16) ∧ (∀ e : Fin 65536, (x3 (ix2 1 e)).toNat < 512)
      ∧ (∀ e : Fin 65536, (x4 (ix1 e)).toNat < 64) := by
  unfold fn_part6 at h
  obtain ⟨h112, h121, hpos, hlab⟩ := part7_dec _ _ _ _ _ h
  obtain ⟨h105, h111⟩ := IntOp.andi_eq_one.1 h112
  obtain ⟨h94, h104⟩ := IntOp.andi_eq_one.1 h105
  refine ⟨h94, all_ones _ _ h104, fun e => ?_, fun e => ?_, hpos, hlab⟩
  · exact word_lt _ 64 (by norm_num) (all_ones _ _ h111 e)
  · have hb := h121 e
    have hr := row_read x3 0 0 rfl Facts.slices_S2x65536_S1x65536_0_0 Facts.shapeCasts_S1x65536_S65536 e
    rw [← hr]
    exact word_lt _ 16 (by norm_num) hb

/-- The part that opens the index conjuncts; `v85` is the flattened sentence row of the incoming arcs' table. -/
private theorem part5_dec (x1 : IVec S2x65536 32) (x2 : IVec S65536 32) (x3 : IVec S2x65536 32) (x4 : IVec S65536 32)
    (v83 : IVec S_ 1) (v85 : IVec S65536 32) (hv85 : ∀ e : Fin 65536, v85 (ix1 e) = x1 (ix2 0 e))
    (h : fn_part5 (F := Ideal) x1 x2 x3 x4 v83 v85 ix0 = 1#1) :
    Cert.Spec.InRange x1 x2 ∧ Cert.Spec.InRange x3 x4 := by
  unfold fn_part5 at h
  obtain ⟨h94, h103, hlab1, hsent3, hpos3, hlab3⟩ := part6_dec _ _ _ _ _ _ h
  obtain ⟨-, h93⟩ := IntOp.andi_eq_one.1 h94
  refine ⟨⟨fun e => ?_, fun e => ?_, hlab1⟩, ⟨hsent3, hpos3, hlab3⟩⟩
  · have hb := all_ones _ _ h93 e
    have hr := row_read x1 0 0 rfl Facts.slices_S2x65536_S1x65536_0_0 Facts.shapeCasts_S1x65536_S65536 e
    obtain ⟨hb0, hb1⟩ := IntOp.andi_eq_one.1 hb
    have hb0' : IntOp.cmpi .sge (x1 (ix2 0 e)) 0#32 = 1#1 := by rw [← hv85 e]; exact hb0
    have hb1' : IntOp.cmpi .slt (x1 (ix2 0 e)) (BitVec.ofNat 32 16) = 1#1 := by rw [← hr]; exact hb1
    exact word_lt _ 16 (by norm_num) (IntOp.andi_eq_one.2 ⟨hb0', hb1'⟩)
  · have hb := h103 e
    have hr := row_read x1 1 1 rfl Facts.slices_S2x65536_S1x65536_1_0 Facts.shapeCasts_S1x65536_S65536 e
    rw [← hr]
    exact word_lt _ 512 (by norm_num) hb

/-- Both directions' index inputs are in range when the printed predicate is all ones. -/
private theorem inRange_both (x0 : FVec Ideal S16x512x512 .f32) (x1 : IVec S2x65536 32) (x2 : IVec S65536 32) (x3 : IVec S2x65536 32)
    (x4 : IVec S65536 32) (x5 x6 : FVec Ideal S8192x8 .f32) (x7 : FVec Ideal S8192x1 .f32) (x8 : FVec Ideal S16x512 .f32)
    (x9 : FVec Ideal S512x512 .f32) (x10 : FVec Ideal S64x512 .f32) (x11 : FVec Ideal S512x1 .f32) (x12 : FVec Ideal S64x1 .f32)
    (x13 : FVec Ideal S512x512 .f32) (x14 : FVec Ideal S64x512 .f32) (x15 : FVec Ideal S512x1 .f32) (x16 : FVec Ideal S64x1 .f32)
    (x17 : FVec Ideal S512x512 .f32) (x18 : FVec Ideal S512x1 .f32) (x19 x20 : FVec Ideal S512 .f32)
    (h : Cert.Pre_finite_inputs.fn (F := Ideal) x0 x1 x2 x3 x4 x5 x6 x7 x8 x9 x10 x11 x12 x13 x14 x15 x16 x17 x18 x19 x20 = fun _ => 1#1) :
    Cert.Spec.InRange x1 x2 ∧ Cert.Spec.InRange x3 x4 := by
  have h0 := congrFun h ix0
  unfold fn fn_part1 fn_part2 fn_part3 fn_part4 at h0
  exact part5_dec x1 x2 x3 x4 _ _
    (row_read x1 0 0 rfl Facts.slices_S2x65536_S1x65536_0_0 Facts.shapeCasts_S1x65536_S65536) h0

/-- The incoming arcs' index inputs are in range. -/
theorem inRange_in (x0 : FVec Ideal S16x512x512 .f32) (x1 : IVec S2x65536 32) (x2 : IVec S65536 32) (x3 : IVec S2x65536 32)
    (x4 : IVec S65536 32) (x5 x6 : FVec Ideal S8192x8 .f32) (x7 : FVec Ideal S8192x1 .f32) (x8 : FVec Ideal S16x512 .f32)
    (x9 : FVec Ideal S512x512 .f32) (x10 : FVec Ideal S64x512 .f32) (x11 : FVec Ideal S512x1 .f32) (x12 : FVec Ideal S64x1 .f32)
    (x13 : FVec Ideal S512x512 .f32) (x14 : FVec Ideal S64x512 .f32) (x15 : FVec Ideal S512x1 .f32) (x16 : FVec Ideal S64x1 .f32)
    (x17 : FVec Ideal S512x512 .f32) (x18 : FVec Ideal S512x1 .f32) (x19 x20 : FVec Ideal S512 .f32)
    (h : Cert.Pre_finite_inputs.fn (F := Ideal) x0 x1 x2 x3 x4 x5 x6 x7 x8 x9 x10 x11 x12 x13 x14 x15 x16 x17 x18 x19 x20 = fun _ => 1#1) :
    Cert.Spec.InRange x1 x2 :=
  (inRange_both x0 x1 x2 x3 x4 x5 x6 x7 x8 x9 x10 x11 x12 x13 x14 x15 x16 x17 x18 x19 x20 h).1

/-- The outgoing arcs' index inputs are in range. -/
theorem inRange_out (x0 : FVec Ideal S16x512x512 .f32) (x1 : IVec S2x65536 32) (x2 : IVec S65536 32) (x3 : IVec S2x65536 32)
    (x4 : IVec S65536 32) (x5 x6 : FVec Ideal S8192x8 .f32) (x7 : FVec Ideal S8192x1 .f32) (x8 : FVec Ideal S16x512 .f32)
    (x9 : FVec Ideal S512x512 .f32) (x10 : FVec Ideal S64x512 .f32) (x11 : FVec Ideal S512x1 .f32) (x12 : FVec Ideal S64x1 .f32)
    (x13 : FVec Ideal S512x512 .f32) (x14 : FVec Ideal S64x512 .f32) (x15 : FVec Ideal S512x1 .f32) (x16 : FVec Ideal S64x1 .f32)
    (x17 : FVec Ideal S512x512 .f32) (x18 : FVec Ideal S512x1 .f32) (x19 x20 : FVec Ideal S512 .f32)
    (h : Cert.Pre_finite_inputs.fn (F := Ideal) x0 x1 x2 x3 x4 x5 x6 x7 x8 x9 x10 x11 x12 x13 x14 x15 x16 x17 x18 x19 x20 = fun _ => 1#1) :
    Cert.Spec.InRange x3 x4 :=
  (inRange_both x0 x1 x2 x3 x4 x5 x6 x7 x8 x9 x10 x11 x12 x13 x14 x15 x16 x17 x18 x19 x20 h).2

end Cert.Pre_finite_inputs.Bridge

end
-- ==== Proof.KBody.lean ====
/-
  The second kernel's body, read at one row and one feature: from the blocks it loads (1024 gathered arc rows per
  direction, the two packed bias tables, the arcs' labels, the masks, the node features and the packed self-loop table)
  its one store holds, at node r of the block and feature j, the layer's output for that node — the aggregated message
  of the block's arrays (the one-hot matmul selects the label's bias row; the reshape groups eight consecutive arc rows
  under their node; the lane reduction sums the eight arcs), layer-normalised over the 512 features, masked, rectified,
  masked again, plus the node's own feature.
-/
import proofs.«408033_j214748365179_3_alg».proof.Proof.Gen.KernelIdeal.Skeleton
import proofs.«408033_j214748365179_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## Matrix products read at an index

The node-feature block [1024, 512] times a packed table [512, 640]: the operand indices on each axis. -/
private theorem lhs_proj_0 (i : S1024x640.Idx) (q : dot_S1024x512_S512x640_S1024x640_1_0_0_1_n_n.contr.Idx) :
    (dot_S1024x512_S512x640_S1024x640_1_0_0_1_n_n.lhsIdx i q 0).val = (i 0).val := by
  unfold DotDims.lhsIdx
  rw [dif_neg (show ¬(0 : Fin S1024x512.rank) ∈ dot_S1024x512_S512x640_S1024x640_1_0_0_1_n_n.lhsBatch by decide), dif_pos (show (0 : Fin S1024x512.rank) ∈ dot_S1024x512_S512x640_S1024x640_1_0_0_1_n_n.lhsNonContracting by decide)]
  rfl
private theorem lhs_proj_1 (i : S1024x640.Idx) (q : dot_S1024x512_S512x640_S1024x640_1_0_0_1_n_n.contr.Idx) :
    (dot_S1024x512_S512x640_S1024x640_1_0_0_1_n_n.lhsIdx i q 1).val = (q ⟨0, by decide⟩).val :=
  dot_S1024x512_S512x640_S1024x640_1_0_0_1_n_n.lhsIdx_val_of_single rfl i q
private theorem rhs_proj_0 (i : S1024x640.Idx) (q : dot_S1024x512_S512x640_S1024x640_1_0_0_1_n_n.contr.Idx) :
    (dot_S1024x512_S512x640_S1024x640_1_0_0_1_n_n.rhsIdx i q 0).val = (q ⟨0, by decide⟩).val :=
  dot_S1024x512_S512x640_S1024x640_1_0_0_1_n_n.rhsIdx_val_of_single rfl i q
private theorem rhs_proj_1 (i : S1024x640.Idx) (q : dot_S1024x512_S512x640_S1024x640_1_0_0_1_n_n.contr.Idx) :
    (dot_S1024x512_S512x640_S1024x640_1_0_0_1_n_n.rhsIdx i q 1).val = (i 1).val := by
  unfold DotDims.rhsIdx
  rw [dif_neg (show ¬(1 : Fin S512x640.rank) ∈ dot_S1024x512_S512x640_S1024x640_1_0_0_1_n_n.rhsBatch by decide), dif_pos (show (1 : Fin S512x640.rank) ∈ dot_S1024x512_S512x640_S1024x640_1_0_0_1_n_n.rhsNonContracting by decide)]
  rfl

/-- Into the zero accumulator the product at row `r`, column `j` is the sum over the contracted coordinate `k` of the
    left operand at `(r, k)` times the right operand at `(k, j)`. -/
private theorem matmul_proj_apply {φ₁ φ₂ : FTy} (prec : Option ContractPrecision) (lhs : FVec Ideal S1024x512 φ₁) (rhs : FVec Ideal S512x640 φ₂)
    (r : Fin 1024) (j : Fin 640) :
    matmul dot_S1024x512_S512x640_S1024x640_1_0_0_1_n_n prec lhs rhs (constant (F := Ideal) S1024x640 .f32 0x00000000#32) (ix2 r j)
      = ∑ k : Fin 512, lhs (ix2 r k) * rhs (ix2 k j) := by
  simp only [matmul]
  rw [Ideal.matmul_constant_zero_apply, ← Equiv.sum_comp (ValueIdx.contrEquiv1 dot_S1024x512_S512x640_S1024x640_1_0_0_1_n_n 512 rfl rfl).symm]
  refine Finset.sum_congr rfl fun k _ => ?_
  have hk := ValueIdx.contrEquiv1_symm_val dot_S1024x512_S512x640_S1024x640_1_0_0_1_n_n 512 rfl rfl k
  have el : dot_S1024x512_S512x640_S1024x640_1_0_0_1_n_n.lhsIdx (ix2 r j) ((ValueIdx.contrEquiv1 dot_S1024x512_S512x640_S1024x640_1_0_0_1_n_n 512 rfl rfl).symm k) = ix2 r k := funext fun a => Fin.ext (by
    match a with
    | ⟨0, _⟩ => exact lhs_proj_0 _ _
    | ⟨1, _⟩ => exact (lhs_proj_1 _ _).trans hk)
  have er : dot_S1024x512_S512x640_S1024x640_1_0_0_1_n_n.rhsIdx (ix2 r j) ((ValueIdx.contrEquiv1 dot_S1024x512_S512x640_S1024x640_1_0_0_1_n_n 512 rfl rfl).symm k) = ix2 k j := funext fun a => Fin.ext (by
    match a with
    | ⟨0, _⟩ => exact (rhs_proj_0 _ _).trans hk
    | ⟨1, _⟩ => exact rhs_proj_1 _ _)
  rw [el, er]

/-! The one-hot label matrix [1024, 64] times a packed bias table [64, 640]. -/
private theorem lhs_sel_0 (i : S1024x640.Idx) (q : dot_S1024x64_S64x640_S1024x640_1_0_0_1_n_n.contr.Idx) :
    (dot_S1024x64_S64x640_S1024x640_1_0_0_1_n_n.lhsIdx i q 0).val = (i 0).val := by
  unfold DotDims.lhsIdx
  rw [dif_neg (show ¬(0 : Fin S1024x64.rank) ∈ dot_S1024x64_S64x640_S1024x640_1_0_0_1_n_n.lhsBatch by decide), dif_pos (show (0 : Fin S1024x64.rank) ∈ dot_S1024x64_S64x640_S1024x640_1_0_0_1_n_n.lhsNonContracting by decide)]
  rfl
private theorem lhs_sel_1 (i : S1024x640.Idx) (q : dot_S1024x64_S64x640_S1024x640_1_0_0_1_n_n.contr.Idx) :
    (dot_S1024x64_S64x640_S1024x640_1_0_0_1_n_n.lhsIdx i q 1).val = (q ⟨0, by decide⟩).val :=
  dot_S1024x64_S64x640_S1024x640_1_0_0_1_n_n.lhsIdx_val_of_single rfl i q
private theorem rhs_sel_0 (i : S1024x640.Idx) (q : dot_S1024x64_S64x640_S1024x640_1_0_0_1_n_n.contr.Idx) :
    (dot_S1024x64_S64x640_S1024x640_1_0_0_1_n_n.rhsIdx i q 0).val = (q ⟨0, by decide⟩).val :=
  dot_S1024x64_S64x640_S1024x640_1_0_0_1_n_n.rhsIdx_val_of_single rfl i q
private theorem rhs_sel_1 (i : S1024x640.Idx) (q : dot_S1024x64_S64x640_S1024x640_1_0_0_1_n_n.contr.Idx) :
    (dot_S1024x64_S64x640_S1024x640_1_0_0_1_n_n.rhsIdx i q 1).val = (i 1).val := by
  unfold DotDims.rhsIdx
  rw [dif_neg (show ¬(1 : Fin S64x640.rank) ∈ dot_S1024x64_S64x640_S1024x640_1_0_0_1_n_n.rhsBatch by decide), dif_pos (show (1 : Fin S64x640.rank) ∈ dot_S1024x64_S64x640_S1024x640_1_0_0_1_n_n.rhsNonContracting by decide)]
  rfl

/-- Into the zero accumulator the product at row `r`, column `j` is the sum over the contracted coordinate `k` of the
    left operand at `(r, k)` times the right operand at `(k, j)`. -/
private theorem matmul_sel_apply {φ₁ φ₂ : FTy} (prec : Option ContractPrecision) (lhs : FVec Ideal S1024x64 φ₁) (rhs : FVec Ideal S64x640 φ₂)
    (r : Fin 1024) (j : Fin 640) :
    matmul dot_S1024x64_S64x640_S1024x640_1_0_0_1_n_n prec lhs rhs (constant (F := Ideal) S1024x640 .f32 0x00000000#32) (ix2 r j)
      = ∑ k : Fin 64, lhs (ix2 r k) * rhs (ix2 k j) := by
  simp only [matmul]
  rw [Ideal.matmul_constant_zero_apply, ← Equiv.sum_comp (ValueIdx.contrEquiv1 dot_S1024x64_S64x640_S1024x640_1_0_0_1_n_n 64 rfl rfl).symm]
  refine Finset.sum_congr rfl fun k _ => ?_
  have hk := ValueIdx.contrEquiv1_symm_val dot_S1024x64_S64x640_S1024x640_1_0_0_1_n_n 64 rfl rfl k
  have el : dot_S1024x64_S64x640_S1024x640_1_0_0_1_n_n.lhsIdx (ix2 r j) ((ValueIdx.contrEquiv1 dot_S1024x64_S64x640_S1024x640_1_0_0_1_n_n 64 rfl rfl).symm k) = ix2 r k := funext fun a => Fin.ext (by
    match a with
    | ⟨0, _⟩ => exact lhs_sel_0 _ _
    | ⟨1, _⟩ => exact (lhs_sel_1 _ _).trans hk)
  have er : dot_S1024x64_S64x640_S1024x640_1_0_0_1_n_n.rhsIdx (ix2 r j) ((ValueIdx.contrEquiv1 dot_S1024x64_S64x640_S1024x640_1_0_0_1_n_n 64 rfl rfl).symm k) = ix2 k j := funext fun a => Fin.ext (by
    match a with
    | ⟨0, _⟩ => exact (rhs_sel_0 _ _).trans hk
    | ⟨1, _⟩ => exact rhs_sel_1 _ _)
  rw [el, er]

/-! The block's node features [128, 512] times the packed self-loop table [512, 640]. -/
private theorem lhs_loop_0 (i : S128x640.Idx) (q : dot_S128x512_S512x640_S128x640_1_0_0_1_n_n.contr.Idx) :
    (dot_S128x512_S512x640_S128x640_1_0_0_1_n_n.lhsIdx i q 0).val = (i 0).val := by
  unfold DotDims.lhsIdx
  rw [dif_neg (show ¬(0 : Fin S128x512.rank) ∈ dot_S128x512_S512x640_S128x640_1_0_0_1_n_n.lhsBatch by decide), dif_pos (show (0 : Fin S128x512.rank) ∈ dot_S128x512_S512x640_S128x640_1_0_0_1_n_n.lhsNonContracting by decide)]
  rfl
private theorem lhs_loop_1 (i : S128x640.Idx) (q : dot_S128x512_S512x640_S128x640_1_0_0_1_n_n.contr.Idx) :
    (dot_S128x512_S512x640_S128x640_1_0_0_1_n_n.lhsIdx i q 1).val = (q ⟨0, by decide⟩).val :=
  dot_S128x512_S512x640_S128x640_1_0_0_1_n_n.lhsIdx_val_of_single rfl i q
private theorem rhs_loop_0 (i : S128x640.Idx) (q : dot_S128x512_S512x640_S128x640_1_0_0_1_n_n.contr.Idx) :
    (dot_S128x512_S512x640_S128x640_1_0_0_1_n_n.rhsIdx i q 0).val = (q ⟨0, by decide⟩).val :=
  dot_S128x512_S512x640_S128x640_1_0_0_1_n_n.rhsIdx_val_of_single rfl i q
private theorem rhs_loop_1 (i : S128x640.Idx) (q : dot_S128x512_S512x640_S128x640_1_0_0_1_n_n.contr.Idx) :
    (dot_S128x512_S512x640_S128x640_1_0_0_1_n_n.rhsIdx i q 1).val = (i 1).val := by
  unfold DotDims.rhsIdx
  rw [dif_neg (show ¬(1 : Fin S512x640.rank) ∈ dot_S128x512_S512x640_S128x640_1_0_0_1_n_n.rhsBatch by decide), dif_pos (show (1 : Fin S512x640.rank) ∈ dot_S128x512_S512x640_S128x640_1_0_0_1_n_n.rhsNonContracting by decide)]
  rfl

/-- Into the zero accumulator the product at row `r`, column `j` is the sum over the contracted coordinate `k` of the
    left operand at `(r, k)` times the right operand at `(k, j)`. -/
private theorem matmul_loop_apply {φ₁ φ₂ : FTy} (prec : Option ContractPrecision) (lhs : FVec Ideal S128x512 φ₁) (rhs : FVec Ideal S512x640 φ₂)
    (r : Fin 128) (j : Fin 640) :
    matmul dot_S128x512_S512x640_S128x640_1_0_0_1_n_n prec lhs rhs (constant (F := Ideal) S128x640 .f32 0x00000000#32) (ix2 r j)
      = ∑ k : Fin 512, lhs (ix2 r k) * rhs (ix2 k j) := by
  simp only [matmul]
  rw [Ideal.matmul_constant_zero_apply, ← Equiv.sum_comp (ValueIdx.contrEquiv1 dot_S128x512_S512x640_S128x640_1_0_0_1_n_n 512 rfl rfl).symm]
  refine Finset.sum_congr rfl fun k _ => ?_
  have hk := ValueIdx.contrEquiv1_symm_val dot_S128x512_S512x640_S128x640_1_0_0_1_n_n 512 rfl rfl k
  have el : dot_S128x512_S512x640_S128x640_1_0_0_1_n_n.lhsIdx (ix2 r j) ((ValueIdx.contrEquiv1 dot_S128x512_S512x640_S128x640_1_0_0_1_n_n 512 rfl rfl).symm k) = ix2 r k := funext fun a => Fin.ext (by
    match a with
    | ⟨0, _⟩ => exact lhs_loop_0 _ _
    | ⟨1, _⟩ => exact (lhs_loop_1 _ _).trans hk)
  have er : dot_S128x512_S512x640_S128x640_1_0_0_1_n_n.rhsIdx (ix2 r j) ((ValueIdx.contrEquiv1 dot_S128x512_S512x640_S128x640_1_0_0_1_n_n 512 rfl rfl).symm k) = ix2 k j := funext fun a => Fin.ext (by
    match a with
    | ⟨0, _⟩ => exact (rhs_loop_0 _ _).trans hk
    | ⟨1, _⟩ => exact rhs_loop_1 _ _)
  rw [el, er]

/-! ## Layout operations at coordinates -/

/-- A column `[a, 1]` broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An array `[a, b, 1]` broadcast to `[a, b, c]` reads, at `(p, q, e)`, the operand at `(p, q, 0)`. -/
private theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector `[a]` cast to the column `[a, 1]` reads, at `(p, u)`, the vector at `p`. -/
private theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A matrix `[a, b]` cast to `[a, b, 1]` reads, at `(p, q, u)`, the matrix at `(p, q)`. -/
private theorem shapeCast_ab_ab1_apply {α : Type} {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- The 1024 arc rows grouped eight to a node: `[1024, c]` cast to `[128, 8, c]` reads, at `(r, d, j)`, row
    `r * 8 + d` at column `j`. -/
private theorem shapeCast_group8_apply {α : Type} {c : ℕ} (x : (⟨2, ![1024, c]⟩ : Shape).Idx → α)
    (h : (⟨2, ![1024, c]⟩ : Shape).ShapeCasts ⟨3, ![128, 8, c]⟩) (r : Fin 128) (d : Fin 8) (j : Fin c) :
    shapeCast ⟨3, ![128, 8, c]⟩ x h (ix3 r d j) = x (ix2 (Cert.Spec.bedge r d) j) :=
  shapeCast_apply x h _ _ (by
    rw [Shape.rowMajor_val_three, Shape.rowMajor_val_two]
    rfl)

/-- The lane sum of a `[128, 512]` block along its second axis, at row `r`: the sum over the 512 features. -/
private theorem rowSum_apply (src : FVec Ideal S128x512 .f32) (hφ : FKind.Formats .f32)
    (hacc : (0x00000000#32 : BitVec 32) = FKind.add.neutral .f32 hφ) (r : Fin 128) :
    multiReduction .add [1] S128 src 0x00000000#32 reduces_S128x512_S128 hφ hacc (ix1 r) = ∑ j : Fin 512, src (ix2 r j) := by
  refine (Ideal.multiReduction_add_single src 0x00000000#32 reduces_S128x512_S128 hφ hacc (ix1 r)).trans ?_
  refine Finset.sum_congr rfl fun k _ => congrArg src ?_
  funext a
  match a with
  | ⟨0, _⟩ => rfl
  | ⟨1, _⟩ => rfl

/-- The sum over the eight arcs of a `[128, 8, 512]` block, at node `r` and feature `j`. -/
private theorem arcSum_apply (src : FVec Ideal S128x8x512 .f32) (hφ : FKind.Formats .f32)
    (hacc : (0x00000000#32 : BitVec 32) = FKind.add.neutral .f32 hφ) (r : Fin 128) (j : Fin 512) :
    multiReduction .add [1] S128x512 src 0x00000000#32 reduces_S128x8x512_S128x512 hφ hacc (ix2 r j) = ∑ d : Fin 8, src (ix3 r d j) := by
  refine (Ideal.multiReduction_add_single src 0x00000000#32 reduces_S128x8x512_S128x512 hφ hacc (ix2 r j)).trans ?_
  refine Finset.sum_congr rfl fun k _ => congrArg src ?_
  funext a
  match a with
  | ⟨0, _⟩ => rfl
  | ⟨1, _⟩ => rfl
  | ⟨2, _⟩ => rfl

/-! ## The one-hot factor and an arc's packed value -/

/-- A one-bit comparison word widened to 32 bits and read as a signed integer is 1 when the two words are equal, else 0. -/
private theorem onehot_word (a b : BitVec 32) :
    FloatOps.sitofp (F := Ideal) .f32 ((IntOp.cmpi .eq a b).setWidth 32) = if a = b then (1 : EReal) else 0 := by
  by_cases h : a = b
  · rw [if_pos h, IntOp.cmpi_eq.mpr h]
    show ((((1#1 : BitVec 1).setWidth 32).toInt : ℝ) : EReal) = 1
    rw [show ((1#1 : BitVec 1).setWidth 32).toInt = 1 by decide]
    simp
  · have h0 : IntOp.cmpi .eq a b = 0#1 := eq_zero_of_ne_one (fun h1 => h (IntOp.cmpi_eq.mp h1))
    rw [if_neg h, h0]
    show ((((0#1 : BitVec 1).setWidth 32).toInt : ℝ) : EReal) = 0
    rw [show ((0#1 : BitVec 1).setWidth 32).toInt = 0 by decide]
    simp

/-- The one-hot matrix at arc row `e` and class `l`: 1 where the arc's label word is the class, else 0. -/
private theorem onehot_apply (lab : IVec S1024x1 32) (e : Fin 1024) (l : Fin 64) :
    (sitofp .f32 (extui 32 (cmpi .eq (broadcastTo S1024x64 lab broadcasts_S1024x1_S1024x64)
        (broadcastTo S1024x64 (iota .tc S1x64 32 [1] iota_S1x64_d1_w32) broadcasts_S1x64_S1024x64)) natLt_1_32) : FVec Ideal S1024x64 .f32) (ix2 e l)
      = if lab (ix2 e 0) = BitVec.ofNat 32 l.val then (1 : EReal) else 0 := by
  refine (onehot_word _ _).trans ?_
  rw [broadcastTo_a1_ab_apply, broadcastTo_1b_ab_apply, iota_single_apply]

/-- An arc's packed value: the gathered row plus the one-hot product with the bias table, which is the sum over the
    classes of the indicator times the table's row. -/
private theorem k1_pay2_apply (v0 : Vec Ideal S1024x1 .i32) (v15 : Vec Ideal S64x640 .f32) (v21 : Vec Ideal S1024x640 .f32)
    (e : Fin 1024) (j : Fin 640) :
    k1_pay2 (F := Ideal) v0 v15 v21 (ix2 e j) = v21 (ix2 e j) + Cert.Spec.oneHotSel v15 (v0 (ix2 e 0)) j := by
  unfold k1_pay2
  refine (addf_apply _ _ _).trans ?_
  rw [shapeCast_self]
  refine congrArg (v21 (ix2 e j) + ·) ?_
  refine (matmul_sel_apply _ _ _ e j).trans ?_
  unfold Cert.Spec.oneHotSel
  refine Finset.sum_congr rfl fun l _ => ?_
  rw [onehot_apply, shapeCast_self, shapeCast_self]

/-- The same for the outgoing direction's arrays. -/
private theorem k1_pay3_apply (v2 : Vec Ideal S1024x1 .i32) (v18 : Vec Ideal S64x640 .f32) (v24 : Vec Ideal S1024x640 .f32)
    (e : Fin 1024) (j : Fin 640) :
    k1_pay3 (F := Ideal) v2 v18 v24 (ix2 e j) = v24 (ix2 e j) + Cert.Spec.oneHotSel v18 (v2 (ix2 e 0)) j := by
  unfold k1_pay3
  refine (addf_apply _ _ _).trans ?_
  rw [shapeCast_self]
  refine congrArg (v24 (ix2 e j) + ·) ?_
  refine (matmul_sel_apply _ _ _ e j).trans ?_
  unfold Cert.Spec.oneHotSel
  refine Finset.sum_congr rfl fun l _ => ?_
  rw [onehot_apply, shapeCast_self, shapeCast_self]

/-! ## The arcs' potentials and gates, grouped under their nodes -/

/-- Feature `j` of arc `d` of node `r`: the feature columns of the packed value, rows grouped eight to a node. -/
private theorem k1_pay4_apply (v0 : Vec Ideal S1024x1 .i32) (v15 : Vec Ideal S64x640 .f32) (v21 : Vec Ideal S1024x640 .f32)
    (r : Fin 128) (d : Fin 8) (j : Fin 512) :
    k1_pay4 (F := Ideal) v0 v15 v21 (ix3 r d j) = Cert.Spec.blkE v21 v15 v0 r d (Cert.Spec.col j) := by
  unfold k1_pay4
  refine (shapeCast_group8_apply _ _ r d j).trans ?_
  refine (slice2_axis1_apply 0 _ _ (Cert.Spec.bedge r d) j (Cert.Spec.col j) (Nat.zero_add _).symm).trans ?_
  exact k1_pay2_apply v0 v15 v21 _ _

private theorem k1_pay5_apply (v2 : Vec Ideal S1024x1 .i32) (v18 : Vec Ideal S64x640 .f32) (v24 : Vec Ideal S1024x640 .f32)
    (r : Fin 128) (d : Fin 8) (j : Fin 512) :
    k1_pay5 (F := Ideal) v2 v18 v24 (ix3 r d j) = Cert.Spec.blkE v24 v18 v2 r d (Cert.Spec.col j) := by
  unfold k1_pay5
  refine (shapeCast_group8_apply _ _ r d j).trans ?_
  refine (slice2_axis1_apply 0 _ _ (Cert.Spec.bedge r d) j (Cert.Spec.col j) (Nat.zero_add _).symm).trans ?_
  exact k1_pay3_apply v2 v18 v24 _ _

/-- The gate column (column 512) of the packed value of arc `d` of node `r`. -/
private theorem gate_in_apply (v0 : Vec Ideal S1024x1 .i32) (v15 : Vec Ideal S64x640 .f32) (v21 : Vec Ideal S1024x640 .f32)
    (r : Fin 128) (d : Fin 8) :
    shapeCast S128x8x1 (extractStridedSlice S1024x1 ![0, 512] (k1_pay2 (F := Ideal) v0 v15 v21) slices_S1024x640_o0_512_S1024x1)
        shapeCasts_S1024x1_S128x8x1 (ix3 r d (0 : Fin 1))
      = Cert.Spec.blkE v21 v15 v0 r d Cert.Spec.gcol := by
  refine (shapeCast_group8_apply _ _ r d 0).trans ?_
  refine (slice2_axis1_apply 512 _ _ (Cert.Spec.bedge r d) 0 Cert.Spec.gcol rfl).trans ?_
  exact k1_pay2_apply v0 v15 v21 _ _

private theorem gate_out_apply (v2 : Vec Ideal S1024x1 .i32) (v18 : Vec Ideal S64x640 .f32) (v24 : Vec Ideal S1024x640 .f32)
    (r : Fin 128) (d : Fin 8) :
    shapeCast S128x8x1 (extractStridedSlice S1024x1 ![0, 512] (k1_pay3 (F := Ideal) v2 v18 v24) slices_S1024x640_o0_512_S1024x1)
        shapeCasts_S1024x1_S128x8x1 (ix3 r d (0 : Fin 1))
      = Cert.Spec.blkE v24 v18 v2 r d Cert.Spec.gcol := by
  refine (shapeCast_group8_apply _ _ r d 0).trans ?_
  refine (slice2_axis1_apply 512 _ _ (Cert.Spec.bedge r d) 0 Cert.Spec.gcol rfl).trans ?_
  exact k1_pay3_apply v2 v18 v24 _ _

/-- The incoming arcs' weight: the logistic of the gate times the arc's mask. -/
private theorem k1_pay6_apply (v0 : Vec Ideal S1024x1 .i32) (v15 : Vec Ideal S64x640 .f32) (v21 : Vec Ideal S1024x640 .f32)
    (v35 : Vec Ideal S128x8 .f32) (r : Fin 128) (d : Fin 8) :
    k1_pay6 (F := Ideal) v0 v15 v21 v35 (ix3 r d (0 : Fin 1))
      = Ideal.logistic (Cert.Spec.blkE v21 v15 v0 r d Cert.Spec.gcol) * v35 (ix2 r d) := by
  unfold k1_pay6
  refine (mulf_apply _ _ _).trans ?_
  rw [shapeCast_ab_ab1_apply]
  refine congrArg (· * v35 (ix2 r d)) ?_
  exact congrArg Ideal.logistic (gate_in_apply v0 v15 v21 r d)

/-- The outgoing arcs' gate, before its mask. -/
private theorem k1_pay7_apply (v2 : Vec Ideal S1024x1 .i32) (v18 : Vec Ideal S64x640 .f32) (v24 : Vec Ideal S1024x640 .f32)
    (r : Fin 128) (d : Fin 8) :
    k1_pay7 (F := Ideal) v2 v18 v24 (ix3 r d (0 : Fin 1)) = Ideal.logistic (Cert.Spec.blkE v24 v18 v2 r d Cert.Spec.gcol) := by
  unfold k1_pay7
  exact congrArg Ideal.logistic (gate_out_apply v2 v18 v24 r d)

/-! ## The aggregated message of a node -/

/-- The self loop's packed projection: the node's feature row times the packed self-loop table. -/
private theorem loop_apply (v50 : Vec Ideal S128x512 .f32) (v53 : Vec Ideal S512x640 .bf16) (r : Fin 128) (c : Fin 640) :
    matmul dot_S128x512_S512x640_S128x640_1_0_0_1_n_n none (truncf .bf16 (k1_pay8 (F := Ideal) v50) bitsLt_bf16_f32)
        (shapeCast S512x640 v53 shapeCasts_S512x640_S512x640 : FVec Ideal S512x640 .bf16) (constant (F := Ideal) S128x640 .f32 0x00000000#32) (ix2 r c)
      = Cert.Spec.blkLoop v50 v53 r c := by
  refine (matmul_loop_apply none _ _ r c).trans ?_
  unfold Cert.Spec.blkLoop
  refine Finset.sum_congr rfl fun k _ => ?_
  rw [shapeCast_self]
  refine congrArg (· * v53 (ix2 k c)) ?_
  unfold k1_pay8
  show shapeCast S128x512 v50 shapeCasts_S128x512_S128x512 (ix2 r k) = v50 (ix2 r k)
  rw [shapeCast_self]

/-- The message of node `r` at feature `j`, from the arcs' potentials and weights as the body carries them: the two
    directions' weighted sums over the eight arcs, plus the gated, masked self loop. -/
private theorem k1_pay9_apply (v28 v32 : FVec Ideal S128x8x512 .f32) (v36 : Vec Ideal S128x8 .f32) (v39 v40 : FVec Ideal S128x8x1 .f32)
    (v50 : Vec Ideal S128x512 .f32) (v53 : Vec Ideal S512x640 .bf16) (v58 : Vec Ideal S128x1 .f32) (r : Fin 128) (j : Fin 512) :
    k1_pay9 (F := Ideal) v28 v32 v36 v39 v40 v50 v53 v58 (ix2 r j)
      = (∑ d : Fin 8, v28 (ix3 r d j) * v39 (ix3 r d (0 : Fin 1)))
        + (∑ d : Fin 8, v32 (ix3 r d j) * (v40 (ix3 r d (0 : Fin 1)) * v36 (ix2 r d)))
        + (Ideal.logistic (Cert.Spec.blkLoop v50 v53 r Cert.Spec.gcol) * v58 (ix2 r (0 : Fin 1))) * Cert.Spec.blkLoop v50 v53 r (Cert.Spec.col j) := by
  unfold k1_pay9
  refine (addf_apply _ _ _).trans ?_
  refine congrArg₂ (· + ·) ?_ ?_
  · refine (addf_apply _ _ _).trans ?_
    refine congrArg₂ (· + ·) ?_ ?_
    · refine (arcSum_apply _ _ _ r j).trans ?_
      refine Finset.sum_congr rfl fun d _ => ?_
      refine (mulf_apply _ _ _).trans ?_
      rw [broadcastTo_ab1_abc_apply]
    · refine (arcSum_apply _ _ _ r j).trans ?_
      refine Finset.sum_congr rfl fun d _ => ?_
      refine (mulf_apply _ _ _).trans ?_
      rw [broadcastTo_ab1_abc_apply]
      refine congrArg (v32 (ix3 r d j) * ·) ?_
      refine (mulf_apply _ _ _).trans ?_
      rw [shapeCast_ab_ab1_apply]
  · refine (mulf_apply _ _ _).trans ?_
    rw [broadcastTo_a1_ab_apply]
    refine congrArg₂ (· * ·) ?_ ?_
    · refine (mulf_apply _ _ _).trans ?_
      refine congrArg (· * v58 (ix2 r (0 : Fin 1))) ?_
      refine congrArg Ideal.logistic ?_
      refine (slice2_axis1_apply 512 _ _ r 0 Cert.Spec.gcol rfl).trans ?_
      exact loop_apply v50 v53 r _
    · refine (slice2_axis1_apply 0 _ _ r j (Cert.Spec.col j) (Nat.zero_add _).symm).trans ?_
      exact loop_apply v50 v53 r _

/-! ## Mean, centred message, variance -/

/-- The row mean: the lane sum of the message over the 512 features, divided by 512. -/
private theorem k1_pay10_apply (v28 v32 : FVec Ideal S128x8x512 .f32) (v36 : Vec Ideal S128x8 .f32) (v39 v40 : FVec Ideal S128x8x1 .f32)
    (v50 : Vec Ideal S128x512 .f32) (v53 : Vec Ideal S512x640 .bf16) (v58 : Vec Ideal S128x1 .f32) (h : Fin 128 → Fin 512 → EReal)
    (hh : ∀ r j, k1_pay9 (F := Ideal) v28 v32 v36 v39 v40 v50 v53 v58 (ix2 r j) = h r j) (r : Fin 128) :
    k1_pay10 (F := Ideal) v28 v32 v36 v39 v40 v50 v53 v58 (ix2 r (0 : Fin 1)) = Cert.Spec.mu h r := by
  unfold k1_pay10 Cert.Spec.mu
  refine (divf_apply _ _ _).trans ?_
  refine congrArg₂ Ideal.div ?_ rfl
  refine (shapeCast_a_a1_apply _ _ r 0).trans ?_
  refine (rowSum_apply _ _ _ r).trans ?_
  exact Finset.sum_congr rfl fun j _ => hh r j

/-- The message minus its row mean. -/
private theorem centred_apply (v28 v32 : FVec Ideal S128x8x512 .f32) (v36 : Vec Ideal S128x8 .f32) (v39 v40 : FVec Ideal S128x8x1 .f32)
    (v50 : Vec Ideal S128x512 .f32) (v53 : Vec Ideal S512x640 .bf16) (v58 : Vec Ideal S128x1 .f32) (h : Fin 128 → Fin 512 → EReal)
    (hh : ∀ r j, k1_pay9 (F := Ideal) v28 v32 v36 v39 v40 v50 v53 v58 (ix2 r j) = h r j) (r : Fin 128) (j : Fin 512) :
    subf (k1_pay9 (F := Ideal) v28 v32 v36 v39 v40 v50 v53 v58)
        (broadcastTo S128x512 (k1_pay10 (F := Ideal) v28 v32 v36 v39 v40 v50 v53 v58) broadcasts_S128x1_S128x512) (ix2 r j)
      = h r j - Cert.Spec.mu h r := by
  refine (subf_apply _ _ _).trans ?_
  rw [broadcastTo_a1_ab_apply, hh, k1_pay10_apply v28 v32 v36 v39 v40 v50 v53 v58 h hh]

private theorem k1_pay13_apply (v28 v32 : FVec Ideal S128x8x512 .f32) (v36 : Vec Ideal S128x8 .f32) (v39 v40 : FVec Ideal S128x8x1 .f32)
    (v50 : Vec Ideal S128x512 .f32) (v53 : Vec Ideal S512x640 .bf16) (v58 : Vec Ideal S128x1 .f32) (h : Fin 128 → Fin 512 → EReal)
    (hh : ∀ r j, k1_pay9 (F := Ideal) v28 v32 v36 v39 v40 v50 v53 v58 (ix2 r j) = h r j) (r : Fin 128) (j : Fin 512) :
    k1_pay13 (F := Ideal) v28 v32 v36 v39 v40 v50 v53 v58 (ix2 r j) = h r j - Cert.Spec.mu h r := by
  unfold k1_pay13
  exact centred_apply v28 v32 v36 v39 v40 v50 v53 v58 h hh r j

/-- The row variance (the lane sum of the squared centred message, divided by 512) plus epsilon. -/
private theorem k1_pay14_apply (v28 v32 : FVec Ideal S128x8x512 .f32) (v36 : Vec Ideal S128x8 .f32) (v39 v40 : FVec Ideal S128x8x1 .f32)
    (v50 : Vec Ideal S128x512 .f32) (v53 : Vec Ideal S512x640 .bf16) (v58 : Vec Ideal S128x1 .f32) (h : Fin 128 → Fin 512 → EReal)
    (hh : ∀ r j, k1_pay9 (F := Ideal) v28 v32 v36 v39 v40 v50 v53 v58 (ix2 r j) = h r j) (r : Fin 128) :
    k1_pay14 (F := Ideal) v28 v32 v36 v39 v40 v50 v53 v58 (ix2 r (0 : Fin 1)) = Cert.Spec.var h r + Cert.Spec.epsC := by
  unfold k1_pay14 Cert.Spec.var
  refine (addf_apply _ _ _).trans ?_
  refine congrArg₂ (· + ·) ?_ rfl
  refine (divf_apply _ _ _).trans ?_
  refine congrArg₂ Ideal.div ?_ rfl
  refine (shapeCast_a_a1_apply _ _ r 0).trans ?_
  refine (rowSum_apply _ _ _ r).trans ?_
  refine Finset.sum_congr rfl fun j _ => ?_
  refine (mulf_apply _ _ _).trans ?_
  rw [centred_apply v28 v32 v36 v39 v40 v50 v53 v58 h hh r j]

/-! ## The normalised, masked, rectified output plus the residual -/

private theorem k1_pay1_apply (v51 : FVec Ideal S128x512 .f32) (v76 v78 : FVec Ideal S1x512 .f32) (v80 : FVec Ideal S128x512 .f32)
    (v82 : FVec Ideal S128x1 .f32) (v90 : Vec Ideal S128x1 .f32) (r : Fin 128) (j : Fin 512) :
    k1_pay1 (F := Ideal) v51 v76 v78 v80 v82 v90 (ix2 r j)
      = max (((v80 (ix2 r j) * Ideal.rsqrt (v82 (ix2 r (0 : Fin 1))) * v76 (ix2 (0 : Fin 1) j) + v78 (ix2 (0 : Fin 1) j))
          * v90 (ix2 r (0 : Fin 1)))) 0 * v90 (ix2 r (0 : Fin 1)) + v51 (ix2 r j) := by
  unfold k1_pay1
  refine (addf_apply _ _ _).trans ?_
  refine congrArg (· + v51 (ix2 r j)) ?_
  refine (mulf_apply _ _ _).trans ?_
  rw [broadcastTo_a1_ab_apply, shapeCast_self]
  refine congrArg (· * v90 (ix2 r (0 : Fin 1))) ?_
  refine (maximumf_apply _ _ _).trans ?_
  refine congrArg₂ max ?_ Ideal.ofBits_zero_f32
  refine (mulf_apply _ _ _).trans ?_
  rw [broadcastTo_a1_ab_apply]
  refine congrArg (· * v90 (ix2 r (0 : Fin 1))) ?_
  refine (addf_apply _ _ _).trans ?_
  rw [broadcastTo_1b_ab_apply]
  refine congrArg (· + v78 (ix2 (0 : Fin 1) j)) ?_
  refine (mulf_apply _ _ _).trans ?_
  rw [broadcastTo_1b_ab_apply]
  refine congrArg (· * v76 (ix2 (0 : Fin 1) j)) ?_
  refine (mulf_apply _ _ _).trans ?_
  rw [broadcastTo_a1_ab_apply]
  rfl

/-- What the body stores at row `r`, feature `j` of its output block, from the values it loads. -/
theorem body_value (v21 v24 : Vec Ideal S1024x640 .f32) (v15 v18 : Vec Ideal S64x640 .f32) (v0 v2 : Vec Ideal S1024x1 .i32)
    (v35 v36 : Vec Ideal S128x8 .f32) (v58 v90 : Vec Ideal S128x1 .f32) (v50 : Vec Ideal S128x512 .f32)
    (v53 : Vec Ideal S512x640 .bf16) (v75 v77 : Vec Ideal S1x512 .f32) (r : Fin 128) (j : Fin 512) :
    k1_pay1 (F := Ideal) (k1_pay8 v50) (k1_pay11 v75) (k1_pay12 v77)
        (k1_pay13 (k1_pay4 v0 v15 v21) (k1_pay5 v2 v18 v24) v36 (k1_pay6 v0 v15 v21 v35) (k1_pay7 v2 v18 v24) v50 v53 v58)
        (k1_pay14 (k1_pay4 v0 v15 v21) (k1_pay5 v2 v18 v24) v36 (k1_pay6 v0 v15 v21 v35) (k1_pay7 v2 v18 v24) v50 v53 v58)
        v90 (ix2 r j)
      = Cert.Spec.outOf (Cert.Spec.blkH v21 v24 v15 v18 v0 v2 v35 v36 v58 v50 v53)
          (fun j => v75 (ix2 0 j)) (fun j => v77 (ix2 0 j)) (v90 (ix2 r 0)) (v50 (ix2 r j)) r j := by
  have hh : ∀ r j, k1_pay9 (F := Ideal) (k1_pay4 v0 v15 v21) (k1_pay5 v2 v18 v24) v36 (k1_pay6 v0 v15 v21 v35) (k1_pay7 v2 v18 v24) v50 v53 v58 (ix2 r j)
      = Cert.Spec.blkH v21 v24 v15 v18 v0 v2 v35 v36 v58 v50 v53 r j := by
    intro r j
    refine (k1_pay9_apply _ _ _ _ _ _ _ _ r j).trans ?_
    unfold Cert.Spec.blkH Cert.Spec.blkArc
    refine congrArg₂ (· + ·) (congrArg₂ (· + ·) ?_ ?_) rfl
    · refine Finset.sum_congr rfl fun d _ => ?_
      rw [k1_pay4_apply, k1_pay6_apply]
    · refine Finset.sum_congr rfl fun d _ => ?_
      rw [k1_pay5_apply, k1_pay7_apply]
  refine (k1_pay1_apply _ _ _ _ _ _ r j).trans ?_
  rw [k1_pay13_apply _ _ _ _ _ _ _ _ _ hh, k1_pay14_apply _ _ _ _ _ _ _ _ _ hh]
  unfold Cert.Spec.outOf k1_pay8 k1_pay11 k1_pay12
  rw [shapeCast_self, shapeCast_self, shapeCast_self]

/-- The narrowing of the node-feature block is the block itself on the extended reals. -/
private theorem k0_pay1_apply (v0 : Vec Ideal S1024x512 .f32) (i : S1024x512.Idx) : k0_pay1 (F := Ideal) v0 i = v0 i := by
  unfold k0_pay1
  show shapeCast S1024x512 v0 shapeCasts_S1024x512_S1024x512 i = v0 i
  rw [shapeCast_self]

/-- The first kernel's two stores at row `r`, column `j`: the row of the node-feature block times the packed table. -/
theorem proj_body_value (v0 : Vec Ideal S1024x512 .f32) (v3 : Vec Ideal S512x640 .bf16) (r : Fin 1024) (j : Fin 640) :
    k0_pay2 (F := Ideal) v0 v3 (ix2 r j) = ∑ k : Fin 512, v0 (ix2 r k) * v3 (ix2 k j) := by
  unfold k0_pay2
  refine (matmul_proj_apply none (k0_pay1 v0) (shapeCast S512x640 v3 shapeCasts_S512x640_S512x640) r j).trans ?_
  refine Finset.sum_congr rfl fun k _ => ?_
  rw [k0_pay1_apply, shapeCast_self]

theorem proj_body_value' (v0 : Vec Ideal S1024x512 .f32) (v7 : Vec Ideal S512x640 .bf16) (r : Fin 1024) (j : Fin 640) :
    k0_pay3 (F := Ideal) v0 v7 (ix2 r j) = ∑ k : Fin 512, v0 (ix2 r k) * v7 (ix2 k j) := by
  unfold k0_pay3
  refine (matmul_proj_apply none (k0_pay1 v0) (shapeCast S512x640 v7 shapeCasts_S512x640_S512x640) r j).trans ?_
  refine Finset.sum_congr rfl fun k _ => ?_
  rw [k0_pay1_apply, shapeCast_self]

end Cert.KernelIdeal.Bridge

end
-- ==== Proof.KArrays.lean ====
/-
  Names for the arrays the two pallas_calls read and write, at their literal shapes, over any contents `V` of the
  TensorCore's buffers at a region's entry.
-/
import proofs.«408033_j214748365179_3_alg».proof.Proof.Gen.KernelIdeal.Frame
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The arrays as the regions find them, at their literal types -/

abbrev xArr (c : Dev nD) : Vec Ideal S8192x512 .f32 := V c main_v0
abbrev wInArr (c : Dev nD) : Vec Ideal S512x640 .bf16 := V c main_v34
abbrev wOutArr (c : Dev nD) : Vec Ideal S512x640 .bf16 := V c main_v36
/-- Region 0's two output arrays after its run. -/
abbrev cpInArr (c : Dev nD) : Vec Ideal S8192x640 .f32 := (dat0 V c).arrAt 3 cfg0.N
abbrev cpOutArr (c : Dev nD) : Vec Ideal S8192x640 .f32 := (dat0 V c).arrAt 4 cfg0.N

abbrev cpInG (c : Dev nD) : Vec Ideal S65536x640 .f32 := V c main_v56
abbrev cpOutG (c : Dev nD) : Vec Ideal S65536x640 .f32 := V c main_v63
abbrev bpInArr (c : Dev nD) : Vec Ideal S64x640 .f32 := V c main_v47
abbrev bpOutArr (c : Dev nD) : Vec Ideal S64x640 .f32 := V c main_v48
abbrev labInCol (c : Dev nD) : Vec Ideal S65536x1 .i32 := V c main_v18
abbrev labOutCol (c : Dev nD) : Vec Ideal S65536x1 .i32 := V c main_v20
abbrev mInArr (c : Dev nD) : Vec Ideal S8192x8 .f32 := V c main_arg5
abbrev mOutArr (c : Dev nD) : Vec Ideal S8192x8 .f32 := V c main_arg6
abbrev mLoopArr (c : Dev nD) : Vec Ideal S8192x1 .f32 := V c main_arg7
abbrev smCol (c : Dev nD) : Vec Ideal S8192x1 .f32 := V c main_v64
abbrev wLoopArr (c : Dev nD) : Vec Ideal S512x640 .bf16 := V c main_v38
abbrev gammaRow (c : Dev nD) : Vec Ideal S1x512 .f32 := V c main_v65
abbrev betaRow (c : Dev nD) : Vec Ideal S1x512 .f32 := V c main_v66
/-- Region 1's output array after its run. -/
abbrev outArr (c : Dev nD) : Vec Ideal S8192x512 .f32 := (dat1 V c).arrAt 14 cfg1.N

/-! ## The argument arrays of @main at launch, at their literal types -/

section Args
variable (m : (ℓ : Loc nD τ sig) → Buf (Elt Ideal) ℓ) (ρ : Dev nD → PrngReg)

abbrev a0 (c : Dev nD) : Vec Ideal S16x512x512 .f32 := m ((c : Thread nD τ).loc main_arg0)
abbrev a1 (c : Dev nD) : Vec Ideal S2x65536 .i32 := m ((c : Thread nD τ).loc main_arg1)
abbrev a2 (c : Dev nD) : Vec Ideal S65536 .i32 := m ((c : Thread nD τ).loc main_arg2)
abbrev a3 (c : Dev nD) : Vec Ideal S2x65536 .i32 := m ((c : Thread nD τ).loc main_arg3)
abbrev a4 (c : Dev nD) : Vec Ideal S65536 .i32 := m ((c : Thread nD τ).loc main_arg4)
abbrev a5 (c : Dev nD) : Vec Ideal S8192x8 .f32 := m ((c : Thread nD τ).loc main_arg5)
abbrev a6 (c : Dev nD) : Vec Ideal S8192x8 .f32 := m ((c : Thread nD τ).loc main_arg6)
abbrev a7 (c : Dev nD) : Vec Ideal S8192x1 .f32 := m ((c : Thread nD τ).loc main_arg7)
abbrev a8 (c : Dev nD) : Vec Ideal S16x512 .f32 := m ((c : Thread nD τ).loc main_arg8)
abbrev a9 (c : Dev nD) : Vec Ideal S512x512 .f32 := m ((c : Thread nD τ).loc main_arg9)
abbrev a10 (c : Dev nD) : Vec Ideal S64x512 .f32 := m ((c : Thread nD τ).loc main_arg10)
abbrev a11 (c : Dev nD) : Vec Ideal S512x1 .f32 := m ((c : Thread nD τ).loc main_arg11)
abbrev a12 (c : Dev nD) : Vec Ideal S64x1 .f32 := m ((c : Thread nD τ).loc main_arg12)
abbrev a13 (c : Dev nD) : Vec Ideal S512x512 .f32 := m ((c : Thread nD τ).loc main_arg13)
abbrev a14 (c : Dev nD) : Vec Ideal S64x512 .f32 := m ((c : Thread nD τ).loc main_arg14)
abbrev a15 (c : Dev nD) : Vec Ideal S512x1 .f32 := m ((c : Thread nD τ).loc main_arg15)
abbrev a16 (c : Dev nD) : Vec Ideal S64x1 .f32 := m ((c : Thread nD τ).loc main_arg16)
abbrev a17 (c : Dev nD) : Vec Ideal S512x512 .f32 := m ((c : Thread nD τ).loc main_arg17)
abbrev a18 (c : Dev nD) : Vec Ideal S512x1 .f32 := m ((c : Thread nD τ).loc main_arg18)
abbrev a19 (c : Dev nD) : Vec Ideal S512 .f32 := m ((c : Thread nD τ).loc main_arg19)
abbrev a20 (c : Dev nD) : Vec Ideal S512 .f32 := m ((c : Thread nD τ).loc main_arg20)

/-- @main's result buffer after the last host stretch. -/
abbrev resArr (c : Dev nD) : Vec Ideal S16x512x512 .f32 := W13 m ρ c (Proc.devRef .tc main_v68)

end Args

end Cert.KernelIdeal.Bridge

end
-- ==== Proof.KRegion0.lean ====
/-
  The first pallas_call as a whole-array function of the arrays it is entered with: 8 grid points of 1024 node rows;
  block t of the feature matrix and of each output is rows 1024 t .. 1024 t + 1023, the two packed tables are resident
  whole; the output blocks tile the output arrays.  So each output array ends as the node-feature matrix times its
  packed table, at every index.
-/
import proofs.«408033_j214748365179_3_alg».proof.Proof.Gen.KernelIdeal.Frame
import proofs.«408033_j214748365179_3_alg».proof.Proof.Spec
import proofs.«408033_j214748365179_3_alg».proof.Proof.KBody
import proofs.«408033_j214748365179_3_alg».proof.Proof.KArrays
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The index maps, the blocks and the cover -/

/-- A zero offset pair is the zero offset function. -/
private theorem off_zero : (![0, 0] : Fin 2 → Nat) = fun _ => 0 := funext fun a => by fin_cases a <;> rfl

/-- The node-feature matrix times a packed table, at every index of the [8192, 640] array. -/
private abbrev projG (x : Vec Ideal S8192x512 .f32) (w : Vec Ideal S512x640 .bf16) : Vec Ideal S8192x640 .f32 :=
  fun i => ∑ k : Fin 512, x (ix2 (⟨(i 0).val, idx2_lt0 i⟩ : Fin 8192) k) * w (ix2 k (⟨(i 1).val, idx2_lt1 i⟩ : Fin 640))

/-- The index maps over the grid: the feature block and both output blocks are row block t, column block 0; the tables
    are block (0, 0). -/
private theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The first store at an index given by its two coordinates. -/
private theorem pay2_at (v0 : Vec Ideal S1024x512 .f32) (v3 : Vec Ideal S512x640 .bf16) (y : S1024x640.Idx)
    (r : Fin 1024) (j : Fin 640) (hr : (y 0).val = r.val) (hj : (y 1).val = j.val) :
    k0_pay2 (F := Ideal) v0 v3 y = ∑ k : Fin 512, v0 (ix2 r k) * v3 (ix2 k j) := by
  have hy : y = ix2 r j := by
    funext a
    match a with
    | ⟨0, _⟩ => exact Fin.ext hr
    | ⟨1, _⟩ => exact Fin.ext hj
  rw [hy]
  exact proj_body_value v0 v3 r j

/-- The second store at an index given by its two coordinates. -/
private theorem pay3_at (v0 : Vec Ideal S1024x512 .f32) (v7 : Vec Ideal S512x640 .bf16) (y : S1024x640.Idx)
    (r : Fin 1024) (j : Fin 640) (hr : (y 0).val = r.val) (hj : (y 1).val = j.val) :
    k0_pay3 (F := Ideal) v0 v7 y = ∑ k : Fin 512, v0 (ix2 r k) * v7 (ix2 k j) := by
  have hy : y = ix2 r j := by
    funext a
    match a with
    | ⟨0, _⟩ => exact Fin.ext hr
    | ⟨1, _⟩ => exact Fin.ext hj
  rw [hy]
  exact proj_body_value' v0 v7 r j

/-- Row r, feature k of the feature block at point t is row 1024 t + r of the feature matrix. -/
private theorem xblk_apply (c : Dev nD) (t : Fin cfg0.N) (r : Fin 1024) (k : Fin 512) (n : Fin 8192)
    (hn : n.val = t.val * 1024 + r.val) :
    (iblk0 V c 0 t : Vec Ideal S1024x512 .f32) (ix2 r k) = xArr V c (ix2 n k) := by
  obtain ⟨e0, e1, -⟩ := idx_facts0 t
  unfold iblk0
  rw [View.read_apply]
  show V c main_v0 (((cfg0.win 0).blk t).view.emb (ix2 r k)) = V c main_v0 (ix2 n k)
  congr 1
  funext a
  apply Fin.ext
  match a with
  | ⟨0, _⟩ => show win0_0.index t (0 : Fin 2) * 1024 + 1 * r.val = n.val; omega
  | ⟨1, _⟩ => show win0_0.index t (1 : Fin 2) * 512 + 1 * k.val = k.val; omega

/-- The first table's block at any point is the whole table. -/
private theorem w1blk_apply (c : Dev nD) (t : Fin cfg0.N) (k : Fin 512) (j : Fin 640) :
    (iblk0 V c 1 t : Vec Ideal S512x640 .bf16) (ix2 k j) = wInArr V c (ix2 k j) := by
  obtain ⟨-, -, e2, e3, -⟩ := idx_facts0 t
  unfold iblk0
  rw [View.read_apply]
  show V c main_v34 (((cfg0.win 1).blk t).view.emb (ix2 k j)) = V c main_v34 (ix2 k j)
  congr 1
  funext a
  apply Fin.ext
  match a with
  | ⟨0, _⟩ => show win0_1.index t (0 : Fin 2) * 512 + 1 * k.val = k.val; omega
  | ⟨1, _⟩ => show win0_1.index t (1 : Fin 2) * 640 + 1 * j.val = j.val; omega

/-- The second table's block at any point is the whole table. -/
private theorem w2blk_apply (c : Dev nD) (t : Fin cfg0.N) (k : Fin 512) (j : Fin 640) :
    (iblk0 V c 2 t : Vec Ideal S512x640 .bf16) (ix2 k j) = wOutArr V c (ix2 k j) := by
  obtain ⟨-, -, -, -, e4, e5, -⟩ := idx_facts0 t
  unfold iblk0
  rw [View.read_apply]
  show V c main_v36 (((cfg0.win 2).blk t).view.emb (ix2 k j)) = V c main_v36 (ix2 k j)
  congr 1
  funext a
  apply Fin.ext
  match a with
  | ⟨0, _⟩ => show win0_2.index t (0 : Fin 2) * 512 + 1 * k.val = k.val; omega
  | ⟨1, _⟩ => show win0_2.index t (1 : Fin 2) * 640 + 1 * j.val = j.val; omega

/-- What point t writes back through output window 3 is block t of the product with the first table. -/
private theorem flushed3_eq (c : Dev nD) (t : Fin cfg0.N) :
    (dat0 V c).flushed 3 t = ((cfg0.win 3).blk t).view.read (Elt Ideal) (projG (xArr V c) (wInArr V c)) := by
  show (cfg0.win 3).cut (grid0.coords t) ((dat0 V c).after 3 t) = _
  rw [after0_3]
  unfold out0_3
  rw [View.canon_unit_zero off_zero]
  simp only [View.ld_unit_zero (S := S1024x512) off_zero, View.ld_unit_zero (S := S512x640) off_zero]
  obtain ⟨-, -, -, -, -, -, e6, e7, -⟩ := idx_facts0 t
  funext y
  have hy0 : (y 0).val < 1024 := (y 0).isLt
  have hy1 : (y 1).val < 640 := (y 1).isLt
  have ht : t.val < 8 := t.isLt
  refine (pay2_at _ _ _ ⟨(y 0).val, hy0⟩ ⟨(y 1).val, hy1⟩ rfl rfl).trans ?_
  rw [View.read_apply]
  have hz0 : ((((cfg0.win 3).blk t).view.emb y) 0).val = t.val * 1024 + (y 0).val := by
    show win0_3.index t (0 : Fin 2) * 1024 + 1 * (y 0).val = _; omega
  have hz1 : ((((cfg0.win 3).blk t).view.emb y) 1).val = (y 1).val := by
    show win0_3.index t (1 : Fin 2) * 640 + 1 * (y 1).val = _; omega
  refine Finset.sum_congr rfl fun k _ => ?_
  have hj : (⟨(y 1).val, hy1⟩ : Fin 640) = ⟨((((cfg0.win 3).blk t).view.emb y) 1).val, idx2_lt1 _⟩ := Fin.ext hz1.symm
  exact congrArg₂ (· * ·) (xblk_apply V c t _ k ⟨((((cfg0.win 3).blk t).view.emb y) 0).val, idx2_lt0 _⟩ hz0)
    ((w1blk_apply V c t k _).trans (congrArg (fun q => wInArr V c (ix2 k q)) hj))

/-- An index of the array is in point t's block of window 3 iff each coordinate is in the block's range on its axis. -/
private theorem mem_blk3 (t : Fin cfg0.N) (i : S8192x640.Idx) :
    i ∈ ((cfg0.win 3).blk t).view.set ↔ ∀ a : Fin 2, win0_3.index t a * S1024x640.size a ≤ (i a).val ∧ (i a).val < win0_3.index t a * S1024x640.size a + S1024x640.size a := by
  show i ∈ ((View.whole main_v49_0).slice (win0_3.rect t)).set ↔ _
  rw [View.set_slice_whole, Rect.mem_set_unit]
  exact Iff.rfl

/-- Row n of the array is in the block of point n / 1024. -/
private theorem cover3 (i : S8192x640.Idx) :
    ∃ t : Fin cfg0.N, (cfg0.win 3).flush t = true ∧ i ∈ ((cfg0.win 3).blk t).view.set := by
  have hi0 : (i 0).val < 8192 := (i 0).isLt
  have hi1 : (i 1).val < 640 := (i 1).isLt
  have hlt : (i 0).val / 1024 < cfg0.N := by show _ < 8; omega
  obtain ⟨-, -, -, -, -, -, e6, e7, -⟩ := idx_facts0 ⟨(i 0).val / 1024, hlt⟩
  refine ⟨⟨(i 0).val / 1024, hlt⟩, flush0_3 _, ?_⟩
  rw [mem_blk3]
  intro a
  match a with
  | ⟨0, _⟩ =>
    show win0_3.index ⟨(i 0).val / 1024, hlt⟩ (0 : Fin 2) * 1024 ≤ (i 0).val ∧ (i 0).val < win0_3.index ⟨(i 0).val / 1024, hlt⟩ (0 : Fin 2) * 1024 + 1024
    rw [e6]; show (i 0).val / 1024 * 1024 ≤ _ ∧ _ < (i 0).val / 1024 * 1024 + 1024; omega
  | ⟨1, _⟩ =>
    show win0_3.index ⟨(i 0).val / 1024, hlt⟩ (1 : Fin 2) * 640 ≤ (i 1).val ∧ (i 1).val < win0_3.index ⟨(i 0).val / 1024, hlt⟩ (1 : Fin 2) * 640 + 640
    rw [e7]; omega

/-- What point t writes back through output window 4 is block t of the product with the second table. -/
private theorem flushed4_eq (c : Dev nD) (t : Fin cfg0.N) :
    (dat0 V c).flushed 4 t = ((cfg0.win 4).blk t).view.read (Elt Ideal) (projG (xArr V c) (wOutArr V c)) := by
  show (cfg0.win 4).cut (grid0.coords t) ((dat0 V c).after 4 t) = _
  rw [after0_4]
  unfold out0_4
  rw [View.canon_unit_zero off_zero]
  simp only [View.ld_unit_zero (S := S1024x512) off_zero, View.ld_unit_zero (S := S512x640) off_zero]
  obtain ⟨-, -, -, -, -, -, -, -, e8, e9⟩ := idx_facts0 t
  funext y
  have hy0 : (y 0).val < 1024 := (y 0).isLt
  have hy1 : (y 1).val < 640 := (y 1).isLt
  have ht : t.val < 8 := t.isLt
  refine (pay3_at _ _ _ ⟨(y 0).val, hy0⟩ ⟨(y 1).val, hy1⟩ rfl rfl).trans ?_
  rw [View.read_apply]
  have hz0 : ((((cfg0.win 4).blk t).view.emb y) 0).val = t.val * 1024 + (y 0).val := by
    show win0_4.index t (0 : Fin 2) * 1024 + 1 * (y 0).val = _; omega
  have hz1 : ((((cfg0.win 4).blk t).view.emb y) 1).val = (y 1).val := by
    show win0_4.index t (1 : Fin 2) * 640 + 1 * (y 1).val = _; omega
  refine Finset.sum_congr rfl fun k _ => ?_
  have hj : (⟨(y 1).val, hy1⟩ : Fin 640) = ⟨((((cfg0.win 4).blk t).view.emb y) 1).val, idx2_lt1 _⟩ := Fin.ext hz1.symm
  exact congrArg₂ (· * ·) (xblk_apply V c t _ k ⟨((((cfg0.win 4).blk t).view.emb y) 0).val, idx2_lt0 _⟩ hz0)
    ((w2blk_apply V c t k _).trans (congrArg (fun q => wOutArr V c (ix2 k q)) hj))

/-- An index of the array is in point t's block of window 4 iff each coordinate is in the block's range on its axis. -/
private theorem mem_blk4 (t : Fin cfg0.N) (i : S8192x640.Idx) :
    i ∈ ((cfg0.win 4).blk t).view.set ↔ ∀ a : Fin 2, win0_4.index t a * S1024x640.size a ≤ (i a).val ∧ (i a).val < win0_4.index t a * S1024x640.size a + S1024x640.size a := by
  show i ∈ ((View.whole main_v49_1).slice (win0_4.rect t)).set ↔ _
  rw [View.set_slice_whole, Rect.mem_set_unit]
  exact Iff.rfl

/-- Row n of the second output array is in the block of point n / 1024. -/
private theorem cover4 (i : S8192x640.Idx) :
    ∃ t : Fin cfg0.N, (cfg0.win 4).flush t = true ∧ i ∈ ((cfg0.win 4).blk t).view.set := by
  have hi0 : (i 0).val < 8192 := (i 0).isLt
  have hi1 : (i 1).val < 640 := (i 1).isLt
  have hlt : (i 0).val / 1024 < cfg0.N := by show _ < 8; omega
  obtain ⟨-, -, -, -, -, -, -, -, e8, e9⟩ := idx_facts0 ⟨(i 0).val / 1024, hlt⟩
  refine ⟨⟨(i 0).val / 1024, hlt⟩, flush0_4 _, ?_⟩
  rw [mem_blk4]
  intro a
  match a with
  | ⟨0, _⟩ =>
    show win0_4.index ⟨(i 0).val / 1024, hlt⟩ (0 : Fin 2) * 1024 ≤ (i 0).val ∧ (i 0).val < win0_4.index ⟨(i 0).val / 1024, hlt⟩ (0 : Fin 2) * 1024 + 1024
    rw [e8]; show (i 0).val / 1024 * 1024 ≤ _ ∧ _ < (i 0).val / 1024 * 1024 + 1024; omega
  | ⟨1, _⟩ =>
    show win0_4.index ⟨(i 0).val / 1024, hlt⟩ (1 : Fin 2) * 640 ≤ (i 1).val ∧ (i 1).val < win0_4.index ⟨(i 0).val / 1024, hlt⟩ (1 : Fin 2) * 640 + 640
    rw [e9]; omega

theorem proj_in (c : Dev nD) (n : Fin 8192) (j : Fin 640) :
    cpInArr V c (ix2 n j) = ∑ k : Fin 512, xArr V c (ix2 n k) * wInArr V c (ix2 k j) := by
  have h := (dat0 V c).arrAt_eq_of_cover 3 (projG (xArr V c) (wInArr V c)) (fun t _ => flushed3_eq V c t) cover3
  exact congrFun h (ix2 n j)

theorem proj_out (c : Dev nD) (n : Fin 8192) (j : Fin 640) :
    cpOutArr V c (ix2 n j) = ∑ k : Fin 512, xArr V c (ix2 n k) * wOutArr V c (ix2 k j) := by
  have h := (dat0 V c).arrAt_eq_of_cover 4 (projG (xArr V c) (wOutArr V c)) (fun t _ => flushed4_eq V c t) cover4
  exact congrFun h (ix2 n j)

end Cert.KernelIdeal.Bridge

end
-- ==== Proof.KRegion1.lean ====
/-
  The second pallas_call as a whole-array function of the arrays it is entered with: 64 grid points of 128 nodes;
  block t of a per-arc array is rows 1024 t .. (eight arcs per node), of a per-node array rows 128 t .., the packed
  tables and the affine pair are resident whole; the output blocks tile the output array.  So the output array ends, at
  node n and feature j, as the layer's output computed from the fourteen arrays.
-/
import proofs.«408033_j214748365179_3_alg».proof.Proof.Gen.KernelIdeal.Frame
import proofs.«408033_j214748365179_3_alg».proof.Proof.Spec
import proofs.«408033_j214748365179_3_alg».proof.Proof.KBody
import proofs.«408033_j214748365179_3_alg».proof.Proof.KArrays
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

private theorem hz2 : (![0, 0] : Fin 2 → Nat) = fun _ => 0 := funext fun a => by fin_cases a <;> rfl

/-- The index maps over the grid: a row-blocked window is at block row t, column block 0; a resident one at (0, 0). -/
private theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = t.val ∧ win1_14.index t (1 : Fin 2) = 0) :=
  (by decide +kernel : ∀ t : Fin grid1.N, _)

/-! ## The blocks of a point

  At point t a row-blocked window of R rows per block holds rows R t .. R t + R - 1 of its array (all of its columns): the
  gathered arc rows and the arc labels with R = 1024, the masks, the node features and the sentence mask with R = 128. The
  packed bias tables, the packed self-loop table and the affine pair are held whole at every point. -/

private abbrev b0 (c : Dev nD) (t : Fin cfg1.N) : Vec Ideal S1024x640 .f32 := iblk1 V c 0 t

private theorem b0_apply (c : Dev nD) (t : Fin cfg1.N) (p : Fin 1024) (q : Fin 640) (e : Fin 65536) (he : e.val = 1024 * t.val + p.val) :
    b0 V c t (ix2 p q) = cpInG V c (ix2 e q) := by
  obtain ⟨h0, h1, h2, h3, h4, h5, h6, h7, h8, h9, h10, h11, h12, h13, h14⟩ := idx_facts1 t
  unfold b0 iblk1
  rw [View.read_apply]
  show V c main_v56 _ = V c main_v56 _
  congr 1
  funext a
  apply Fin.ext
  match a with
  | ⟨0, _⟩ => show win1_0.index t (0 : Fin 2) * 1024 + 1 * p.val = e.val; rw [h0.1, he]; omega
  | ⟨1, _⟩ => show win1_0.index t (1 : Fin 2) * 640 + 1 * q.val = q.val; rw [h0.2]; omega

private abbrev b1 (c : Dev nD) (t : Fin cfg1.N) : Vec Ideal S1024x640 .f32 := iblk1 V c 1 t

private theorem b1_apply (c : Dev nD) (t : Fin cfg1.N) (p : Fin 1024) (q : Fin 640) (e : Fin 65536) (he : e.val = 1024 * t.val + p.val) :
    b1 V c t (ix2 p q) = cpOutG V c (ix2 e q) := by
  obtain ⟨h0, h1, h2, h3, h4, h5, h6, h7, h8, h9, h10, h11, h12, h13, h14⟩ := idx_facts1 t
  unfold b1 iblk1
  rw [View.read_apply]
  show V c main_v63 _ = V c main_v63 _
  congr 1
  funext a
  apply Fin.ext
  match a with
  | ⟨0, _⟩ => show win1_1.index t (0 : Fin 2) * 1024 + 1 * p.val = e.val; rw [h1.1, he]; omega
  | ⟨1, _⟩ => show win1_1.index t (1 : Fin 2) * 640 + 1 * q.val = q.val; rw [h1.2]; omega

private abbrev b2 (c : Dev nD) (t : Fin cfg1.N) : Vec Ideal S64x640 .f32 := iblk1 V c 2 t

private theorem b2_apply (c : Dev nD) (t : Fin cfg1.N) (p : Fin 64) (q : Fin 640) :
    b2 V c t (ix2 p q) = bpInArr V c (ix2 p q) := by
  obtain ⟨h0, h1, h2, h3, h4, h5, h6, h7, h8, h9, h10, h11, h12, h13, h14⟩ := idx_facts1 t
  unfold b2 iblk1
  rw [View.read_apply]
  show V c main_v47 _ = V c main_v47 _
  congr 1
  funext a
  apply Fin.ext
  match a with
  | ⟨0, _⟩ => show win1_2.index t (0 : Fin 2) * 64 + 1 * p.val = p.val; rw [h2.1]; omega
  | ⟨1, _⟩ => show win1_2.index t (1 : Fin 2) * 640 + 1 * q.val = q.val; rw [h2.2]; omega

private abbrev b3 (c : Dev nD) (t : Fin cfg1.N) : Vec Ideal S64x640 .f32 := iblk1 V c 3 t

private theorem b3_apply (c : Dev nD) (t : Fin cfg1.N) (p : Fin 64) (q : Fin 640) :
    b3 V c t (ix2 p q) = bpOutArr V c (ix2 p q) := by
  obtain ⟨h0, h1, h2, h3, h4, h5, h6, h7, h8, h9, h10, h11, h12, h13, h14⟩ := idx_facts1 t
  unfold b3 iblk1
  rw [View.read_apply]
  show V c main_v48 _ = V c main_v48 _
  congr 1
  funext a
  apply Fin.ext
  match a with
  | ⟨0, _⟩ => show win1_3.index t (0 : Fin 2) * 64 + 1 * p.val = p.val; rw [h3.1]; omega
  | ⟨1, _⟩ => show win1_3.index t (1 : Fin 2) * 640 + 1 * q.val = q.val; rw [h3.2]; omega

private abbrev b4 (c : Dev nD) (t : Fin cfg1.N) : Vec Ideal S1024x1 .i32 := iblk1 V c 4 t

private theorem b4_apply (c : Dev nD) (t : Fin cfg1.N) (p : Fin 1024) (q : Fin 1) (e : Fin 65536) (he : e.val = 1024 * t.val + p.val) :
    b4 V c t (ix2 p q) = labInCol V c (ix2 e q) := by
  obtain ⟨h0, h1, h2, h3, h4, h5, h6, h7, h8, h9, h10, h11, h12, h13, h14⟩ := idx_facts1 t
  unfold b4 iblk1
  rw [View.read_apply]
  show V c main_v18 _ = V c main_v18 _
  congr 1
  funext a
  apply Fin.ext
  match a with
  | ⟨0, _⟩ => show win1_4.index t (0 : Fin 2) * 1024 + 1 * p.val = e.val; rw [h4.1, he]; omega
  | ⟨1, _⟩ => show win1_4.index t (1 : Fin 2) * 1 + 1 * q.val = q.val; rw [h4.2]; omega

private abbrev b5 (c : Dev nD) (t : Fin cfg1.N) : Vec Ideal S1024x1 .i32 := iblk1 V c 5 t

private theorem b5_apply (c : Dev nD) (t : Fin cfg1.N) (p : Fin 1024) (q : Fin 1) (e : Fin 65536) (he : e.val = 1024 * t.val + p.val) :
    b5 V c t (ix2 p q) = labOutCol V c (ix2 e q) := by
  obtain ⟨h0, h1, h2, h3, h4, h5, h6, h7, h8, h9, h10, h11, h12, h13, h14⟩ := idx_facts1 t
  unfold b5 iblk1
  rw [View.read_apply]
  show V c main_v20 _ = V c main_v20 _
  congr 1
  funext a
  apply Fin.ext
  match a with
  | ⟨0, _⟩ => show win1_5.index t (0 : Fin 2) * 1024 + 1 * p.val = e.val; rw [h5.1, he]; omega
  | ⟨1, _⟩ => show win1_5.index t (1 : Fin 2) * 1 + 1 * q.val = q.val; rw [h5.2]; omega

private abbrev b6 (c : Dev nD) (t : Fin cfg1.N) : Vec Ideal S128x8 .f32 := iblk1 V c 6 t

private theorem b6_apply (c : Dev nD) (t : Fin cfg1.N) (p : Fin 128) (q : Fin 8) (e : Fin 8192) (he : e.val = 128 * t.val + p.val) :
    b6 V c t (ix2 p q) = mInArr V c (ix2 e q) := by
  obtain ⟨h0, h1, h2, h3, h4, h5, h6, h7, h8, h9, h10, h11, h12, h13, h14⟩ := idx_facts1 t
  unfold b6 iblk1
  rw [View.read_apply]
  show V c main_arg5 _ = V c main_arg5 _
  congr 1
  funext a
  apply Fin.ext
  match a with
  | ⟨0, _⟩ => show win1_6.index t (0 : Fin 2) * 128 + 1 * p.val = e.val; rw [h6.1, he]; omega
  | ⟨1, _⟩ => show win1_6.index t (1 : Fin 2) * 8 + 1 * q.val = q.val; rw [h6.2]; omega

private abbrev b7 (c : Dev nD) (t : Fin cfg1.N) : Vec Ideal S128x8 .f32 := iblk1 V c 7 t

private theorem b7_apply (c : Dev nD) (t : Fin cfg1.N) (p : Fin 128) (q : Fin 8) (e : Fin 8192) (he : e.val = 128 * t.val + p.val) :
    b7 V c t (ix2 p q) = mOutArr V c (ix2 e q) := by
  obtain ⟨h0, h1, h2, h3, h4, h5, h6, h7, h8, h9, h10, h11, h12, h13, h14⟩ := idx_facts1 t
  unfold b7 iblk1
  rw [View.read_apply]
  show V c main_arg6 _ = V c main_arg6 _
  congr 1
  funext a
  apply Fin.ext
  match a with
  | ⟨0, _⟩ => show win1_7.index t (0 : Fin 2) * 128 + 1 * p.val = e.val; rw [h7.1, he]; omega
  | ⟨1, _⟩ => show win1_7.index t (1 : Fin 2) * 8 + 1 * q.val = q.val; rw [h7.2]; omega

private abbrev b8 (c : Dev nD) (t : Fin cfg1.N) : Vec Ideal S128x1 .f32 := iblk1 V c 8 t

private theorem b8_apply (c : Dev nD) (t : Fin cfg1.N) (p : Fin 128) (q : Fin 1) (e : Fin 8192) (he : e.val = 128 * t.val + p.val) :
    b8 V c t (ix2 p q) = mLoopArr V c (ix2 e q) := by
  obtain ⟨h0, h1, h2, h3, h4, h5, h6, h7, h8, h9, h10, h11, h12, h13, h14⟩ := idx_facts1 t
  unfold b8 iblk1
  rw [View.read_apply]
  show V c main_arg7 _ = V c main_arg7 _
  congr 1
  funext a
  apply Fin.ext
  match a with
  | ⟨0, _⟩ => show win1_8.index t (0 : Fin 2) * 128 + 1 * p.val = e.val; rw [h8.1, he]; omega
  | ⟨1, _⟩ => show win1_8.index t (1 : Fin 2) * 1 + 1 * q.val = q.val; rw [h8.2]; omega

private abbrev b9 (c : Dev nD) (t : Fin cfg1.N) : Vec Ideal S128x1 .f32 := iblk1 V c 9 t

private theorem b9_apply (c : Dev nD) (t : Fin cfg1.N) (p : Fin 128) (q : Fin 1) (e : Fin 8192) (he : e.val = 128 * t.val + p.val) :
    b9 V c t (ix2 p q) = smCol V c (ix2 e q) := by
  obtain ⟨h0, h1, h2, h3, h4, h5, h6, h7, h8, h9, h10, h11, h12, h13, h14⟩ := idx_facts1 t
  unfold b9 iblk1
  rw [View.read_apply]
  show V c main_v64 _ = V c main_v64 _
  congr 1
  funext a
  apply Fin.ext
  match a with
  | ⟨0, _⟩ => show win1_9.index t (0 : Fin 2) * 128 + 1 * p.val = e.val; rw [h9.1, he]; omega
  | ⟨1, _⟩ => show win1_9.index t (1 : Fin 2) * 1 + 1 * q.val = q.val; rw [h9.2]; omega

private abbrev b10 (c : Dev nD) (t : Fin cfg1.N) : Vec Ideal S128x512 .f32 := iblk1 V c 10 t

private theorem b10_apply (c : Dev nD) (t : Fin cfg1.N) (p : Fin 128) (q : Fin 512) (e : Fin 8192) (he : e.val = 128 * t.val + p.val) :
    b10 V c t (ix2 p q) = xArr V c (ix2 e q) := by
  obtain ⟨h0, h1, h2, h3, h4, h5, h6, h7, h8, h9, h10, h11, h12, h13, h14⟩ := idx_facts1 t
  unfold b10 iblk1
  rw [View.read_apply]
  show V c main_v0 _ = V c main_v0 _
  congr 1
  funext a
  apply Fin.ext
  match a with
  | ⟨0, _⟩ => show win1_10.index t (0 : Fin 2) * 128 + 1 * p.val = e.val; rw [h10.1, he]; omega
  | ⟨1, _⟩ => show win1_10.index t (1 : Fin 2) * 512 + 1 * q.val = q.val; rw [h10.2]; omega

private abbrev b11 (c : Dev nD) (t : Fin cfg1.N) : Vec Ideal S512x640 .bf16 := iblk1 V c 11 t

private theorem b11_apply (c : Dev nD) (t : Fin cfg1.N) (p : Fin 512) (q : Fin 640) :
    b11 V c t (ix2 p q) = wLoopArr V c (ix2 p q) := by
  obtain ⟨h0, h1, h2, h3, h4, h5, h6, h7, h8, h9, h10, h11, h12, h13, h14⟩ := idx_facts1 t
  unfold b11 iblk1
  rw [View.read_apply]
  show V c main_v38 _ = V c main_v38 _
  congr 1
  funext a
  apply Fin.ext
  match a with
  | ⟨0, _⟩ => show win1_11.index t (0 : Fin 2) * 512 + 1 * p.val = p.val; rw [h11.1]; omega
  | ⟨1, _⟩ => show win1_11.index t (1 : Fin 2) * 640 + 1 * q.val = q.val; rw [h11.2]; omega

private abbrev b12 (c : Dev nD) (t : Fin cfg1.N) : Vec Ideal S1x512 .f32 := iblk1 V c 12 t

private theorem b12_apply (c : Dev nD) (t : Fin cfg1.N) (p : Fin 1) (q : Fin 512) :
    b12 V c t (ix2 p q) = gammaRow V c (ix2 p q) := by
  obtain ⟨h0, h1, h2, h3, h4, h5, h6, h7, h8, h9, h10, h11, h12, h13, h14⟩ := idx_facts1 t
  unfold b12 iblk1
  rw [View.read_apply]
  show V c main_v65 _ = V c main_v65 _
  congr 1
  funext a
  apply Fin.ext
  match a with
  | ⟨0, _⟩ => show win1_12.index t (0 : Fin 2) * 1 + 1 * p.val = p.val; rw [h12.1]; omega
  | ⟨1, _⟩ => show win1_12.index t (1 : Fin 2) * 512 + 1 * q.val = q.val; rw [h12.2]; omega

private abbrev b13 (c : Dev nD) (t : Fin cfg1.N) : Vec Ideal S1x512 .f32 := iblk1 V c 13 t

private theorem b13_apply (c : Dev nD) (t : Fin cfg1.N) (p : Fin 1) (q : Fin 512) :
    b13 V c t (ix2 p q) = betaRow V c (ix2 p q) := by
  obtain ⟨h0, h1, h2, h3, h4, h5, h6, h7, h8, h9, h10, h11, h12, h13, h14⟩ := idx_facts1 t
  unfold b13 iblk1
  rw [View.read_apply]
  show V c main_v66 _ = V c main_v66 _
  congr 1
  funext a
  apply Fin.ext
  match a with
  | ⟨0, _⟩ => show win1_13.index t (0 : Fin 2) * 1 + 1 * p.val = p.val; rw [h13.1]; omega
  | ⟨1, _⟩ => show win1_13.index t (1 : Fin 2) * 512 + 1 * q.val = q.val; rw [h13.2]; omega

/-! ## A block's message is the arrays' message at the block's node

  Point t holds nodes 128 t .. 128 t + 127 and, per direction, their arcs 1024 t .. 1024 t + 1023: arc d of the block's
  node r is block row 8 r + d, which is array row 1024 t + 8 r + d = 8 (128 t + r) + d, arc d of node 128 t + r. -/

section BlockToArrays
open Cert.Spec

variable (cp : A2 65536 640) (bp : A2 64 640) (lab : W2 65536 1) (mask : A2 8192 8)
  (cp' : A2 1024 640) (lab' : W2 1024 1) (mask' : A2 128 8) (t : Fin 64)
  (hcp : ∀ (p : Fin 1024) (q : Fin 640) (e : Fin 65536), e.val = 1024 * t.val + p.val → cp' (ix2 p q) = cp (ix2 e q))
  (hlab : ∀ (p : Fin 1024) (q : Fin 1) (e : Fin 65536), e.val = 1024 * t.val + p.val → lab' (ix2 p q) = lab (ix2 e q))
  (hmask : ∀ (p : Fin 128) (q : Fin 8) (e : Fin 8192), e.val = 128 * t.val + p.val → mask' (ix2 p q) = mask (ix2 e q))

include hcp hlab in
private theorem blkE_eq_combE (r : Fin 128) (n : Fin 8192) (hn : n.val = 128 * t.val + r.val) (d : Fin 8) (q : Fin 640) :
    blkE cp' bp lab' r d q = combE cp bp lab (edge n d) q := by
  have e : (edge n d).val = 1024 * t.val + (bedge r d).val := by
    show n.val * 8 + d.val = 1024 * t.val + (r.val * 8 + d.val); omega
  unfold blkE combE
  rw [hcp (bedge r d) q (edge n d) e, hlab (bedge r d) 0 (edge n d) e]

include hcp hlab hmask in
private theorem blkArc_eq_combArc (r : Fin 128) (n : Fin 8192) (hn : n.val = 128 * t.val + r.val) (j : Fin 512) :
    blkArc cp' bp lab' mask' r j = combArc cp bp lab mask n j := by
  unfold blkArc combArc
  refine Finset.sum_congr rfl fun d _ => ?_
  rw [blkE_eq_combE cp bp lab cp' lab' t hcp hlab r n hn d (col j), blkE_eq_combE cp bp lab cp' lab' t hcp hlab r n hn d gcol,
    hmask r d n hn]

end BlockToArrays

section BlockToArraysH
open Cert.Spec

variable (cpIn cpOut : A2 65536 640) (bpIn bpOut : A2 64 640) (labIn labOut : W2 65536 1) (mIn mOut : A2 8192 8)
  (mLoop : A2 8192 1) (x : A2 8192 512) (wl : A2 512 640)
  (cpIn' cpOut' : A2 1024 640) (labIn' labOut' : W2 1024 1) (mIn' mOut' : A2 128 8) (mLoop' : A2 128 1) (x' : A2 128 512)
  (t : Fin 64)
  (h0 : ∀ (p : Fin 1024) (q : Fin 640) (e : Fin 65536), e.val = 1024 * t.val + p.val → cpIn' (ix2 p q) = cpIn (ix2 e q))
  (h1 : ∀ (p : Fin 1024) (q : Fin 640) (e : Fin 65536), e.val = 1024 * t.val + p.val → cpOut' (ix2 p q) = cpOut (ix2 e q))
  (h4 : ∀ (p : Fin 1024) (q : Fin 1) (e : Fin 65536), e.val = 1024 * t.val + p.val → labIn' (ix2 p q) = labIn (ix2 e q))
  (h5 : ∀ (p : Fin 1024) (q : Fin 1) (e : Fin 65536), e.val = 1024 * t.val + p.val → labOut' (ix2 p q) = labOut (ix2 e q))
  (h6 : ∀ (p : Fin 128) (q : Fin 8) (e : Fin 8192), e.val = 128 * t.val + p.val → mIn' (ix2 p q) = mIn (ix2 e q))
  (h7 : ∀ (p : Fin 128) (q : Fin 8) (e : Fin 8192), e.val = 128 * t.val + p.val → mOut' (ix2 p q) = mOut (ix2 e q))
  (h8 : ∀ (p : Fin 128) (q : Fin 1) (e : Fin 8192), e.val = 128 * t.val + p.val → mLoop' (ix2 p q) = mLoop (ix2 e q))
  (h10 : ∀ (p : Fin 128) (q : Fin 512) (e : Fin 8192), e.val = 128 * t.val + p.val → x' (ix2 p q) = x (ix2 e q))

include h10 in
private theorem blkLoop_eq_combLoop (r : Fin 128) (n : Fin 8192) (hn : n.val = 128 * t.val + r.val) (q : Fin 640) :
    blkLoop x' wl r q = combLoop x wl n q := by
  unfold blkLoop combLoop
  refine Finset.sum_congr rfl fun k _ => ?_
  rw [h10 r k n hn]

include h0 h1 h4 h5 h6 h7 h8 h10 in
private theorem blkH_eq_combH (r : Fin 128) (n : Fin 8192) (hn : n.val = 128 * t.val + r.val) (j : Fin 512) :
    blkH cpIn' cpOut' bpIn bpOut labIn' labOut' mIn' mOut' mLoop' x' wl r j
      = combH cpIn cpOut bpIn bpOut labIn labOut mIn mOut mLoop x wl n j := by
  unfold blkH combH
  rw [blkArc_eq_combArc cpIn bpIn labIn mIn cpIn' labIn' mIn' t h0 h4 h6 r n hn j,
    blkArc_eq_combArc cpOut bpOut labOut mOut cpOut' labOut' mOut' t h1 h5 h7 r n hn j,
    blkLoop_eq_combLoop x wl x' t h10 r n hn gcol, blkLoop_eq_combLoop x wl x' t h10 r n hn (col j), h8 r 0 n hn]

end BlockToArraysH

/-! ## The output array -/

/-- The layer's output at node n, feature j, from the fourteen arrays as the region finds them. -/
private def outAt (c : Dev nD) (n : Fin 8192) (j : Fin 512) : EReal :=
  Cert.Spec.outOf (Cert.Spec.combH (cpInG V c) (cpOutG V c) (bpInArr V c) (bpOutArr V c) (labInCol V c) (labOutCol V c)
      (mInArr V c) (mOutArr V c) (mLoopArr V c) (xArr V c) (wLoopArr V c))
    (fun j => gammaRow V c (ix2 0 j)) (fun j => betaRow V c (ix2 0 j)) (smCol V c (ix2 n 0)) (xArr V c (ix2 n j)) n j

/-- The same as one function of the output array's index. -/
private def outG (c : Dev nD) : Vec Ideal S8192x512 .f32 := fun i => outAt V c (i 0) (i 1)

/-- What the body leaves at row r, feature j of point t's output block is the layer's output at node 128 t + r. -/
private theorem body_at (c : Dev nD) (t : Fin cfg1.N) (r : Fin 128) (j : Fin 512) (n : Fin 8192) (hn : n.val = 128 * t.val + r.val) :
    k1_pay1 (F := Ideal) (k1_pay8 (b10 V c t)) (k1_pay11 (b12 V c t)) (k1_pay12 (b13 V c t))
        (k1_pay13 (k1_pay4 (b4 V c t) (b2 V c t) (b0 V c t)) (k1_pay5 (b5 V c t) (b3 V c t) (b1 V c t)) (b7 V c t)
          (k1_pay6 (b4 V c t) (b2 V c t) (b0 V c t) (b6 V c t)) (k1_pay7 (b5 V c t) (b3 V c t) (b1 V c t)) (b10 V c t) (b11 V c t) (b8 V c t))
        (k1_pay14 (k1_pay4 (b4 V c t) (b2 V c t) (b0 V c t)) (k1_pay5 (b5 V c t) (b3 V c t) (b1 V c t)) (b7 V c t)
          (k1_pay6 (b4 V c t) (b2 V c t) (b0 V c t) (b6 V c t)) (k1_pay7 (b5 V c t) (b3 V c t) (b1 V c t)) (b10 V c t) (b11 V c t) (b8 V c t))
        (b9 V c t) (ix2 r j)
      = outAt V c n j := by
  have hN : t.val < 64 := lt_of_lt_of_eq t.isLt (N_1 : cfg1.N = 64)
  refine (body_value (b0 V c t) (b1 V c t) (b2 V c t) (b3 V c t) (b4 V c t) (b5 V c t) (b6 V c t) (b7 V c t) (b8 V c t) (b9 V c t)
    (b10 V c t) (b11 V c t) (b12 V c t) (b13 V c t) r j).trans ?_
  unfold outAt
  have e2 : (b2 V c t : Cert.Spec.A2 64 640) = bpInArr V c := funext fun i => by rw [eq_ix2 i]; exact b2_apply V c t _ _
  have e3 : (b3 V c t : Cert.Spec.A2 64 640) = bpOutArr V c := funext fun i => by rw [eq_ix2 i]; exact b3_apply V c t _ _
  have e11 : (b11 V c t : Cert.Spec.A2 512 640) = wLoopArr V c := funext fun i => by rw [eq_ix2 i]; exact b11_apply V c t _ _
  have e12 : (fun j => b12 V c t (ix2 0 j)) = fun j => gammaRow V c (ix2 0 j) := funext fun j => b12_apply V c t 0 j
  have e13 : (fun j => b13 V c t (ix2 0 j)) = fun j => betaRow V c (ix2 0 j) := funext fun j => b13_apply V c t 0 j
  rw [e12, e13, b9_apply V c t r 0 n hn, b10_apply V c t r j n hn]
  refine Cert.Spec.outOf_congr_row _ _ _ _ _ _ r n (fun j' => ?_) j
  rw [e2, e3, e11]
  exact blkH_eq_combH (cpInG V c) (cpOutG V c) (bpInArr V c) (bpOutArr V c) (labInCol V c) (labOutCol V c) (mInArr V c) (mOutArr V c)
    (mLoopArr V c) (xArr V c) (wLoopArr V c) (b0 V c t) (b1 V c t) (b4 V c t) (b5 V c t) (b6 V c t) (b7 V c t) (b8 V c t) (b10 V c t)
    ⟨t.val, hN⟩ (fun p q e he => b0_apply V c t p q e he) (fun p q e he => b1_apply V c t p q e he)
    (fun p q e he => b4_apply V c t p q e he) (fun p q e he => b5_apply V c t p q e he) (fun p q e he => b6_apply V c t p q e he)
    (fun p q e he => b7_apply V c t p q e he) (fun p q e he => b8_apply V c t p q e he) (fun p q e he => b10_apply V c t p q e he)
    r n hn j'

/-- What point t writes back is block t of the output function. -/
private theorem flushed1_eq (c : Dev nD) (t : Fin cfg1.N) :
    (dat1 V c).flushed 14 t = ((cfg1.win 14).blk t).view.read (Elt Ideal) (outG V c) := by
  show (cfg1.win 14).cut (grid1.coords t) ((dat1 V c).after 14 t) = _
  rw [after1_14]
  unfold out1_14
  rw [View.canon_unit_zero hz2]
  simp only [View.ld_unit_zero (S := S1024x640) hz2, View.ld_unit_zero (S := S64x640) hz2, View.ld_unit_zero (S := S1024x1) hz2,
    View.ld_unit_zero (S := S128x8) hz2, View.ld_unit_zero (S := S128x1) hz2, View.ld_unit_zero (S := S128x512) hz2,
    View.ld_unit_zero (S := S512x640) hz2, View.ld_unit_zero (S := S1x512) hz2]
  obtain ⟨-, -, -, -, -, -, -, -, -, -, -, -, -, -, h14⟩ := idx_facts1 t
  have hN : t.val < 64 := lt_of_lt_of_eq t.isLt (N_1 : cfg1.N = 64)
  funext y
  obtain ⟨r, j, rfl⟩ : ∃ (r : Fin 128) (j : Fin 512), y = ix2 r j := ⟨y 0, y 1, eq_ix2 y⟩
  refine (body_at V c t r j ⟨128 * t.val + r.val, by have := r.isLt; omega⟩ rfl).trans ?_
  rw [View.read_apply]
  show outAt V c _ j = outG V c (((cfg1.win 14).blk t).view.emb (ix2 r j))
  unfold outG
  have e0 : ((cfg1.win 14).blk t).view.emb (ix2 r j) (0 : Fin 2) = (⟨128 * t.val + r.val, by have := r.isLt; omega⟩ : Fin 8192) := by
    apply Fin.ext
    show win1_14.index t (0 : Fin 2) * 128 + 1 * r.val = 128 * t.val + r.val
    rw [h14.1]; omega
  have e1 : ((cfg1.win 14).blk t).view.emb (ix2 r j) (1 : Fin 2) = j := by
    apply Fin.ext
    show win1_14.index t (1 : Fin 2) * 512 + 1 * j.val = j.val
    rw [h14.2]; omega
  rw [e0, e1]

/-- An index of the output array is in point t's block iff each coordinate is in the block's range on its axis. -/
private theorem mem_blk1 (t : Fin cfg1.N) (i : S8192x512.Idx) :
    i ∈ ((cfg1.win 14).blk t).view.set ↔ ∀ a : Fin 2, win1_14.index t a * S128x512.size a ≤ (i a).val ∧ (i a).val < win1_14.index t a * S128x512.size a + S128x512.size a := by
  show i ∈ ((View.whole main_v67).slice (win1_14.rect t)).set ↔ _
  rw [View.set_slice_whole, Rect.mem_set_unit]
  exact Iff.rfl

/-- The output array after the run is the output function: node n lies in the block of point n / 128. -/
private theorem outArr_eq (c : Dev nD) : outArr V c = outG V c :=
  (dat1 V c).arrAt_eq_of_cover 14 (outG V c) (fun t _ => flushed1_eq V c t) fun i => by
    have hi0 : (i 0).val < 8192 := (i 0).isLt
    have hi1 : (i 1).val < 512 := (i 1).isLt
    have hN : cfg1.N = 64 := N_1
    refine ⟨⟨(i 0).val / 128, by rw [hN]; omega⟩, flush1_14 _, ?_⟩
    rw [mem_blk1]
    obtain ⟨-, -, -, -, -, -, -, -, -, -, -, -, -, -, h14⟩ := idx_facts1 ⟨(i 0).val / 128, by rw [hN]; omega⟩
    intro a
    match a with
    | ⟨0, _⟩ =>
      show win1_14.index _ (0 : Fin 2) * 128 ≤ (i 0).val ∧ (i 0).val < win1_14.index _ (0 : Fin 2) * 128 + 128
      rw [h14.1]; show (i 0).val / 128 * 128 ≤ (i 0).val ∧ (i 0).val < (i 0).val / 128 * 128 + 128; omega
    | ⟨1, _⟩ =>
      show win1_14.index _ (1 : Fin 2) * 512 ≤ (i 1).val ∧ (i 1).val < win1_14.index _ (1 : Fin 2) * 512 + 512
      rw [h14.2]; omega

theorem comb_out (c : Dev nD) (n : Fin 8192) (j : Fin 512) :
    outArr V c (ix2 n j)
      = Cert.Spec.outOf (Cert.Spec.combH (cpInG V c) (cpOutG V c) (bpInArr V c) (bpOutArr V c) (labInCol V c) (labOutCol V c)
            (mInArr V c) (mOutArr V c) (mLoopArr V c) (xArr V c) (wLoopArr V c))
          (fun j => gammaRow V c (ix2 0 j)) (fun j => betaRow V c (ix2 0 j)) (smCol V c (ix2 n 0)) (xArr V c (ix2 n j)) n j := by
  rw [outArr_eq V c]
  rfl

end Cert.KernelIdeal.Bridge

end
-- ==== Proof.LibIndexing.lean ====
/-
  Two host indexing operations read at an index, for any sizes.

  * A ROW GATHER: the operand is a table of N rows and C columns, the start indices are a column of E words, and the
    result's row e is the table's row number idx[e], read signed and clamped into [0, N - 1].
  * A COLUMN SCATTER that overwrites: the updates are a vector of R values, the one scatter index is a column number,
    and the result is the operand with that column replaced by the updates.
-/
import Idealize.ShloMosaic.PureOps
import Idealize.ShloMosaic.Lib.ValueIdx

noncomputable section

namespace Cert.Lib

open Idealize.ShloMosaic Idealize.ShloMosaic.ValueIdx

variable {α : Type}

/-- The dimension numbers of `table[idx]` for a table of rank 2 and a column of start indices. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, j): the table at row idx[e, 0], read signed and clamped into [0, N - 1], column j. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N C E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N C E wf).start (ix2 e j) idx 0 + (rowGatherDims N C E wf).batchCoord (ix2 e j) 0
      + (rowGatherDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e j) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e j) idx 1 + (rowGatherDims N C E wf).batchCoord (ix2 e j) 1
      + (rowGatherDims N C E wf).offCoord (ix2 e j) 1 = j.val
    have h10 : (1 : Fin 2) ∉ [(0 : Fin 2)] := by decide
    rw [GatherDims.batchCoord_eq_zero _ _ _ List.not_mem_nil]
    unfold GatherDims.start
    rw [dif_neg (show (1 : Fin 2) ∉ (rowGatherDims N C E wf).startIndexMap from h10)]
    simp only [Nat.add_zero, Nat.zero_add]
    have hk : (1 : Fin 2) ∈ (rowGatherDims N C E wf).sKept := by
      rw [GatherDims.mem_sKept]; exact ⟨h10, List.not_mem_nil⟩
    unfold GatherDims.offCoord
    rw [dif_pos hk]
    rfl

/-- The dimension numbers of `x.at[:, q].set(u)` for an operand of rank 2 and one scatter index. -/
abbrev colScatterDims (R C : Nat)
    (wf : ScatterDims.WF ⟨2, ![R, C]⟩ ⟨1, ![1]⟩ ⟨1, ![R]⟩ [0] [1] [1] 0) :
    ScatterDims ⟨2, ![R, C]⟩ ⟨1, ![1]⟩ ⟨1, ![R]⟩ where
  updateWindowDims := [0]
  insertedWindowDims := [1]
  scatterDimsToOperandDims := [1]
  indexVectorDim := 0
  wf := wf

/-! ## A left fold of overwriting point updates

A step that overwrites the value at one target `T n` by `v n` and leaves every other index alone, folded over a list
without repeats whose targets are pairwise distinct: an index that is no target keeps the starting value, and the target
of a list member holds that member's value. -/

/-- Away from every target the starting value stays. -/
private theorem foldl_overwrite_miss {ι κ β : Type} (step : (ι → β) → κ → (ι → β)) (T : κ → ι)
    (hmiss : ∀ r n i, i ≠ T n → step r n i = r i) (l : List κ) (x : ι → β) (i : ι) (hi : ∀ n ∈ l, i ≠ T n) :
    l.foldl step x i = x i := by
  induction l generalizing x with
  | nil => rfl
  | cons m l ih =>
    rw [List.foldl_cons, ih _ (fun n hn => hi n (List.mem_cons_of_mem _ hn)),
      hmiss _ _ _ (hi m List.mem_cons_self)]

/-- At the target of a list member the fold holds that member's value: later members have other targets. -/
private theorem foldl_overwrite_hit {ι κ β : Type} (step : (ι → β) → κ → (ι → β)) (T : κ → ι) (v : κ → β)
    (hhit : ∀ r n, step r n (T n) = v n) (hmiss : ∀ r n i, i ≠ T n → step r n i = r i)
    (hT : Function.Injective T) (l : List κ) (hl : l.Nodup) (x : ι → β) (n : κ) (hn : n ∈ l) :
    l.foldl step x (T n) = v n := by
  induction l generalizing x with
  | nil => exact absurd hn List.not_mem_nil
  | cons m l ih =>
    rw [List.foldl_cons]
    rcases List.mem_cons.mp hn with hnm | hn'
    · subst hnm
      rw [foldl_overwrite_miss step T hmiss l _ _ (fun k hk hkn => (List.nodup_cons.mp hl).1 (by rw [hT hkn]; exact hk)), hhit]
    · exact ih (List.nodup_cons.mp hl).2 _ hn'

/-- Where update number n of a length-R vector lands in an R × C operand: its row, column zero. -/
private def colTarget (R C : Nat) (hC : 0 < C) (n : Fin (⟨1, ![R]⟩ : Shape).numel) : (⟨2, ![R, C]⟩ : Shape).Idx :=
  ix2 (n0 := R) (n1 := C)
    ⟨(((⟨1, ![R]⟩ : Shape).rowMajor.symm n) 0).val, (((⟨1, ![R]⟩ : Shape).rowMajor.symm n) 0).isLt⟩ ⟨0, hC⟩

/-- Different update numbers land in different rows. -/
private theorem colTarget_injective (R C : Nat) (hC : 0 < C) : Function.Injective (colTarget R C hC) := by
  intro n m h
  have h0 : (((⟨1, ![R]⟩ : Shape).rowMajor.symm n) 0).val = (((⟨1, ![R]⟩ : Shape).rowMajor.symm m) 0).val :=
    congrArg Fin.val (congrFun h 0)
  have hnm : (⟨1, ![R]⟩ : Shape).rowMajor.symm n = (⟨1, ![R]⟩ : Shape).rowMajor.symm m := by
    funext a
    match a with
    | ⟨0, _⟩ => exact Fin.ext h0
  exact (⟨1, ![R]⟩ : Shape).rowMajor.symm.injective hnm

/-- The fold over all update numbers of a step that writes update n at (n, 0) and nothing else, read at (r, q): column 0
    holds the updates, the other columns the starting array. -/
private theorem colFold_apply {R C : Nat} (hC : 0 < C)
    (step : ((⟨2, ![R, C]⟩ : Shape).Idx → α) → Fin (⟨1, ![R]⟩ : Shape).numel → ((⟨2, ![R, C]⟩ : Shape).Idx → α))
    (upd : (⟨1, ![R]⟩ : Shape).Idx → α)
    (hhit : ∀ r' n, step r' n (colTarget R C hC n) = upd ((⟨1, ![R]⟩ : Shape).rowMajor.symm n))
    (hmiss : ∀ r' n i, i ≠ colTarget R C hC n → step r' n i = r' i)
    (x : (⟨2, ![R, C]⟩ : Shape).Idx → α) (r : Fin R) (q : Fin C) :
    (List.finRange (⟨1, ![R]⟩ : Shape).numel).foldl step x (ix2 r q)
      = if q.val = 0 then upd (ix1 r) else x (ix2 r q) := by
  by_cases hq : q.val = 0
  · rw [if_pos hq]
    -- (r, 0) is the target of the update whose index is r
    have htgt : ix2 r q = colTarget R C hC ((⟨1, ![R]⟩ : Shape).rowMajor (ix1 r)) := by
      funext a; refine Fin.ext ?_
      match a with
      | ⟨0, _⟩ =>
        show r.val = (((⟨1, ![R]⟩ : Shape).rowMajor.symm ((⟨1, ![R]⟩ : Shape).rowMajor (ix1 r))) 0).val
        rw [Equiv.symm_apply_apply]
        rfl
      | ⟨1, _⟩ => exact hq
    rw [htgt, foldl_overwrite_hit step (colTarget R C hC) (fun n => upd ((⟨1, ![R]⟩ : Shape).rowMajor.symm n)) hhit hmiss
      (colTarget_injective R C hC) _ (List.nodup_finRange _) x _ (List.mem_finRange _), Equiv.symm_apply_apply]
  · rw [if_neg hq]
    -- no update lands outside column 0
    exact foldl_overwrite_miss step (colTarget R C hC) hmiss _ x (ix2 r q)
      (fun n _ h => hq (show q.val = 0 from congrArg Fin.val (congrFun h 1)))

/-- With the one scatter index reading 0, update index j lands at row j, column 0: the row is the window coordinate, the
    column the start index. -/
private theorem colScatter_resultIdx {R C w : Nat} (hC : 0 < C)
    (wf : ScatterDims.WF ⟨2, ![R, C]⟩ ⟨1, ![1]⟩ ⟨1, ![R]⟩ [0] [1] [1] 0)
    (idx : IVec ⟨1, ![1]⟩ w) (hidx : (idx (ix1 0)).toInt = 0) (j : (⟨1, ![R]⟩ : Shape).Idx) :
    (colScatterDims R C wf).resultIdx? j idx
      = some (ix2 (n0 := R) (n1 := C) ⟨(j 0).val, (j 0).isLt⟩ ⟨0, hC⟩) := by
  have hjR : (j 0).val < R := (j 0).isLt
  have h01 : (0 : Fin 2) ∉ [(1 : Fin 2)] := by decide
  have hs0 : (colScatterDims R C wf).start j idx 0 = 0 := by
    unfold ScatterDims.start
    rw [dif_neg (show (0 : Fin 2) ∉ (colScatterDims R C wf).scatterDimsToOperandDims from h01)]
  have hs1 : (colScatterDims R C wf).start j idx 1 = 0 := by
    unfold ScatterDims.start
    rw [dif_pos (show (1 : Fin 2) ∈ (colScatterDims R C wf).scatterDimsToOperandDims from List.mem_singleton.mpr rfl)]
    have hsi : (colScatterDims R C wf).siIdx j ⟨List.idxOf (1 : Fin 2) (colScatterDims R C wf).scatterDimsToOperandDims,
        List.idxOf_lt_length_iff.2 (List.mem_singleton.mpr rfl)⟩ = ix1 0 := by
      funext b; refine Fin.ext ?_
      match b with
      | ⟨0, _⟩ => rfl
    rw [hsi]; exact hidx
  have hk0 : (0 : Fin 2) ∈ (colScatterDims R C wf).sKept := by
    simp [ScatterDims.sKept, Shape.kept, List.mem_filter, List.mem_finRange]
  have hk1 : (1 : Fin 2) ∉ (colScatterDims R C wf).sKept := by
    simp [ScatterDims.sKept, Shape.kept, List.mem_filter, List.mem_finRange]
  have hw0 : (colScatterDims R C wf).window j 0 = (j 0).val := by
    unfold ScatterDims.window; rw [dif_pos hk0]; rfl
  have hw1 : (colScatterDims R C wf).window j 1 = 0 := by
    unfold ScatterDims.window; rw [dif_neg hk1]
  have hin : ∀ a : Fin 2, 0 ≤ (colScatterDims R C wf).start j idx a + (colScatterDims R C wf).window j a ∧
      (colScatterDims R C wf).start j idx a + (colScatterDims R C wf).window j a < (⟨2, ![R, C]⟩ : Shape).size a := by
    intro a
    match a with
    | ⟨0, _⟩ =>
      show 0 ≤ (colScatterDims R C wf).start j idx 0 + (colScatterDims R C wf).window j 0 ∧
        (colScatterDims R C wf).start j idx 0 + (colScatterDims R C wf).window j 0 < (R : Int)
      rw [hs0, hw0]; constructor <;> omega
    | ⟨1, _⟩ =>
      show 0 ≤ (colScatterDims R C wf).start j idx 1 + (colScatterDims R C wf).window j 1 ∧
        (colScatterDims R C wf).start j idx 1 + (colScatterDims R C wf).window j 1 < (C : Int)
      rw [hs1, hw1]; constructor <;> omega
  unfold ScatterDims.resultIdx?
  rw [dif_pos hin]
  congr 1
  funext a; refine Fin.ext ?_
  match a with
  | ⟨0, _⟩ =>
    show ((colScatterDims R C wf).start j idx 0 + (colScatterDims R C wf).window j 0).toNat = (j 0).val
    rw [hs0, hw0]; omega
  | ⟨1, _⟩ =>
    show ((colScatterDims R C wf).start j idx 1 + (colScatterDims R C wf).window j 1).toNat = 0
    rw [hs1, hw1]; rfl

/-- THE OVERWRITING COLUMN SCATTER AT COLUMN ZERO, READ AT (r, q): the update at r in column 0, the operand elsewhere. -/
theorem scatter_col0_set_apply {R C w : Nat} (hC : 0 < C)
    (wf : ScatterDims.WF ⟨2, ![R, C]⟩ ⟨1, ![1]⟩ ⟨1, ![R]⟩ [0] [1] [1] 0)
    (x : (⟨2, ![R, C]⟩ : Shape).Idx → α) (idx : IVec ⟨1, ![1]⟩ w) (hidx : (idx (ix1 0)).toInt = 0)
    (upd : (⟨1, ![R]⟩ : Shape).Idx → α) (r : Fin R) (q : Fin C) :
    Host.scatter (colScatterDims R C wf) (fun _ b => b) x idx upd (ix2 r q)
      = if q.val = 0 then upd (ix1 r) else x (ix2 r q) := by
  unfold Host.scatter
  -- one step of the fold overwrites its update's target, (n, 0), and nothing else
  refine colFold_apply hC _ upd ?_ ?_ x r q
  · intro r' n
    dsimp only
    rw [colScatter_resultIdx hC wf idx hidx]
    exact if_pos rfl
  · intro r' n i hi
    dsimp only
    rw [colScatter_resultIdx hC wf idx hidx]
    exact if_neg hi

/-! ## Words in range: jnp's clip and jax's negative-index wrap do nothing -/

/-- A word below 2^31 read signed is its unsigned value. -/
theorem toInt_toNat_of_lt {a : BitVec 32} {n : Nat} (h : a.toNat < n) (hn : n ≤ 2 ^ 31) : a.toInt.toNat = a.toNat := by
  have hti : a.toInt = a.toNat := BitVec.toInt_eq_toNat_of_lt (by omega)
  omega

/-- `min hi (max 0 w)` (signed, as jnp.clip prints) of a word already in [0, hi] is the word. -/
theorem clip_of_le (w hi : BitVec 32) (hhi : hi.toNat < 2 ^ 31) (hw : w.toNat ≤ hi.toNat) :
    IntOp.minsi hi (IntOp.maxsi (0#32) w) = w := by
  have hti : w.toInt = w.toNat := BitVec.toInt_eq_toNat_of_lt (by omega)
  have hth : hi.toInt = hi.toNat := BitVec.toInt_eq_toNat_of_lt (by omega)
  have h0 : (0#32 : BitVec 32).toInt = 0 := by decide
  -- the maximum with zero of a word that reads non-negative is the word
  have hmax : IntOp.maxsi (0#32) w = w := by
    unfold IntOp.maxsi
    rw [if_neg]
    simp only [BitVec.slt, hti, h0, decide_eq_true_eq]; omega
  rw [hmax]
  -- min hi w: hi < w cannot be, so it is w
  unfold IntOp.minsi
  rw [if_neg]
  simp only [BitVec.slt, hti, hth, decide_eq_true_eq]; omega

/-- The wrap of a negative index (`select (w < 0) (w + n) w`) of a word below 2^31 is the word. -/
theorem wrap_of_nonneg (w n : BitVec 32) (hw : w.toNat < 2 ^ 31) :
    Scalar.select (IntOp.cmpi .slt w (0#32)) (w + n) w = w := by
  have hti : w.toInt = w.toNat := BitVec.toInt_eq_toNat_of_lt (by omega)
  have h0 : (0#32 : BitVec 32).toInt = 0 := by decide
  -- the word reads non-negative, so the comparison "below zero" is the bit 0
  have hs : w.slt (0#32) = false := by
    simp only [BitVec.slt, hti, h0, decide_eq_false_iff_not]; omega
  have hc : IntOp.cmpi .slt w (0#32) = 0#1 := by
    show BitVec.ofBool (w.slt (0#32)) = 0#1
    rw [hs]; rfl
  rw [hc, select_zero]

end Cert.Lib

end
-- ==== Proof.KHostA.lean ====
/-
  The packed tables the host glue builds before the kernels run: a zero pad of 128 columns whose column 0 is overwritten
  with the gate vector (a column scatter), joined to the right of the weight matrix (a concatenation along the columns),
  then a format change, which over the extended reals is the identity.  Read at (k, j): the matrix for j < 512, the gate
  vector at j = 512, zero beyond.  Neither kernel launch nor any later host operation writes these buffers, so the
  second kernel finds the tables the first one's host stretch left.
-/
import proofs.«408033_j214748365179_3_alg».proof.Proof.Gen.KernelIdeal.Frame
import proofs.«408033_j214748365179_3_alg».proof.Proof.Spec
import proofs.«408033_j214748365179_3_alg».proof.Proof.LibIndexing
import proofs.«408033_j214748365179_3_alg».proof.Proof.KArrays
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-! ## One packed table read at (k, j), for any number of rows -/

/-- The join, along the columns, of a matrix `V` of 512 columns with a pad `Z` of 128 columns whose column 0 has been
    overwritten by the column vector `Vg` (flattened to a vector of `R` entries): at column j < 512 it is `V`, at
    column 512 (the pad's column 0) it is `Vg`, and beyond it is the pad, which is zero. -/
private theorem pack_apply {R : Nat}
    (hc : Shape.Concatenates [(⟨2, ![R, 512]⟩ : Shape), ⟨2, ![R, 128]⟩] ⟨2, ![R, 640]⟩ 1)
    (wf : ScatterDims.WF ⟨2, ![R, 128]⟩ ⟨1, ![1]⟩ ⟨1, ![R]⟩ [0] [1] [1] 0)
    (hs : (⟨2, ![R, 1]⟩ : Shape).ShapeCasts ⟨1, ![R]⟩)
    (V : Cert.Spec.A2 R 512) (Vg : Cert.Spec.A2 R 1)
    (Z : Cert.Spec.A2 R 128) (hZ : ∀ i, Z i = 0)
    (idx : IVec ⟨1, ![1]⟩ 32) (hidx : (idx (ix1 0)).toInt = 0)
    (k : Fin R) (j : Fin 640) :
    concatenate ⟨2, ![R, 640]⟩ 1 [⟨⟨2, ![R, 512]⟩, V⟩, ⟨⟨2, ![R, 128]⟩,
        Host.scatter (Cert.Lib.colScatterDims R 128 wf) (fun _ b => b) Z idx (shapeCast ⟨1, ![R]⟩ Vg hs)⟩] hc (ix2 k j)
      = Cert.Spec.packT V Vg k j := by
  unfold Cert.Spec.packT
  have hj := j.isLt
  by_cases h : j.val < 512
  · -- a column of the matrix: the first piece, at the same coordinates
    rw [dif_pos h]
    refine concatenate_pair_apply_left (t := ⟨2, ![R, 640]⟩) (s₁ := ⟨2, ![R, 512]⟩) (s₂ := ⟨2, ![R, 128]⟩)
      (1 : Fin 2) V _ hc (ix2 k j) rfl (ix2 k ⟨j.val, h⟩) ?_
    intro b
    match b with
    | ⟨0, _⟩ => rfl
    | ⟨1, _⟩ => rfl
  · -- a column of the pad: the second piece, at column j - 512
    rw [dif_neg h]
    refine (concatenate_pair_apply_right (t := ⟨2, ![R, 640]⟩) (s₁ := ⟨2, ![R, 512]⟩) (s₂ := ⟨2, ![R, 128]⟩)
      (1 : Fin 2) V _ hc (ix2 k j) rfl rfl (ix2 k ⟨j.val - 512, by omega⟩) ?_ ?_).trans ?_
    · intro b hb
      match b with
      | ⟨0, _⟩ => rfl
      | ⟨1, _⟩ => exact absurd rfl hb
    · show (j.val - 512) + 512 = j.val
      omega
    · rw [Cert.Lib.scatter_col0_set_apply (by norm_num) wf Z idx hidx]
      by_cases h2 : j.val = 512
      · -- the pad's column 0: the gate vector's entry k, whose row-major position in the column vector is k
        rw [if_pos (show j.val - 512 = 0 by omega), if_pos h2]
        refine shapeCast_apply Vg hs (ix1 k) (ix2 k 0) ?_
        rw [Shape.rowMajor_val_two, Shape.rowMajor_val_one]
        show k.val * 1 + 0 = k.val
        omega
      · rw [if_neg (show ¬ (j.val - 512 = 0) by omega), if_neg h2]
        exact hZ _

/-- The pad: a splat of the zero word. -/
private theorem zeros_apply {s : Shape} (hb : S_.BroadcastsInDim s (![] : Fin 0 → Fin s.rank)) (i : s.Idx) :
    broadcastInDim s ![] hb (constant (F := Ideal) S_ .f32 0x00000000#32) i = 0 := by
  rw [broadcastInDim_apply (![] : Fin 0 → Fin s.rank) hb _ i ix0 (fun a => a.elim0), constant_apply, Ideal.ofBits_zero_f32]

/-- The one scatter index: a splat of the word 0, which read signed is 0. -/
private theorem zidx_toInt :
    ((broadcastInDim S1 ![] bcast_S_S1 (constantI S_ 32 0#32) : IVec S1 32) (ix1 0)).toInt = 0 := by
  rw [broadcastInDim_apply (![] : Fin 0 → Fin S1.rank) bcast_S_S1 _ (ix1 0) ix0 (fun a => a.elim0), constantI_apply]
  rfl

/-- A join of two pieces depends on the pieces only: equal pieces, equal joins. -/
private theorem concat_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂
  rfl

/-! ## The two table shapes as terms over a matrix and a column vector -/

/-- A 512-row table before the format change: the matrix joined with the zero pad whose column 0 holds the vector. -/
private def tab512 (V : Vec Ideal S512x512 .f32) (Vg : Vec Ideal S512x1 .f32) : Vec Ideal S512x640 .f32 :=
  concatenate S512x640 1 [⟨S512x512, V⟩, ⟨S512x128,
    Host.scatter scatter_S512x128_S1_S512_0_1_1_0 (fun _ b => b)
      (broadcastInDim S512x128 ![] bcast_S_S512x128 (constant (F := Ideal) S_ .f32 0x00000000#32))
      (broadcastInDim S1 ![] bcast_S_S1 (constantI S_ 32 0#32))
      (shapeCast S512 Vg shapeCasts_S512x1_S512)⟩] concatenates_S512x512_S512x128_S512x640_d1

/-- A 64-row table, built the same way. -/
private def tab64 (V : Vec Ideal S64x512 .f32) (Vg : Vec Ideal S64x1 .f32) : Vec Ideal S64x640 .f32 :=
  concatenate S64x640 1 [⟨S64x512, V⟩, ⟨S64x128,
    Host.scatter scatter_S64x128_S1_S64_0_1_1_0 (fun _ b => b)
      (broadcastInDim S64x128 ![] bcast_S_S64x128 (constant (F := Ideal) S_ .f32 0x00000000#32))
      (broadcastInDim S1 ![] bcast_S_S1 (constantI S_ 32 0#32))
      (shapeCast S64 Vg shapeCasts_S64x1_S64)⟩] concatenates_S64x512_S64x128_S64x640_d1

private theorem tab512_apply (V : Vec Ideal S512x512 .f32) (Vg : Vec Ideal S512x1 .f32) (k : Fin 512) (j : Fin 640) :
    tab512 V Vg (ix2 k j) = Cert.Spec.packT (R := 512) V Vg k j :=
  pack_apply concatenates_S512x512_S512x128_S512x640_d1 scatter_S512x128_S1_S512_0_1_1_0_wf shapeCasts_S512x1_S512
    V Vg _ (zeros_apply bcast_S_S512x128) _ zidx_toInt k j

private theorem tab64_apply (V : Vec Ideal S64x512 .f32) (Vg : Vec Ideal S64x1 .f32) (l : Fin 64) (j : Fin 640) :
    tab64 V Vg (ix2 l j) = Cert.Spec.packT (R := 64) V Vg l j :=
  pack_apply concatenates_S64x512_S64x128_S64x640_d1 scatter_S64x128_S1_S64_0_1_1_0_wf shapeCasts_S64x1_S64
    V Vg _ (zeros_apply bcast_S_S64x128) _ zidx_toInt l j

/-! ## What the last host stretch before the first kernel leaves in the five table buffers, from any contents before it

  The stretch's operations are read off one by one at the table's buffer; the two pieces of the join are read separately. -/

private theorem after8_v34 (X : Valuation τ sig (Elt Ideal)) :
    @Eq (Vec Ideal S512x640 .bf16) (StableHlo.after hostOps0_8 X (Proc.devRef .tc main_v34))
      (truncf (F := Ideal) (s := S512x640) (φ := .f32) .bf16
        (tab512 (X (Proc.devRef .tc main_arg9)) (X (Proc.devRef .tc main_arg11))) bitsLt_bf16_f32) := by
  after_results_simp
  unfold tab512
  refine congrArg (fun a : Vec Ideal S512x640 .f32 => truncf (F := Ideal) (s := S512x640) (φ := .f32) .bf16 a bitsLt_bf16_f32) ?_
  refine concat_congr _ _ ?_ ?_
  · after_results_simp
  · after_results_simp
    rfl

private theorem after8_v36 (X : Valuation τ sig (Elt Ideal)) :
    @Eq (Vec Ideal S512x640 .bf16) (StableHlo.after hostOps0_8 X (Proc.devRef .tc main_v36))
      (truncf (F := Ideal) (s := S512x640) (φ := .f32) .bf16
        (tab512 (X (Proc.devRef .tc main_arg13)) (X (Proc.devRef .tc main_arg15))) bitsLt_bf16_f32) := by
  after_results_simp
  unfold tab512
  refine congrArg (fun a : Vec Ideal S512x640 .f32 => truncf (F := Ideal) (s := S512x640) (φ := .f32) .bf16 a bitsLt_bf16_f32) ?_
  refine concat_congr _ _ ?_ ?_
  · after_results_simp
  · after_results_simp
    rfl

private theorem after8_v38 (X : Valuation τ sig (Elt Ideal)) :
    @Eq (Vec Ideal S512x640 .bf16) (StableHlo.after hostOps0_8 X (Proc.devRef .tc main_v38))
      (truncf (F := Ideal) (s := S512x640) (φ := .f32) .bf16
        (tab512 (X (Proc.devRef .tc main_arg17)) (X (Proc.devRef .tc main_arg18))) bitsLt_bf16_f32) := by
  after_results_simp
  unfold tab512
  refine congrArg (fun a : Vec Ideal S512x640 .f32 => truncf (F := Ideal) (s := S512x640) (φ := .f32) .bf16 a bitsLt_bf16_f32) ?_
  refine concat_congr _ _ ?_ ?_
  · after_results_simp
  · after_results_simp
    rfl

private theorem after8_v47 (X : Valuation τ sig (Elt Ideal)) :
    @Eq (Vec Ideal S64x640 .f32) (StableHlo.after hostOps0_8 X (Proc.devRef .tc main_v47))
      (tab64 (X (Proc.devRef .tc main_arg10)) (X (Proc.devRef .tc main_arg12))) := by
  after_results_simp
  unfold tab64
  refine concat_congr _ _ ?_ ?_
  · after_results_simp
  · after_results_simp
    rfl

private theorem after8_v48 (X : Valuation τ sig (Elt Ideal)) :
    @Eq (Vec Ideal S64x640 .f32) (StableHlo.after hostOps0_8 X (Proc.devRef .tc main_v48))
      (tab64 (X (Proc.devRef .tc main_arg14)) (X (Proc.devRef .tc main_arg16))) := by
  after_results_simp
  unfold tab64
  refine concat_congr _ _ ?_ ?_
  · after_results_simp
  · after_results_simp
    rfl

/-! ## The weight arguments reach that stretch as launched, and the tables outlive the first kernel -/

/-- The ten weight arguments of @main. -/
private abbrev wArgs : List (Ref sig .tc) :=
  [main_arg9, main_arg10, main_arg11, main_arg12, main_arg13, main_arg14, main_arg15, main_arg16, main_arg17, main_arg18]

/-- A reference on that list differs from one off it. -/
private theorem wArgs_ne {b y : Ref sig .tc} (hb : b ∈ wArgs) (hy : y ∉ wArgs) : b ≠ y := fun e => hy (e ▸ hb)

/-- A buffer no operation of a stretch writes keeps its contents over the stretch: each operation's result buffer is told
    apart from it as a reference (a literal one, or one of the weight arguments). -/
local macro "unwritten " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals first
    | exact StableHlo.devRef_ne_of_ne (by decide)
    | exact StableHlo.devRef_ne_of_ne (wArgs_ne (by assumption) (by decide))))

/-- No host operation before the last stretch writes a weight argument: there it still holds what @main was launched with. -/
private theorem W8_arg (c : Dev nD) (b : Ref sig .tc) (hb : b ∈ wArgs) :
    W8 m ρ c (Proc.devRef .tc b) = m ((c : Thread nD τ).loc b) :=
  calc W8 m ρ c (Proc.devRef .tc b)
    _ = W7 m ρ c (Proc.devRef .tc b) := by unwritten hostOps0_7
    _ = W6 m ρ c (Proc.devRef .tc b) := by unwritten hostOps0_6
    _ = W5 m ρ c (Proc.devRef .tc b) := by unwritten hostOps0_5
    _ = W4 m ρ c (Proc.devRef .tc b) := by unwritten hostOps0_4
    _ = W3 m ρ c (Proc.devRef .tc b) := by unwritten hostOps0_3
    _ = W2 m ρ c (Proc.devRef .tc b) := by unwritten hostOps0_2
    _ = W1 m ρ c (Proc.devRef .tc b) := by unwritten hostOps0_1
    _ = W0 m ρ c (Proc.devRef .tc b) := by unwritten hostOps0
    _ = m ((c : Thread nD τ).loc b) := rfl

/-- The three tables the second kernel reads are arrays of no window of the first kernel and results of no host operation
    between the two kernels: the second kernel finds them as the first kernel's host stretch left them. -/
private theorem W11_v38 (c : Dev nD) : W11 m ρ c (Proc.devRef .tc main_v38) = W9 m ρ c (Proc.devRef .tc main_v38) :=
  calc W11 m ρ c (Proc.devRef .tc main_v38)
    _ = W10 m ρ c (Proc.devRef .tc main_v38) := by unwritten hostOps1
    _ = W9 m ρ c (Proc.devRef .tc main_v38) := W10_of_ne m ρ c main_v38 (by decide)
private theorem W11_v47 (c : Dev nD) : W11 m ρ c (Proc.devRef .tc main_v47) = W9 m ρ c (Proc.devRef .tc main_v47) :=
  calc W11 m ρ c (Proc.devRef .tc main_v47)
    _ = W10 m ρ c (Proc.devRef .tc main_v47) := by unwritten hostOps1
    _ = W9 m ρ c (Proc.devRef .tc main_v47) := W10_of_ne m ρ c main_v47 (by decide)
private theorem W11_v48 (c : Dev nD) : W11 m ρ c (Proc.devRef .tc main_v48) = W9 m ρ c (Proc.devRef .tc main_v48) :=
  calc W11 m ρ c (Proc.devRef .tc main_v48)
    _ = W10 m ρ c (Proc.devRef .tc main_v48) := by unwritten hostOps1
    _ = W9 m ρ c (Proc.devRef .tc main_v48) := W10_of_ne m ρ c main_v48 (by decide)

/-! ## The five tables as functions of @main's arguments -/

private theorem W9_v34 (c : Dev nD) :
    @Eq (Vec Ideal S512x640 .bf16) (W9 m ρ c (Proc.devRef .tc main_v34))
      (truncf (F := Ideal) (s := S512x640) (φ := .f32) .bf16 (tab512 (a9 m c) (a11 m c)) bitsLt_bf16_f32) := by
  have e := after8_v34 (W8 m ρ c)
  rw [W8_arg m ρ c main_arg9 (by decide), W8_arg m ρ c main_arg11 (by decide)] at e
  exact e

private theorem W9_v36 (c : Dev nD) :
    @Eq (Vec Ideal S512x640 .bf16) (W9 m ρ c (Proc.devRef .tc main_v36))
      (truncf (F := Ideal) (s := S512x640) (φ := .f32) .bf16 (tab512 (a13 m c) (a15 m c)) bitsLt_bf16_f32) := by
  have e := after8_v36 (W8 m ρ c)
  rw [W8_arg m ρ c main_arg13 (by decide), W8_arg m ρ c main_arg15 (by decide)] at e
  exact e

private theorem W9_v38 (c : Dev nD) :
    @Eq (Vec Ideal S512x640 .bf16) (W9 m ρ c (Proc.devRef .tc main_v38))
      (truncf (F := Ideal) (s := S512x640) (φ := .f32) .bf16 (tab512 (a17 m c) (a18 m c)) bitsLt_bf16_f32) := by
  have e := after8_v38 (W8 m ρ c)
  rw [W8_arg m ρ c main_arg17 (by decide), W8_arg m ρ c main_arg18 (by decide)] at e
  exact e

private theorem W9_v47 (c : Dev nD) :
    @Eq (Vec Ideal S64x640 .f32) (W9 m ρ c (Proc.devRef .tc main_v47))
      (tab64 (a10 m c) (a12 m c)) := by
  have e := after8_v47 (W8 m ρ c)
  rw [W8_arg m ρ c main_arg10 (by decide), W8_arg m ρ c main_arg12 (by decide)] at e
  exact e

private theorem W9_v48 (c : Dev nD) :
    @Eq (Vec Ideal S64x640 .f32) (W9 m ρ c (Proc.devRef .tc main_v48))
      (tab64 (a14 m c) (a16 m c)) := by
  have e := after8_v48 (W8 m ρ c)
  rw [W8_arg m ρ c main_arg14 (by decide), W8_arg m ρ c main_arg16 (by decide)] at e
  exact e

/-- The incoming and outgoing projection tables, as the first kernel finds them. -/
theorem v9_wIn (c : Dev nD) (k : Fin 512) (j : Fin 640) :
    wInArr (V9 m ρ) c (ix2 k j) = Cert.Spec.packT (R := 512) (a9 m c) (a11 m c) k j := by
  refine (congrFun (W9_v34 m ρ c) (ix2 k j)).trans ?_
  refine (truncf_apply _ bitsLt_bf16_f32 (ix2 k j)).trans ?_
  exact tab512_apply (a9 m c) (a11 m c) k j

theorem v9_wOut (c : Dev nD) (k : Fin 512) (j : Fin 640) :
    wOutArr (V9 m ρ) c (ix2 k j) = Cert.Spec.packT (R := 512) (a13 m c) (a15 m c) k j := by
  refine (congrFun (W9_v36 m ρ c) (ix2 k j)).trans ?_
  refine (truncf_apply _ bitsLt_bf16_f32 (ix2 k j)).trans ?_
  exact tab512_apply (a13 m c) (a15 m c) k j

/-- The self-loop table and the two bias tables, as the second kernel finds them. -/
theorem v11_wLoop (c : Dev nD) (k : Fin 512) (j : Fin 640) :
    wLoopArr (V11 m ρ) c (ix2 k j) = Cert.Spec.packT (R := 512) (a17 m c) (a18 m c) k j := by
  refine (congrFun ((W11_v38 m ρ c).trans (W9_v38 m ρ c)) (ix2 k j)).trans ?_
  refine (truncf_apply _ bitsLt_bf16_f32 (ix2 k j)).trans ?_
  exact tab512_apply (a17 m c) (a18 m c) k j

theorem v11_bpIn (c : Dev nD) (l : Fin 64) (j : Fin 640) :
    bpInArr (V11 m ρ) c (ix2 l j) = Cert.Spec.packT (R := 64) (a10 m c) (a12 m c) l j := by
  refine (congrFun ((W11_v47 m ρ c).trans (W9_v47 m ρ c)) (ix2 l j)).trans ?_
  exact tab64_apply (a10 m c) (a12 m c) l j

theorem v11_bpOut (c : Dev nD) (l : Fin 64) (j : Fin 640) :
    bpOutArr (V11 m ρ) c (ix2 l j) = Cert.Spec.packT (R := 64) (a14 m c) (a16 m c) l j := by
  refine (congrFun ((W11_v48 m ρ c).trans (W9_v48 m ρ c)) (ix2 l j)).trans ?_
  exact tab64_apply (a14 m c) (a16 m c) l j

end Cert.KernelIdeal.Bridge

end
-- ==== Proof.KHostB.lean ====
/-
  The arrays the host glue only re-lays: the node-feature matrix (the source tensor with its two leading axes merged),
  the label columns (the labels clipped into [0, 63], which for labels in range is the identity, as a column), the masks
  (arguments, untouched), the sentence mask as a column, and the affine pair as rows.
-/
import proofs.«408033_j214748365179_3_alg».proof.Proof.Gen.KernelIdeal.Frame
import proofs.«408033_j214748365179_3_alg».proof.Proof.Spec
import proofs.«408033_j214748365179_3_alg».proof.Proof.LibIndexing
import proofs.«408033_j214748365179_3_alg».proof.Proof.KArrays
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- No operation of the stretch writes the buffer: the side goal of the walk back over one stretch. -/
local macro "nw_side" : tactic => `(tactic| (
  simp only [hostOps0, hostOps0_1, hostOps0_2, hostOps0_3, hostOps0_4, hostOps0_5, hostOps0_6, hostOps0_7, hostOps0_8, hostOps1, hostOps2,
    List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- One stretch back at a buffer it does not write. -/
local macro "nw" : tactic => `(tactic|
  refine Eq.trans (StableHlo.after_of_forall_not_mem _ _ (List.forall_iff_forall_mem.mp (by nw_side))) ?_)

/-! ## Reading a re-laid array at an index

  A reshape keeps the row-major position: the entry at a multi-index of the new shape is the entry of the old array at
  the multi-index with the same row-major number. -/

/-- The source tensor with its two leading axes merged, at (n, k): sentence n / 512, position n % 512, feature k. -/
private theorem merge3_apply (src : Cert.Spec.A3 16 512 512)
    (h : (⟨3, ![16, 512, 512]⟩ : Shape).ShapeCasts ⟨2, ![8192, 512]⟩) (n : Fin 8192) (k : Fin 512) :
    shapeCast (⟨2, ![8192, 512]⟩ : Shape) src h (ix2 n k) = Cert.Spec.xAt src n k := by
  unfold Cert.Spec.xAt
  apply shapeCast_apply
  rw [Shape.rowMajor_val_three, Shape.rowMajor_val_two]
  show (n.val / 512 * 512 + n.val % 512) * 512 + k.val = n.val * 512 + k.val
  omega

/-- The sentence mask as a column, at (n, 0): sentence n / 512, position n % 512. -/
private theorem mergeCol_apply (sent : Cert.Spec.A2 16 512)
    (h : (⟨2, ![16, 512]⟩ : Shape).ShapeCasts ⟨2, ![8192, 1]⟩) (n : Fin 8192) :
    shapeCast (⟨2, ![8192, 1]⟩ : Shape) sent h (ix2 n 0) = Cert.Spec.smAt sent n := by
  unfold Cert.Spec.smAt
  apply shapeCast_apply
  rw [Shape.rowMajor_val_two, Shape.rowMajor_val_two]
  show n.val / 512 * 512 + n.val % 512 = n.val * 1 + 0
  omega

/-- A vector as a column, at (e, 0): entry e. -/
private theorem asCol_apply {α : Type} {N : Nat} (v : (⟨1, ![N]⟩ : Shape).Idx → α)
    (h : (⟨1, ![N]⟩ : Shape).ShapeCasts ⟨2, ![N, 1]⟩) (hN : 0 < 1) (e : Fin N) :
    shapeCast (⟨2, ![N, 1]⟩ : Shape) v h (ix2 e ⟨0, hN⟩) = v (ix1 e) := by
  apply shapeCast_apply
  rw [Shape.rowMajor_val_one, Shape.rowMajor_val_two]
  show e.val = e.val * 1 + 0
  omega

/-- A vector as a row, at (0, j): entry j. -/
private theorem asRow_apply {α : Type} {N : Nat} (v : (⟨1, ![N]⟩ : Shape).Idx → α)
    (h : (⟨1, ![N]⟩ : Shape).ShapeCasts ⟨2, ![1, N]⟩) (j : Fin N) :
    shapeCast (⟨2, ![1, N]⟩ : Shape) v h (ix2 0 j) = v (ix1 j) := by
  apply shapeCast_apply
  rw [Shape.rowMajor_val_one, Shape.rowMajor_val_two]
  show j.val = 0 * N + j.val
  omega

/-- Clipping into [0, 63] (the larger of 0 and the word, then the smaller of 63 and that, both signed) leaves a word
    below 64 as it is. -/
private theorem clip63 (w : BitVec 32) (hw : w.toNat < 64) : IntOp.minsi 63#32 (IntOp.maxsi 0#32 w) = w := by
  have h1 : w.slt 0#32 = false := by
    simp only [BitVec.slt, BitVec.toInt_eq_toNat_cond]
    simp; omega
  have h2 : (63#32 : BitVec 32).slt w = false := by
    simp only [BitVec.slt, BitVec.toInt_eq_toNat_cond]
    simp; omega
  unfold IntOp.minsi IntOp.maxsi
  rw [h1]; simp only [Bool.false_eq_true, if_false]; rw [h2]; simp

/-! ## The buffers at the regions' entries, as functions of the arguments

  Each buffer is read at a boundary by unfolding the stretches of host operations back to the launch: an operation's
  result buffer holds its function of its operands' contents, every other buffer what it held before; a region's exit
  leaves every buffer that is none of its arrays as entered, and an input array of the region as entered too. -/

/-- The node-feature matrix at region 0's entry: the source tensor with its two leading axes merged. -/
private theorem W9_v0 (c : Dev nD) : (W9 m ρ c (Proc.devRef .tc main_v0) : Vec Ideal S8192x512 .f32)
    = shapeCast S8192x512 (a0 m c) shapeCasts_S16x512x512_S8192x512 := by
  nw; nw; nw; nw; nw; nw; nw; nw
  show StableHlo.after hostOps0 _ (Proc.devRef .tc main_v0) = _
  after_results
  rfl

/-- The same at region 1's entry: region 0 reads the matrix through an input window and never writes it back. -/
private theorem W11_v0 (c : Dev nD) : (W11 m ρ c (Proc.devRef .tc main_v0) : Vec Ideal S8192x512 .f32)
    = shapeCast S8192x512 (a0 m c) shapeCasts_S16x512x512_S8192x512 := by
  nw
  exact ((W10_arr m ρ c 0).trans ((dat0 (V9 m ρ) c).arrAt_in 0 rfl cfg0.N)).trans (W9_v0 m ρ c)

/-- The incoming labels' column at region 1's entry: the clipped labels, as a column. -/
private theorem W11_v18 (c : Dev nD) : (W11 m ρ c (Proc.devRef .tc main_v18) : Vec Ideal S65536x1 .i32)
    = shapeCast S65536x1
        (minsi (broadcastInDim S65536 ![] bcast_S_S65536 (constantI S_ 32 63#32))
          (maxsi (broadcastInDim S65536 ![] bcast_S_S65536 (constantI S_ 32 0#32)) (a2 m c)))
        shapeCasts_S65536_S65536x1 := by
  nw
  rw [W10_of_ne m ρ c main_v18 (by decide)]
  show StableHlo.after hostOps0_8 _ (Proc.devRef .tc main_v18) = _
  after_results_simp
  simp only [StableHlo.TRef.ofBuf, StableHlo.TRef.toBuf, cast_eq, id_eq]
  rfl

/-- The outgoing labels' column at region 1's entry. -/
private theorem W11_v20 (c : Dev nD) : (W11 m ρ c (Proc.devRef .tc main_v20) : Vec Ideal S65536x1 .i32)
    = shapeCast S65536x1
        (minsi (broadcastInDim S65536 ![] bcast_S_S65536 (constantI S_ 32 63#32))
          (maxsi (broadcastInDim S65536 ![] bcast_S_S65536 (constantI S_ 32 0#32)) (a4 m c)))
        shapeCasts_S65536_S65536x1 := by
  nw
  rw [W10_of_ne m ρ c main_v20 (by decide)]
  show StableHlo.after hostOps0_8 _ (Proc.devRef .tc main_v20) = _
  after_results_simp
  simp only [StableHlo.TRef.ofBuf, StableHlo.TRef.toBuf, cast_eq, id_eq]
  rfl

/-- An argument no operation and no region writes holds at region 1's entry what it held at the launch. -/
private theorem W11_arg5 (c : Dev nD) : W11 m ρ c (Proc.devRef .tc main_arg5) = a5 m c := by
  nw
  rw [W10_of_ne m ρ c main_arg5 (by decide)]
  nw; nw; nw; nw; nw; nw; nw; nw; nw
  rfl
private theorem W11_arg6 (c : Dev nD) : W11 m ρ c (Proc.devRef .tc main_arg6) = a6 m c := by
  nw
  rw [W10_of_ne m ρ c main_arg6 (by decide)]
  nw; nw; nw; nw; nw; nw; nw; nw; nw
  rfl
private theorem W11_arg7 (c : Dev nD) : W11 m ρ c (Proc.devRef .tc main_arg7) = a7 m c := by
  nw
  rw [W10_of_ne m ρ c main_arg7 (by decide)]
  nw; nw; nw; nw; nw; nw; nw; nw; nw
  rfl
private theorem W10_arg8 (c : Dev nD) : W10 m ρ c (Proc.devRef .tc main_arg8) = a8 m c := by
  rw [W10_of_ne m ρ c main_arg8 (by decide)]
  nw; nw; nw; nw; nw; nw; nw; nw; nw
  rfl
private theorem W10_arg19 (c : Dev nD) : W10 m ρ c (Proc.devRef .tc main_arg19) = a19 m c := by
  rw [W10_of_ne m ρ c main_arg19 (by decide)]
  nw; nw; nw; nw; nw; nw; nw; nw; nw
  rfl
private theorem W10_arg20 (c : Dev nD) : W10 m ρ c (Proc.devRef .tc main_arg20) = a20 m c := by
  rw [W10_of_ne m ρ c main_arg20 (by decide)]
  nw; nw; nw; nw; nw; nw; nw; nw; nw
  rfl

/-- The sentence mask's column, and the affine pair's rows, at region 1's entry: reshapes of the arguments. -/
private theorem W11_v64 (c : Dev nD) : (W11 m ρ c (Proc.devRef .tc main_v64) : Vec Ideal S8192x1 .f32)
    = shapeCast S8192x1 (a8 m c) shapeCasts_S16x512_S8192x1 := by
  rw [← W10_arg8 m ρ c]
  show StableHlo.after hostOps1 _ (Proc.devRef .tc main_v64) = _
  after_results
  rfl
private theorem W11_v65 (c : Dev nD) : (W11 m ρ c (Proc.devRef .tc main_v65) : Vec Ideal S1x512 .f32)
    = shapeCast S1x512 (a19 m c) shapeCasts_S512_S1x512 := by
  rw [← W10_arg19 m ρ c]
  show StableHlo.after hostOps1 _ (Proc.devRef .tc main_v65) = _
  after_results
  rfl
private theorem W11_v66 (c : Dev nD) : (W11 m ρ c (Proc.devRef .tc main_v66) : Vec Ideal S1x512 .f32)
    = shapeCast S1x512 (a20 m c) shapeCasts_S512_S1x512 := by
  rw [← W10_arg20 m ρ c]
  show StableHlo.after hostOps1 _ (Proc.devRef .tc main_v66) = _
  after_results
  rfl

/-! ## The statements -/

theorem v9_x (c : Dev nD) (n : Fin 8192) (k : Fin 512) :
    xArr (V9 m ρ) c (ix2 n k) = Cert.Spec.xAt (a0 m c) n k := by
  show (W9 m ρ c (Proc.devRef .tc main_v0) : Vec Ideal S8192x512 .f32) (ix2 n k) = _
  rw [W9_v0]
  exact merge3_apply _ _ n k

theorem v11_x (c : Dev nD) (n : Fin 8192) (k : Fin 512) :
    xArr (V11 m ρ) c (ix2 n k) = Cert.Spec.xAt (a0 m c) n k := by
  show (W11 m ρ c (Proc.devRef .tc main_v0) : Vec Ideal S8192x512 .f32) (ix2 n k) = _
  rw [W11_v0]
  exact merge3_apply _ _ n k

theorem v11_labIn (c : Dev nD) (hin : Cert.Spec.InRange (a1 m c) (a2 m c)) (e : Fin 65536) :
    labInCol (V11 m ρ) c (ix2 e 0) = a2 m c (ix1 e) := by
  show (W11 m ρ c (Proc.devRef .tc main_v18) : Vec Ideal S65536x1 .i32) (ix2 e 0) = _
  rw [W11_v18]
  refine (asCol_apply _ _ (by decide) e).trans ?_
  exact clip63 _ (hin.lab e)

theorem v11_labOut (c : Dev nD) (hout : Cert.Spec.InRange (a3 m c) (a4 m c)) (e : Fin 65536) :
    labOutCol (V11 m ρ) c (ix2 e 0) = a4 m c (ix1 e) := by
  show (W11 m ρ c (Proc.devRef .tc main_v20) : Vec Ideal S65536x1 .i32) (ix2 e 0) = _
  rw [W11_v20]
  refine (asCol_apply _ _ (by decide) e).trans ?_
  exact clip63 _ (hout.lab e)

theorem v11_mIn (c : Dev nD) : mInArr (V11 m ρ) c = a5 m c := W11_arg5 m ρ c

theorem v11_mOut (c : Dev nD) : mOutArr (V11 m ρ) c = a6 m c := W11_arg6 m ρ c

theorem v11_mLoop (c : Dev nD) : mLoopArr (V11 m ρ) c = a7 m c := W11_arg7 m ρ c

theorem v11_sm (c : Dev nD) (n : Fin 8192) : smCol (V11 m ρ) c (ix2 n 0) = Cert.Spec.smAt (a8 m c) n := by
  show (W11 m ρ c (Proc.devRef .tc main_v64) : Vec Ideal S8192x1 .f32) (ix2 n 0) = _
  rw [W11_v64]
  exact mergeCol_apply _ _ n

theorem v11_gamma (c : Dev nD) (j : Fin 512) : gammaRow (V11 m ρ) c (ix2 0 j) = a19 m c (ix1 j) := by
  show (W11 m ρ c (Proc.devRef .tc main_v65) : Vec Ideal S1x512 .f32) (ix2 0 j) = _
  rw [W11_v65]
  exact asRow_apply _ _ j

theorem v11_beta (c : Dev nD) (j : Fin 512) : betaRow (V11 m ρ) c (ix2 0 j) = a20 m c (ix1 j) := by
  show (W11 m ρ c (Proc.devRef .tc main_v66) : Vec Ideal S1x512 .f32) (ix2 0 j) = _
  rw [W11_v66]
  exact asRow_apply _ _ j

end Cert.KernelIdeal.Bridge

end
-- ==== Proof.KHostC.lean ====
/-
  The two row gathers between the kernels, and the last reshape.  Arc e's row of a gathered array is row number
  (sentence word) * 512 + (position word) of the first kernel's output: the flat index is clipped into [0, 8191] and
  passed through jax's negative-index wrap, both of which do nothing for indices in range, and the gather's own clamp
  does not bind.  The result tensor is the second kernel's output with its node axis split into (sentence, position).
-/
import proofs.«408033_j214748365179_3_alg».proof.Proof.Gen.KernelIdeal.Frame
import proofs.«408033_j214748365179_3_alg».proof.Proof.Spec
import proofs.«408033_j214748365179_3_alg».proof.Proof.LibIndexing
import proofs.«408033_j214748365179_3_alg».proof.Proof.KArrays
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-! ## Words in range

  For a sentence word below 16 and a position word below 512 the flat word (sentence * 512 + position) is below 8192:
  its signed and unsigned readings agree, the clip into [0, 8191] and the negative-index wrap return it unchanged, and
  the gather's own clamp into [0, 8191] does not bind. -/

private theorem toInt_small (w : BitVec 32) (hw : w.toNat < 2 ^ 31) : w.toInt = (w.toNat : Int) := by
  rw [BitVec.toInt_eq_toNat_cond]
  split
  · rfl
  · omega

private theorem flat_toNat (a0 a1 : BitVec 32) (h0 : a0.toNat < 16) (h1 : a1.toNat < 512) :
    (IntOp.addi (IntOp.muli a0 512#32) a1).toNat = a0.toNat * 512 + a1.toNat := by
  show (a0 * 512#32 + a1).toNat = _
  rw [BitVec.toNat_add, BitVec.toNat_mul]
  have h512 : (512#32 : BitVec 32).toNat = 512 := rfl
  rw [h512]
  omega

private theorem clip_small (w : BitVec 32) (hw : w.toNat ≤ 8191) :
    IntOp.minsi 8191#32 (IntOp.maxsi 0#32 w) = w := by
  have hi : w.toInt = (w.toNat : Int) := toInt_small w (by omega)
  have h0 : (0#32 : BitVec 32).toInt = 0 := rfl
  have h8 : (8191#32 : BitVec 32).toInt = 8191 := rfl
  have h1 : w.slt 0#32 = false := by
    unfold BitVec.slt; rw [hi, h0]; exact decide_eq_false (by omega)
  have h2 : (8191#32 : BitVec 32).slt w = false := by
    unfold BitVec.slt; rw [hi, h8]; exact decide_eq_false (by omega)
  unfold IntOp.minsi IntOp.maxsi
  rw [h1]
  simp only [Bool.false_eq_true, if_false]
  rw [h2]
  simp only [Bool.false_eq_true, if_false]

private theorem wrap_small (w n : BitVec 32) (hw : w.toNat < 2 ^ 31) :
    Scalar.select (IntOp.cmpi .slt w 0#32) (IntOp.addi w n) w = w := by
  have hi : w.toInt = (w.toNat : Int) := toInt_small w hw
  have h0 : (0#32 : BitVec 32).toInt = 0 := rfl
  have h1 : w.slt 0#32 = false := by
    unfold BitVec.slt; rw [hi, h0]; exact decide_eq_false (by omega)
  unfold Scalar.select IntOp.cmpi
  simp only [h1]
  rfl

private theorem clamp_small (w : BitVec 32) (hw : w.toNat ≤ 8191) : min w.toInt.toNat (8192 - 1) = w.toNat := by
  rw [toInt_small w (by omega), Int.toNat_natCast]
  omega

/-! ## The start indices the program builds from an arc table

  flatIdx is the clipped flat word (sentence row * 512 + position row, clipped into [0, 8191]) and startIdx the column of
  start indices handed to the gather (the negative-index wrap of flatIdx, as a column). -/

private def flatIdx (arc : IVec S2x65536 32) : IVec S65536 32 :=
  minsi (broadcastInDim S65536 ![] bcast_S_S65536 (constantI S_ 32 8191#32))
    (maxsi (broadcastInDim S65536 ![] bcast_S_S65536 (constantI S_ 32 0#32))
      (addi
        (muli (shapeCast S65536 (extractStridedSlice S1x65536 ![0, 0] arc slices_S2x65536_S1x65536_0_0) shapeCasts_S1x65536_S65536)
          (broadcastInDim S65536 ![] bcast_S_S65536 (constantI S_ 32 512#32)))
        (shapeCast S65536 (extractStridedSlice S1x65536 ![1, 0] arc slices_S2x65536_S1x65536_1_0) shapeCasts_S1x65536_S65536)))

private def startIdx (arc : IVec S2x65536 32) : IVec S65536x1 32 :=
  broadcastInDim S65536x1 ![0] bcast_S65536_S65536x1_0
    (select (cmpi .slt (flatIdx arc) (broadcastInDim S65536 ![] bcast_S_S65536 (constantI S_ 32 0#32)))
      (addi (flatIdx arc) (broadcastInDim S65536 ![] bcast_S_S65536 (constantI S_ 32 8192#32)))
      (flatIdx arc))

/-- Row r of the arc table, flattened, at arc e is the table's entry (r, e). -/
private theorem row0_apply (arc : IVec S2x65536 32) (e : Fin 65536) :
    shapeCast S65536 (extractStridedSlice S1x65536 ![0, 0] arc slices_S2x65536_S1x65536_0_0) shapeCasts_S1x65536_S65536 (ix1 e)
      = arc (ix2 0 e) :=
  (shapeCast_1a_a_apply _ _ e).trans (slice2_axis0_apply 0 arc _ 0 e 0 rfl)

private theorem row1_apply (arc : IVec S2x65536 32) (e : Fin 65536) :
    shapeCast S65536 (extractStridedSlice S1x65536 ![1, 0] arc slices_S2x65536_S1x65536_1_0) shapeCasts_S1x65536_S65536 (ix1 e)
      = arc (ix2 1 e) :=
  (shapeCast_1a_a_apply _ _ e).trans (slice2_axis0_apply 1 arc _ 0 e 1 rfl)

/-- In range, the clipped flat word at arc e is sentence * 512 + position. -/
private theorem flatIdx_apply (arc : IVec S2x65536 32) (e : Fin 65536)
    (h0 : (arc (ix2 0 e)).toNat < 16) (h1 : (arc (ix2 1 e)).toNat < 512) :
    flatIdx arc (ix1 e) = IntOp.addi (IntOp.muli (arc (ix2 0 e)) 512#32) (arc (ix2 1 e)) := by
  have hflat := flat_toNat _ _ h0 h1
  show IntOp.minsi 8191#32 (IntOp.maxsi 0#32 (IntOp.addi (IntOp.muli
      (shapeCast S65536 (extractStridedSlice S1x65536 ![0, 0] arc slices_S2x65536_S1x65536_0_0) shapeCasts_S1x65536_S65536 (ix1 e)) 512#32)
      (shapeCast S65536 (extractStridedSlice S1x65536 ![1, 0] arc slices_S2x65536_S1x65536_1_0) shapeCasts_S1x65536_S65536 (ix1 e)))) = _
  rw [row0_apply, row1_apply]
  exact clip_small _ (by omega)

/-- In range, the start index of arc e is the flat word: the wrap does nothing. -/
private theorem startIdx_apply (arc : IVec S2x65536 32) (e : Fin 65536)
    (h0 : (arc (ix2 0 e)).toNat < 16) (h1 : (arc (ix2 1 e)).toNat < 512) :
    startIdx arc (ix2 e 0) = IntOp.addi (IntOp.muli (arc (ix2 0 e)) 512#32) (arc (ix2 1 e)) := by
  have hflat := flat_toNat _ _ h0 h1
  unfold startIdx
  refine (broadcastInDim_apply _ _ _ (ix2 e 0) (ix1 e) (fun a => by match a with | ⟨0, _⟩ => rfl)).trans ?_
  show Scalar.select (IntOp.cmpi .slt (flatIdx arc (ix1 e)) 0#32) (IntOp.addi (flatIdx arc (ix1 e)) 8192#32) (flatIdx arc (ix1 e)) = _
  rw [flatIdx_apply arc e h0 h1]
  exact wrap_small _ _ (by omega)

/-- The row gather with these start indices reads, at (e, j), the table at row (rowOf arc e). -/
private theorem gather_arc (x : Vec Ideal S8192x640 .f32) (arc : IVec S2x65536 32) (lab : IVec S65536 32)
    (hin : Cert.Spec.InRange arc lab) (e : Fin 65536) (j : Fin 640) :
    Host.gather gather_S8192x640_S65536x1_S65536x640_1_0_n_n_0_1_1640 x (startIdx arc) (ix2 e j)
      = x (ix2 (Cert.Spec.rowOf arc e) j) := by
  have h0 := hin.sent e
  have h1 := hin.pos e
  have hflat := flat_toNat _ _ h0 h1
  refine (Cert.Lib.gather_rows_apply (N := 8192) (C := 640) (E := 65536) (by norm_num)
    gather_S8192x640_S65536x1_S65536x640_1_0_n_n_0_1_1640_wf x (startIdx arc) e j).trans ?_
  refine congrArg (fun r => x (ix2 r j)) (Fin.ext ?_)
  show min (startIdx arc (ix2 e 0)).toInt.toNat (8192 - 1) = (Cert.Spec.rowOf arc e).val
  rw [startIdx_apply arc e h0 h1, clamp_small _ (by omega), hflat, Cert.Spec.rowOf_val hin]

/-! ## The two flat words at the first kernel's exit

  No operation between the clip and the gathers writes the clipped words, and the first kernel does not stage them: at
  its exit each buffer still holds the clipped flat word of its arc table. -/

private theorem W10_v8 (c : Dev nD) : (W10 m ρ c (Proc.devRef .tc main_v8) : IVec S65536 32) = flatIdx (a1 m c) := by
  rw [W10_of_ne m ρ c main_v8 (by decide)]
  show StableHlo.after hostOps0_8 (W8 m ρ c) (Proc.devRef .tc main_v8) = _
  after_results_simp
  rfl

private theorem W10_v16 (c : Dev nD) : (W10 m ρ c (Proc.devRef .tc main_v16) : IVec S65536 32) = flatIdx (a3 m c) := by
  rw [W10_of_ne m ρ c main_v16 (by decide)]
  show StableHlo.after hostOps0_8 (W8 m ρ c) (Proc.devRef .tc main_v16) = _
  after_results_simp
  rfl

theorem v11_cpIn (c : Dev nD) (hin : Cert.Spec.InRange (a1 m c) (a2 m c)) (e : Fin 65536) (j : Fin 640) :
    cpInG (V11 m ρ) c (ix2 e j) = cpInArr (V9 m ρ) c (ix2 (Cert.Spec.rowOf (a1 m c) e) j) := by
  -- the gathered array is the row gather of the first kernel's first output with the incoming arcs' start indices
  have eG : (cpInG (V11 m ρ) c : Vec Ideal S65536x640 .f32)
      = Host.gather gather_S8192x640_S65536x1_S65536x640_1_0_n_n_0_1_1640 (cpInArr (V9 m ρ) c) (startIdx (a1 m c)) := by
    show StableHlo.after hostOps1 (W10 m ρ c) (Proc.devRef .tc main_v56) = _
    after_results_simp
    have h3 : W10 m ρ c (Proc.devRef .tc main_v49_0) = cpInArr (V9 m ρ) c := W10_arr m ρ c 3
    rw [h3, W10_v8 m ρ c]
    rfl
  rw [eG]
  exact gather_arc _ _ _ hin e j

theorem v11_cpOut (c : Dev nD) (hout : Cert.Spec.InRange (a3 m c) (a4 m c)) (e : Fin 65536) (j : Fin 640) :
    cpOutG (V11 m ρ) c (ix2 e j) = cpOutArr (V9 m ρ) c (ix2 (Cert.Spec.rowOf (a3 m c) e) j) := by
  -- the gathered array is the row gather of the first kernel's second output with the outgoing arcs' start indices
  have eG : (cpOutG (V11 m ρ) c : Vec Ideal S65536x640 .f32)
      = Host.gather gather_S8192x640_S65536x1_S65536x640_1_0_n_n_0_1_1640 (cpOutArr (V9 m ρ) c) (startIdx (a3 m c)) := by
    show StableHlo.after hostOps1 (W10 m ρ c) (Proc.devRef .tc main_v63) = _
    after_results_simp
    have h4 : W10 m ρ c (Proc.devRef .tc main_v49_1) = cpOutArr (V9 m ρ) c := W10_arr m ρ c 4
    rw [h4, W10_v16 m ρ c]
    rfl
  rw [eG]
  exact gather_arc _ _ _ hout e j

theorem w13_out (c : Dev nD) (b : Fin 16) (s : Fin 512) (j : Fin 512) :
    resArr m ρ c (ix3 b s j) = outArr (V11 m ρ) c (ix2 (Cert.Spec.node b s) j) := by
  -- the result is the second kernel's output re-read through the reshape [8192, 512] → [16, 512, 512]
  have e : (resArr m ρ c : S16x512x512.Idx → EReal)
      = shapeCast S16x512x512 (outArr (V11 m ρ) c) shapeCasts_S8192x512_S16x512x512 := by
    show StableHlo.after hostOps2 _ (Proc.devRef .tc main_v68) = _
    after_results
    have h14 : W12 m ρ c (Proc.devRef .tc main_v67) = outArr (V11 m ρ) c := W12_arr m ρ c 14
    rw [h14]
    rfl
  rw [e]
  -- same row-major position: (b * 512 + s) * 512 + j on both sides
  refine shapeCast_apply _ _ _ _ ?_
  rw [Shape.rowMajor_val_two, Shape.rowMajor_val_three]
  show (Cert.Spec.node b s).val * 512 + j.val = (b.val * 512 + s.val) * 512 + j.val
  rfl

end Cert.KernelIdeal.Bridge

end
-- ==== Proof.SpecBridge.lean ====
/-
  From the kernel's packed arrays to the specification.  Suppose the gathered arrays hold, at arc e, the product of the
  arc's source row of the feature matrix with the packed projection table; the bias tables and the self-loop table are
  the packed tables of their matrices and gate vectors; the label columns hold the labels; and the feature matrix holds
  the features.  Then the message the second kernel computes from those arrays is the specification's message: column j
  of a packed table is the matrix's column j, its gate column is the gate vector, and the one-hot sum selects the
  label's bias row.
-/
import proofs.«408033_j214748365179_3_alg».proof.Proof.Spec

noncomputable section

namespace Cert.Spec

open Idealize.ShloMosaic Idealize.ShloMosaic.ValueIdx

section OneDirection

variable (src : A3 16 512 512) (arc : W2 2 65536) (lab : W1 65536) (V : A2 512 512) (b : A2 64 512)
  (Vg : A2 512 1) (bg : A2 64 1)
  (cpG : A2 65536 640) (bp : A2 64 640) (labC : W2 65536 1)

/-- An arc's packed value at a feature column is its potential, at the gate column its gate. -/
theorem combE_col (hr : InRange arc lab)
    (hc : ∀ (e : Fin 65536) (j : Fin 640), cpG (ix2 e j) = ∑ k : Fin 512, xAt src (rowOf arc e) k * packT V Vg k j)
    (hl : ∀ e : Fin 65536, labC (ix2 e 0) = lab (ix1 e))
    (hb : ∀ (l : Fin 64) (j : Fin 640), bp (ix2 l j) = packT b bg l j)
    (e : Fin 65536) (j : Fin 512) : combE cpG bp labC e (col j) = potE src arc lab V b e j := by
  unfold combE potE dotCol
  rw [hc, hl, oneHotSel_eq bp _ (hr.lab e), hb, packT_col]
  have hlab : (⟨(lab (ix1 e)).toNat, hr.lab e⟩ : Fin 64) = labOf lab e := Fin.ext (labOf_val hr e).symm
  rw [hlab]
  have hs : (∑ k : Fin 512, xAt src (rowOf arc e) k * packT V Vg k (col j)) = ∑ k : Fin 512, xAt src (rowOf arc e) k * V (ix2 k j) :=
    Finset.sum_congr rfl fun k _ => by rw [packT_col]
  rw [hs]

theorem combE_gcol (hr : InRange arc lab)
    (hc : ∀ (e : Fin 65536) (j : Fin 640), cpG (ix2 e j) = ∑ k : Fin 512, xAt src (rowOf arc e) k * packT V Vg k j)
    (hl : ∀ e : Fin 65536, labC (ix2 e 0) = lab (ix1 e))
    (hb : ∀ (l : Fin 64) (j : Fin 640), bp (ix2 l j) = packT b bg l j)
    (e : Fin 65536) : combE cpG bp labC e gcol = gateE src arc lab Vg bg e := by
  unfold combE gateE dotCol
  rw [hc, hl, oneHotSel_eq bp _ (hr.lab e), hb, packT_gcol]
  have hlab : (⟨(lab (ix1 e)).toNat, hr.lab e⟩ : Fin 64) = labOf lab e := Fin.ext (labOf_val hr e).symm
  rw [hlab]
  have hs : (∑ k : Fin 512, xAt src (rowOf arc e) k * packT V Vg k gcol) = ∑ k : Fin 512, xAt src (rowOf arc e) k * Vg (ix2 k 0) :=
    Finset.sum_congr rfl fun k _ => by rw [packT_gcol]
  rw [hs]

/-- One direction's message from the packed arrays is the specification's. -/
theorem combArc_eq (hr : InRange arc lab)
    (hc : ∀ (e : Fin 65536) (j : Fin 640), cpG (ix2 e j) = ∑ k : Fin 512, xAt src (rowOf arc e) k * packT V Vg k j)
    (hl : ∀ e : Fin 65536, labC (ix2 e 0) = lab (ix1 e))
    (hb : ∀ (l : Fin 64) (j : Fin 640), bp (ix2 l j) = packT b bg l j)
    (mask : A2 8192 8) (n : Fin 8192) (j : Fin 512) :
    combArc cpG bp labC mask n j = arcSum src arc lab V b Vg bg mask n j := by
  unfold combArc arcSum
  exact Finset.sum_congr rfl fun d _ => by
    rw [combE_col src arc lab V b Vg bg cpG bp labC hr hc hl hb, combE_gcol src arc lab V b Vg bg cpG bp labC hr hc hl hb]

end OneDirection

/-- The self loop's packed projection at a feature column and at the gate column. -/
theorem combLoop_col (src : A3 16 512 512) (Wl : A2 512 512) (WlG : A2 512 1) (x : A2 8192 512) (wl : A2 512 640)
    (hx : ∀ (n : Fin 8192) (k : Fin 512), x (ix2 n k) = xAt src n k)
    (hw : ∀ (k : Fin 512) (j : Fin 640), wl (ix2 k j) = packT Wl WlG k j) (n : Fin 8192) (j : Fin 512) :
    combLoop x wl n (col j) = dotCol src Wl n j := by
  unfold combLoop dotCol
  exact Finset.sum_congr rfl fun k _ => by rw [hx, hw, packT_col]

theorem combLoop_gcol (src : A3 16 512 512) (Wl : A2 512 512) (WlG : A2 512 1) (x : A2 8192 512) (wl : A2 512 640)
    (hx : ∀ (n : Fin 8192) (k : Fin 512), x (ix2 n k) = xAt src n k)
    (hw : ∀ (k : Fin 512) (j : Fin 640), wl (ix2 k j) = packT Wl WlG k j) (n : Fin 8192) :
    combLoop x wl n gcol = dotCol src WlG n 0 := by
  unfold combLoop dotCol
  exact Finset.sum_congr rfl fun k _ => by rw [hx, hw, packT_gcol]

/-- The second kernel's message over its arrays is the specification's message over the inputs. -/
theorem combH_eq_hSpec (src : A3 16 512 512) (arcIn : W2 2 65536) (labIn : W1 65536) (arcOut : W2 2 65536) (labOut : W1 65536)
    (maskIn maskOut : A2 8192 8) (maskLoop : A2 8192 1)
    (Vin : A2 512 512) (bIn : A2 64 512) (VinG : A2 512 1) (bInG : A2 64 1)
    (Vout : A2 512 512) (bOut : A2 64 512) (VoutG : A2 512 1) (bOutG : A2 64 1)
    (Wl : A2 512 512) (WlG : A2 512 1)
    (cpInG cpOutG : A2 65536 640) (bpIn bpOut : A2 64 640) (labInC labOutC : W2 65536 1)
    (x : A2 8192 512) (wl : A2 512 640)
    (hin : InRange arcIn labIn) (hout : InRange arcOut labOut)
    (hcIn : ∀ (e : Fin 65536) (j : Fin 640), cpInG (ix2 e j) = ∑ k : Fin 512, xAt src (rowOf arcIn e) k * packT Vin VinG k j)
    (hcOut : ∀ (e : Fin 65536) (j : Fin 640), cpOutG (ix2 e j) = ∑ k : Fin 512, xAt src (rowOf arcOut e) k * packT Vout VoutG k j)
    (hlIn : ∀ e : Fin 65536, labInC (ix2 e 0) = labIn (ix1 e)) (hlOut : ∀ e : Fin 65536, labOutC (ix2 e 0) = labOut (ix1 e))
    (hbIn : ∀ (l : Fin 64) (j : Fin 640), bpIn (ix2 l j) = packT bIn bInG l j)
    (hbOut : ∀ (l : Fin 64) (j : Fin 640), bpOut (ix2 l j) = packT bOut bOutG l j)
    (hx : ∀ (n : Fin 8192) (k : Fin 512), x (ix2 n k) = xAt src n k)
    (hw : ∀ (k : Fin 512) (j : Fin 640), wl (ix2 k j) = packT Wl WlG k j)
    (n : Fin 8192) (j : Fin 512) :
    combH cpInG cpOutG bpIn bpOut labInC labOutC maskIn maskOut maskLoop x wl n j
      = hSpec src arcIn labIn arcOut labOut maskIn maskOut maskLoop Vin bIn VinG bInG Vout bOut VoutG bOutG Wl WlG n j := by
  unfold combH hSpec
  rw [combArc_eq src arcIn labIn Vin bIn VinG bInG cpInG bpIn labInC hin hcIn hlIn hbIn,
    combArc_eq src arcOut labOut Vout bOut VoutG bOutG cpOutG bpOut labOutC hout hcOut hlOut hbOut,
    combLoop_col src Wl WlG x wl hx hw, combLoop_gcol src Wl WlG x wl hx hw]

end Cert.Spec

end
-- ==== Proof.KValue.lean ====
/-
  The kernel program computes the specification: @main's result buffer ends holding `G` of the arguments, when the index
  inputs are in range.  The result is the second kernel's output array with its node axis split; that array is the
  layer's output over the second kernel's fourteen arrays; each gathered row is a row of the first kernel's output,
  which is the feature matrix times a packed table; and the remaining arrays are the arguments re-laid.
-/
import proofs.«408033_j214748365179_3_alg».proof.Proof.KRegion0
import proofs.«408033_j214748365179_3_alg».proof.Proof.KRegion1
import proofs.«408033_j214748365179_3_alg».proof.Proof.KHostA
import proofs.«408033_j214748365179_3_alg».proof.Proof.KHostB
import proofs.«408033_j214748365179_3_alg».proof.Proof.KHostC
import proofs.«408033_j214748365179_3_alg».proof.Proof.SpecBridge

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- A gathered incoming row: the arc's source row of the feature matrix times the packed incoming table. -/
theorem cpIn_value (c : Dev nD) (hin : Cert.Spec.InRange (a1 m c) (a2 m c)) (e : Fin 65536) (j : Fin 640) :
    cpInG (V11 m ρ) c (ix2 e j)
      = ∑ k : Fin 512, Cert.Spec.xAt (a0 m c) (Cert.Spec.rowOf (a1 m c) e) k * Cert.Spec.packT (R := 512) (a9 m c) (a11 m c) k j := by
  rw [v11_cpIn m ρ c hin, proj_in]
  exact Finset.sum_congr rfl fun k _ => by rw [v9_x, v9_wIn]

theorem cpOut_value (c : Dev nD) (hout : Cert.Spec.InRange (a3 m c) (a4 m c)) (e : Fin 65536) (j : Fin 640) :
    cpOutG (V11 m ρ) c (ix2 e j)
      = ∑ k : Fin 512, Cert.Spec.xAt (a0 m c) (Cert.Spec.rowOf (a3 m c) e) k * Cert.Spec.packT (R := 512) (a13 m c) (a15 m c) k j := by
  rw [v11_cpOut m ρ c hout, proj_out]
  exact Finset.sum_congr rfl fun k _ => by rw [v9_x, v9_wOut]

/-- @main's result is the specification's function of its arguments. -/
theorem kernel_G (c : Dev nD) (hin : Cert.Spec.InRange (a1 m c) (a2 m c)) (hout : Cert.Spec.InRange (a3 m c) (a4 m c)) :
    resArr m ρ c = Cert.Spec.G (a0 m c) (a1 m c) (a2 m c) (a3 m c) (a4 m c) (a5 m c) (a6 m c) (a7 m c) (a8 m c) (a9 m c) (a10 m c)
      (a11 m c) (a12 m c) (a13 m c) (a14 m c) (a15 m c) (a16 m c) (a17 m c) (a18 m c) (a19 m c) (a20 m c) := by
  funext i
  obtain ⟨b, s, j, rfl⟩ : ∃ (b : Fin 16) (s : Fin 512) (j : Fin 512), i = ix3 b s j := ⟨i 0, i 1, i 2, eq_ix3 i⟩
  rw [w13_out, comb_out]
  have hh : Cert.Spec.combH (cpInG (V11 m ρ) c) (cpOutG (V11 m ρ) c) (bpInArr (V11 m ρ) c) (bpOutArr (V11 m ρ) c) (labInCol (V11 m ρ) c) (labOutCol (V11 m ρ) c)
      (mInArr (V11 m ρ) c) (mOutArr (V11 m ρ) c) (mLoopArr (V11 m ρ) c) (xArr (V11 m ρ) c) (wLoopArr (V11 m ρ) c)
      = Cert.Spec.hSpec (a0 m c) (a1 m c) (a2 m c) (a3 m c) (a4 m c) (a5 m c) (a6 m c) (a7 m c) (a9 m c) (a10 m c)
          (a11 m c) (a12 m c) (a13 m c) (a14 m c) (a15 m c) (a16 m c) (a17 m c) (a18 m c) := by
    funext n j
    rw [v11_mIn, v11_mOut, v11_mLoop]
    exact Cert.Spec.combH_eq_hSpec (a0 m c) (a1 m c) (a2 m c) (a3 m c) (a4 m c) (a5 m c) (a6 m c) (a7 m c) (a9 m c) (a10 m c)
      (a11 m c) (a12 m c) (a13 m c) (a14 m c) (a15 m c) (a16 m c) (a17 m c) (a18 m c)
      (cpInG (V11 m ρ) c) (cpOutG (V11 m ρ) c) (bpInArr (V11 m ρ) c) (bpOutArr (V11 m ρ) c) (labInCol (V11 m ρ) c) (labOutCol (V11 m ρ) c)
      (xArr (V11 m ρ) c) (wLoopArr (V11 m ρ) c) hin hout (cpIn_value m ρ c hin) (cpOut_value m ρ c hout)
      (v11_labIn m ρ c hin) (v11_labOut m ρ c hout) (v11_bpIn m ρ c) (v11_bpOut m ρ c) (v11_x m ρ c) (v11_wLoop m ρ c) n j
  have hg : (fun j => gammaRow (V11 m ρ) c (ix2 0 j)) = fun j => a19 m c (ix1 j) := funext fun j => v11_gamma m ρ c j
  have hb : (fun j => betaRow (V11 m ρ) c (ix2 0 j)) = fun j => a20 m c (ix1 j) := funext fun j => v11_beta m ρ c j
  rw [hh, hg, hb, v11_sm, v11_x, Cert.Spec.smAt_node, Cert.Spec.xAt_node]
  rfl

end Cert.KernelIdeal.Bridge

end
-- ==== Proof.RefH.lean ====
/-
  The reference's aggregated message is the specification's: its concatenation of the sixteen gathered arc potentials
  and the self loop, times the seventeen gated masks, summed over the seventeen slots, is `hSpec` at every node and
  feature, when the index inputs are in range (so that jax's negative-index wrap does nothing and the gathers' clamps
  do not bind).
-/
import proofs.«408033_j214748365179_3_alg».proof.Proof.Gen.ReferenceIdeal.Read
import proofs.«408033_j214748365179_3_alg».proof.Proof.Spec
import proofs.«408033_j214748365179_3_alg».proof.Proof.LibIndexing
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.ReferenceIdeal.Bridge

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The sum over the seventeen slots: eight incoming arcs, eight outgoing arcs, the self loop. -/
private theorem sum_slots {M : Type} [AddCommMonoid M] (f : Fin 17 → M) :
    ∑ k : Fin 17, f k
      = ∑ d : Fin 8, f ⟨d.val, by omega⟩ + ∑ d : Fin 8, f ⟨8 + d.val, by omega⟩ + f ⟨16, by omega⟩ := by
  rw [Fin.sum_univ_castSucc]
  congr 1
  exact Fin.sum_univ_add (a := 8) (b := 8) (fun i : Fin (8 + 8) => f (Fin.castSucc i))

/-- The flattened feature matrix at row n, column k, is feature k of node n. -/
private theorem x_at (x0 : (⟨S16x512x512, .f32⟩ : BufTy).Contents (Elt Ideal)) (n : Fin 8192) (k : Fin 512) :
    val_main_v0 (F := Ideal) x0 (ix2 n k) = Cert.Spec.xAt x0 n k := by
  rw [val_main_v0_apply]
  unfold Cert.Spec.xAt
  congr 1
  funext a
  have hn := n.isLt; have hk := k.isLt
  match a with
  | ⟨0, _⟩ => exact Fin.ext (by show (n.val * 512 + k.val) / 262144 = n.val / 512; omega)
  | ⟨1, _⟩ => exact Fin.ext (by show (n.val * 512 + k.val) / 512 % 512 = n.val % 512; omega)
  | ⟨2, _⟩ => exact Fin.ext (by show (n.val * 512 + k.val) % 512 = k.val; omega)

/-- A product of the feature matrix with a weight matrix of 512 columns, at (n, j). -/
private theorem dot512 (x0 : (⟨S16x512x512, .f32⟩ : BufTy).Contents (Elt Ideal)) (W : (⟨S512x512, .f32⟩ : BufTy).Contents (Elt Ideal))
    (n : Fin 8192) (j : Fin 512) :
    val_main_v15 (F := Ideal) x0 W (ix2 n j) = Cert.Spec.dotCol x0 W n j := by
  rw [val_main_v15_apply]
  unfold Cert.Spec.dotCol
  refine Finset.sum_congr rfl fun k _ => ?_
  have e1 : lidx_main_v15 (ix2 n j) k = ix2 n k := funext fun a => by match a with | ⟨0, _⟩ => rfl | ⟨1, _⟩ => rfl
  have e2 : ridx_main_v15 (ix2 n j) k = ix2 k j := funext fun a => by match a with | ⟨0, _⟩ => rfl | ⟨1, _⟩ => rfl
  rw [e1, e2, x_at]

/-- A product of the feature matrix with a one-column weight matrix, at (n, 0). -/
private theorem dot1 (x0 : (⟨S16x512x512, .f32⟩ : BufTy).Contents (Elt Ideal)) (W : (⟨S512x1, .f32⟩ : BufTy).Contents (Elt Ideal))
    (n : Fin 8192) (q : Fin 1) :
    val_main_v31 (F := Ideal) x0 W (ix2 n q) = Cert.Spec.dotCol x0 W n 0 := by
  rw [val_main_v31_apply]
  unfold Cert.Spec.dotCol
  refine Finset.sum_congr rfl fun k _ => ?_
  have e1 : lidx_main_v31 (ix2 n q) k = ix2 n k := funext fun a => by match a with | ⟨0, _⟩ => rfl | ⟨1, _⟩ => rfl
  have e2 : ridx_main_v31 (ix2 n q) k = ix2 k 0 := funext fun a => by
    match a with
    | ⟨0, _⟩ => rfl
    | ⟨1, _⟩ => exact Fin.ext (by show q.val = 0; omega)
  rw [e1, e2, x_at]

/-- The coordinates the two slices of an arc array are read at. -/
private theorem idx_sent (e : Fin 65536) : idx_main_v1 (idx_main_v2 (ix1 e)) = ix2 0 e := by
  funext a
  have he := e.isLt
  match a with
  | ⟨0, _⟩ => rfl
  | ⟨1, _⟩ => exact Fin.ext (by show e.val % 65536 = e.val; omega)
private theorem idx_pos (e : Fin 65536) : idx_main_v5 (idx_main_v6 (ix1 e)) = ix2 1 e := by
  funext a
  have he := e.isLt
  match a with
  | ⟨0, _⟩ => rfl
  | ⟨1, _⟩ => exact Fin.ext (by show e.val % 65536 = e.val; omega)

/-- The flat node word of an arc, sentence * 512 + position, does not overflow: its value is the arc's row. -/
private theorem flat_toNat (x1 : (⟨S2x65536, .i32⟩ : BufTy).Contents (Elt Ideal)) (x2 : (⟨S65536, .i32⟩ : BufTy).Contents (Elt Ideal))
    (h : Cert.Spec.InRange x1 x2) (e : Fin 65536) :
    (val_main_v7 (F := Ideal) x1 (ix1 e)).toNat = (Cert.Spec.rowOf x1 e).val := by
  rw [Cert.Spec.rowOf_val h, val_main_v7_apply, val_main_v4_apply, val_main_v2_apply, val_main_v1_apply, val_main_v3_apply,
    val_main_c_apply, val_main_v6_apply, val_main_v5_apply, idx_sent, idx_pos]
  have h0 := h.sent e; have h1 := h.pos e
  show (x1 (ix2 0 e) * 512#32 + x1 (ix2 1 e)).toNat = _
  rw [BitVec.toNat_add, BitVec.toNat_mul]
  have : (512#32).toNat = 512 := rfl
  rw [this]; omega

/-- The wrap of a negative index does nothing to the flat node word. -/
private theorem row_word (x1 : (⟨S2x65536, .i32⟩ : BufTy).Contents (Elt Ideal)) (x2 : (⟨S65536, .i32⟩ : BufTy).Contents (Elt Ideal))
    (h : Cert.Spec.InRange x1 x2) (e : Fin 65536) :
    val_main_v20 (F := Ideal) x1 (ix1 e) = val_main_v7 (F := Ideal) x1 (ix1 e) := by
  rw [val_main_v20_apply, val_main_v17_apply, val_main_v19_apply, val_main_v16_apply, val_main_c_1_apply, val_main_v18_apply,
    val_main_c_2_apply]
  exact Cert.Lib.wrap_of_nonneg _ _ (by rw [flat_toNat x1 x2 h e]; have := (Cert.Spec.rowOf x1 e).isLt; omega)

/-- The wrap of a negative index does nothing to a label word. -/
private theorem lab_word (x1 : (⟨S2x65536, .i32⟩ : BufTy).Contents (Elt Ideal)) (x2 : (⟨S65536, .i32⟩ : BufTy).Contents (Elt Ideal))
    (h : Cert.Spec.InRange x1 x2) (e : Fin 65536) :
    val_main_v27 (F := Ideal) x2 (ix1 e) = x2 (ix1 e) := by
  rw [val_main_v27_apply, val_main_v24_apply, val_main_v26_apply, val_main_v23_apply, val_main_c_3_apply, val_main_v25_apply,
    val_main_c_4_apply]
  exact Cert.Lib.wrap_of_nonneg _ _ (by have := h.lab e; omega)

/-- The column of start indices, read at row e: the (unwrapped) word of arc e. -/
private theorem idx_col (e : Fin 65536) (q : Fin 1) : idx_main_v21 (ix2 e q) = ix1 e := by
  funext a
  match a with
  | ⟨0, _⟩ => rfl

/-- The start index of the row gathers, clamped, is the arc's row. -/
private theorem row_start (x1 : (⟨S2x65536, .i32⟩ : BufTy).Contents (Elt Ideal)) (x2 : (⟨S65536, .i32⟩ : BufTy).Contents (Elt Ideal))
    (h : Cert.Spec.InRange x1 x2) (e : Fin 65536) :
    min (val_main_v21 (F := Ideal) x1 (ix2 e 0)).toInt.toNat (8192 - 1) = (Cert.Spec.rowOf x1 e).val := by
  rw [val_main_v21_apply, idx_col, row_word x1 x2 h e]
  have hr := (Cert.Spec.rowOf x1 e).isLt
  have ht := flat_toNat x1 x2 h e
  rw [Cert.Lib.toInt_toNat_of_lt (n := 8192) (by omega) (by norm_num), ht]
  omega

/-- The start index of the label gathers, clamped, is the arc's label. -/
private theorem lab_start (x1 : (⟨S2x65536, .i32⟩ : BufTy).Contents (Elt Ideal)) (x2 : (⟨S65536, .i32⟩ : BufTy).Contents (Elt Ideal))
    (h : Cert.Spec.InRange x1 x2) (e : Fin 65536) :
    min (val_main_v28 (F := Ideal) x2 (ix2 e 0)).toInt.toNat (64 - 1) = (Cert.Spec.labOf x2 e).val := by
  rw [val_main_v28_apply, show idx_main_v28 (ix2 e 0) = ix1 e from idx_col e 0, lab_word x1 x2 h e]
  have hl := h.lab e
  rw [Cert.Lib.toInt_toNat_of_lt (n := 64) hl (by norm_num), Cert.Spec.labOf_val h]
  omega

/-- A gather of rows of a table of 8192 rows and 512 columns, at a start index known to be the row r. -/
private theorem gather_proj (T : (⟨S8192x512, .f32⟩ : BufTy).Contents (Elt Ideal)) (I : (⟨S65536x1, .i32⟩ : BufTy).Contents (Elt Ideal))
    (e : Fin 65536) (j : Fin 512) (r : Fin 8192) (hI : min (I (ix2 e 0)).toInt.toNat (8192 - 1) = r.val) :
    Host.gather gather_S8192x512_S65536x1_S65536x512_1_0_n_n_0_1_1512 T I (ix2 e j) = T (ix2 r j) := by
  have hg : gather_S8192x512_S65536x1_S65536x512_1_0_n_n_0_1_1512
      = Cert.Lib.rowGatherDims 8192 512 65536 Facts₀.gather_S8192x512_S65536x1_S65536x512_1_0_n_n_0_1_1512_wf := rfl
  rw [hg, Cert.Lib.gather_rows_apply (by norm_num)]
  exact congrArg (fun r => T (ix2 r j)) (Fin.ext hI)

/-- A gather of rows of a table of 64 rows and 512 columns. -/
private theorem gather_bias (B : (⟨S64x512, .f32⟩ : BufTy).Contents (Elt Ideal)) (I : (⟨S65536x1, .i32⟩ : BufTy).Contents (Elt Ideal))
    (e : Fin 65536) (j : Fin 512) (r : Fin 64) (hI : min (I (ix2 e 0)).toInt.toNat (64 - 1) = r.val) :
    Host.gather gather_S64x512_S65536x1_S65536x512_1_0_n_n_0_1_1512 B I (ix2 e j) = B (ix2 r j) := by
  have hg : gather_S64x512_S65536x1_S65536x512_1_0_n_n_0_1_1512
      = Cert.Lib.rowGatherDims 64 512 65536 Facts₀.gather_S64x512_S65536x1_S65536x512_1_0_n_n_0_1_1512_wf := rfl
  rw [hg, Cert.Lib.gather_rows_apply (by norm_num)]
  exact congrArg (fun r => B (ix2 r j)) (Fin.ext hI)

/-- A gather of rows of a one-column table of 8192 rows. -/
private theorem gather_gproj (T : (⟨S8192x1, .f32⟩ : BufTy).Contents (Elt Ideal)) (I : (⟨S65536x1, .i32⟩ : BufTy).Contents (Elt Ideal))
    (e : Fin 65536) (q : Fin 1) (r : Fin 8192) (hI : min (I (ix2 e 0)).toInt.toNat (8192 - 1) = r.val) :
    Host.gather gather_S8192x1_S65536x1_S65536x1_1_0_n_n_0_1_11 T I (ix2 e q) = T (ix2 r q) := by
  have hg : gather_S8192x1_S65536x1_S65536x1_1_0_n_n_0_1_11
      = Cert.Lib.rowGatherDims 8192 1 65536 Facts₀.gather_S8192x1_S65536x1_S65536x1_1_0_n_n_0_1_11_wf := rfl
  rw [hg, Cert.Lib.gather_rows_apply (by norm_num)]
  exact congrArg (fun r => T (ix2 r q)) (Fin.ext hI)

/-- A gather of rows of a one-column table of 64 rows. -/
private theorem gather_gbias (B : (⟨S64x1, .f32⟩ : BufTy).Contents (Elt Ideal)) (I : (⟨S65536x1, .i32⟩ : BufTy).Contents (Elt Ideal))
    (e : Fin 65536) (q : Fin 1) (r : Fin 64) (hI : min (I (ix2 e 0)).toInt.toNat (64 - 1) = r.val) :
    Host.gather gather_S64x1_S65536x1_S65536x1_1_0_n_n_0_1_11 B I (ix2 e q) = B (ix2 r q) := by
  have hg : gather_S64x1_S65536x1_S65536x1_1_0_n_n_0_1_11
      = Cert.Lib.rowGatherDims 64 1 65536 Facts₀.gather_S64x1_S65536x1_S65536x1_1_0_n_n_0_1_11_wf := rfl
  rw [hg, Cert.Lib.gather_rows_apply (by norm_num)]
  exact congrArg (fun r => B (ix2 r q)) (Fin.ext hI)

/-- The potential of an incoming arc: the projected feature of its source plus its label's bias row. -/
private theorem pot_in (x0 : (⟨S16x512x512, .f32⟩ : BufTy).Contents (Elt Ideal)) (x1 : (⟨S2x65536, .i32⟩ : BufTy).Contents (Elt Ideal))
    (x2 : (⟨S65536, .i32⟩ : BufTy).Contents (Elt Ideal)) (x9 : (⟨S512x512, .f32⟩ : BufTy).Contents (Elt Ideal))
    (x10 : (⟨S64x512, .f32⟩ : BufTy).Contents (Elt Ideal)) (h : Cert.Spec.InRange x1 x2) (e : Fin 65536) (j : Fin 512) :
    val_main_v30 (F := Ideal) x0 x1 x2 x9 x10 (ix2 e j) = Cert.Spec.potE x0 x1 x2 x9 x10 e j := by
  rw [val_main_v30_apply]
  unfold val_main_v22 val_main_v29 Cert.Spec.potE
  rw [gather_proj _ _ e j _ (row_start x1 x2 h e), gather_bias _ _ e j _ (lab_start x1 x2 h e), dot512]
  rfl

/-- The potential of an outgoing arc. -/
private theorem pot_out (x0 : (⟨S16x512x512, .f32⟩ : BufTy).Contents (Elt Ideal)) (x3 : (⟨S2x65536, .i32⟩ : BufTy).Contents (Elt Ideal))
    (x4 : (⟨S65536, .i32⟩ : BufTy).Contents (Elt Ideal)) (x13 : (⟨S512x512, .f32⟩ : BufTy).Contents (Elt Ideal))
    (x14 : (⟨S64x512, .f32⟩ : BufTy).Contents (Elt Ideal)) (h : Cert.Spec.InRange x3 x4) (e : Fin 65536) (j : Fin 512) :
    val_main_v62 (F := Ideal) x0 x3 x4 x13 x14 (ix2 e j) = Cert.Spec.potE x0 x3 x4 x13 x14 e j :=
  pot_in x0 x3 x4 x13 x14 h e j

/-- The gate of an incoming arc. -/
private theorem gate_in (x0 : (⟨S16x512x512, .f32⟩ : BufTy).Contents (Elt Ideal)) (x1 : (⟨S2x65536, .i32⟩ : BufTy).Contents (Elt Ideal))
    (x2 : (⟨S65536, .i32⟩ : BufTy).Contents (Elt Ideal)) (x11 : (⟨S512x1, .f32⟩ : BufTy).Contents (Elt Ideal))
    (x12 : (⟨S64x1, .f32⟩ : BufTy).Contents (Elt Ideal)) (h : Cert.Spec.InRange x1 x2) (e : Fin 65536) (q : Fin 1) :
    val_main_v46 (F := Ideal) x0 x1 x2 x11 x12 (ix2 e q) = Cert.Spec.gateE x0 x1 x2 x11 x12 e := by
  have hq : q = 0 := Fin.ext (by omega)
  subst hq
  rw [val_main_v46_apply]
  unfold val_main_v38 val_main_v45 Cert.Spec.gateE
  rw [gather_gproj _ (val_main_v37 (F := Ideal) x1) e 0 _ (row_start x1 x2 h e),
    gather_gbias _ (val_main_v44 (F := Ideal) x2) e 0 _ (lab_start x1 x2 h e), dot1]
  rfl

/-- The gate of an outgoing arc. -/
private theorem gate_out (x0 : (⟨S16x512x512, .f32⟩ : BufTy).Contents (Elt Ideal)) (x3 : (⟨S2x65536, .i32⟩ : BufTy).Contents (Elt Ideal))
    (x4 : (⟨S65536, .i32⟩ : BufTy).Contents (Elt Ideal)) (x15 : (⟨S512x1, .f32⟩ : BufTy).Contents (Elt Ideal))
    (x16 : (⟨S64x1, .f32⟩ : BufTy).Contents (Elt Ideal)) (h : Cert.Spec.InRange x3 x4) (e : Fin 65536) (q : Fin 1) :
    val_main_v78 (F := Ideal) x0 x3 x4 x15 x16 (ix2 e q) = Cert.Spec.gateE x0 x3 x4 x15 x16 e :=
  gate_in x0 x3 x4 x15 x16 h e q

/-- The reshape of the arc potentials to [node, arc, feature]: arc d of node n is edge n * 8 + d. -/
private theorem idx_arc3 (n : Fin 8192) (d : Fin 8) (j : Fin 512) : idx_main_v81 (ix3 n d j) = ix2 (Cert.Spec.edge n d) j := by
  funext a
  have hn := n.isLt; have hd := d.isLt; have hj := j.isLt
  match a with
  | ⟨0, _⟩ => exact Fin.ext (by show ((n.val * 8 + d.val) * 512 + j.val) / 512 = n.val * 8 + d.val; omega)
  | ⟨1, _⟩ => exact Fin.ext (by show ((n.val * 8 + d.val) * 512 + j.val) % 512 = j.val; omega)

/-- The reshape of the arc gates to [node, arc]. -/
private theorem idx_arc2 (n : Fin 8192) (d : Fin 8) : idx_main_v85 (ix2 n d) = ix2 (Cert.Spec.edge n d) 0 := by
  funext a
  match a with
  | ⟨0, _⟩ => exact Fin.ext (by show (n.val * 8 + d.val) / 1 = n.val * 8 + d.val; omega)
  | ⟨1, _⟩ => rfl

/-! The three concatenations along the slot axis: slots 0..7 are the first piece, 8..15 the second, 16 the third. -/

private theorem cat3_in (A B : S8192x8x512.Idx → EReal) (C : S8192x1x512.Idx → EReal) (n : Fin 8192) (d : Fin 8) (j : Fin 512) :
    concatenate S8192x17x512 1 [⟨S8192x8x512, A⟩, ⟨S8192x8x512, B⟩, ⟨S8192x1x512, C⟩]
      Facts₀.concatenates_S8192x8x512_S8192x8x512_S8192x1x512_S8192x17x512_d1 (ix3 n ⟨d.val, by omega⟩ j) = A (ix3 n d j) := by
  refine concatenate_apply_piece (t := S8192x17x512) 1 [⟨S8192x8x512, A⟩, ⟨S8192x8x512, B⟩, ⟨S8192x1x512, C⟩] _ _ 0 (by show (0 : Nat) < 3; omega) S8192x8x512 A rfl rfl 0 rfl (ix3 n d j) ?_ ?_
  · intro b hb
    match b with
    | ⟨0, _⟩ => rfl
    | ⟨1, _⟩ => exact absurd rfl hb
    | ⟨2, _⟩ => rfl
  · show 0 + d.val = d.val; omega

private theorem cat3_out (A B : S8192x8x512.Idx → EReal) (C : S8192x1x512.Idx → EReal) (n : Fin 8192) (d : Fin 8) (j : Fin 512) :
    concatenate S8192x17x512 1 [⟨S8192x8x512, A⟩, ⟨S8192x8x512, B⟩, ⟨S8192x1x512, C⟩]
      Facts₀.concatenates_S8192x8x512_S8192x8x512_S8192x1x512_S8192x17x512_d1 (ix3 n ⟨8 + d.val, by omega⟩ j) = B (ix3 n d j) := by
  refine concatenate_apply_piece (t := S8192x17x512) 1 [⟨S8192x8x512, A⟩, ⟨S8192x8x512, B⟩, ⟨S8192x1x512, C⟩] _ _ 1 (by show (1 : Nat) < 3; omega) S8192x8x512 B rfl rfl 8 rfl (ix3 n d j) ?_ ?_
  · intro b hb
    match b with
    | ⟨0, _⟩ => rfl
    | ⟨1, _⟩ => exact absurd rfl hb
    | ⟨2, _⟩ => rfl
  · show 8 + d.val = 8 + d.val; rfl

private theorem cat3_loop (A B : S8192x8x512.Idx → EReal) (C : S8192x1x512.Idx → EReal) (n : Fin 8192) (j : Fin 512) :
    concatenate S8192x17x512 1 [⟨S8192x8x512, A⟩, ⟨S8192x8x512, B⟩, ⟨S8192x1x512, C⟩]
      Facts₀.concatenates_S8192x8x512_S8192x8x512_S8192x1x512_S8192x17x512_d1 (ix3 n ⟨16, by omega⟩ j) = C (ix3 n 0 j) := by
  refine concatenate_apply_piece (t := S8192x17x512) 1 [⟨S8192x8x512, A⟩, ⟨S8192x8x512, B⟩, ⟨S8192x1x512, C⟩] _ _ 2 (by show (2 : Nat) < 3; omega) S8192x1x512 C rfl rfl 16 rfl (ix3 n 0 j) ?_ ?_
  · intro b hb
    match b with
    | ⟨0, _⟩ => rfl
    | ⟨1, _⟩ => exact absurd rfl hb
    | ⟨2, _⟩ => rfl
  · rfl

private theorem cat2_in (A B : S8192x8.Idx → EReal) (C : S8192x1.Idx → EReal) (n : Fin 8192) (d : Fin 8) :
    concatenate S8192x17 1 [⟨S8192x8, A⟩, ⟨S8192x8, B⟩, ⟨S8192x1, C⟩]
      Facts₀.concatenates_S8192x8_S8192x8_S8192x1_S8192x17_d1 (ix2 n ⟨d.val, by omega⟩) = A (ix2 n d) := by
  refine concatenate_apply_piece (t := S8192x17) 1 [⟨S8192x8, A⟩, ⟨S8192x8, B⟩, ⟨S8192x1, C⟩] _ _ 0 (by show (0 : Nat) < 3; omega) S8192x8 A rfl rfl 0 rfl (ix2 n d) ?_ ?_
  · intro b hb
    match b with
    | ⟨0, _⟩ => rfl
    | ⟨1, _⟩ => exact absurd rfl hb
  · show 0 + d.val = d.val; omega

private theorem cat2_out (A B : S8192x8.Idx → EReal) (C : S8192x1.Idx → EReal) (n : Fin 8192) (d : Fin 8) :
    concatenate S8192x17 1 [⟨S8192x8, A⟩, ⟨S8192x8, B⟩, ⟨S8192x1, C⟩]
      Facts₀.concatenates_S8192x8_S8192x8_S8192x1_S8192x17_d1 (ix2 n ⟨8 + d.val, by omega⟩) = B (ix2 n d) := by
  refine concatenate_apply_piece (t := S8192x17) 1 [⟨S8192x8, A⟩, ⟨S8192x8, B⟩, ⟨S8192x1, C⟩] _ _ 1 (by show (1 : Nat) < 3; omega) S8192x8 B rfl rfl 8 rfl (ix2 n d) ?_ ?_
  · intro b hb
    match b with
    | ⟨0, _⟩ => rfl
    | ⟨1, _⟩ => exact absurd rfl hb
  · rfl

private theorem cat2_loop (A B : S8192x8.Idx → EReal) (C : S8192x1.Idx → EReal) (n : Fin 8192) :
    concatenate S8192x17 1 [⟨S8192x8, A⟩, ⟨S8192x8, B⟩, ⟨S8192x1, C⟩]
      Facts₀.concatenates_S8192x8_S8192x8_S8192x1_S8192x17_d1 (ix2 n ⟨16, by omega⟩) = C (ix2 n 0) := by
  refine concatenate_apply_piece (t := S8192x17) 1 [⟨S8192x8, A⟩, ⟨S8192x8, B⟩, ⟨S8192x1, C⟩] _ _ 2 (by show (2 : Nat) < 3; omega) S8192x1 C rfl rfl 16 rfl (ix2 n 0) ?_ ?_
  · intro b hb
    match b with
    | ⟨0, _⟩ => rfl
    | ⟨1, _⟩ => exact absurd rfl hb
  · rfl

/-- The gated mask of slot k of node n: the logistic of the slot's gate (spelled 1 / (1 + exp (-g))) times the slot's mask. -/
private theorem gate_slot
    (x0 : (⟨S16x512x512, .f32⟩ : BufTy).Contents (Elt Ideal)) (x1 : (⟨S2x65536, .i32⟩ : BufTy).Contents (Elt Ideal))
    (x2 : (⟨S65536, .i32⟩ : BufTy).Contents (Elt Ideal)) (x3 : (⟨S2x65536, .i32⟩ : BufTy).Contents (Elt Ideal))
    (x4 : (⟨S65536, .i32⟩ : BufTy).Contents (Elt Ideal)) (x5 : (⟨S8192x8, .f32⟩ : BufTy).Contents (Elt Ideal))
    (x6 : (⟨S8192x8, .f32⟩ : BufTy).Contents (Elt Ideal)) (x7 : (⟨S8192x1, .f32⟩ : BufTy).Contents (Elt Ideal))
    (x11 : (⟨S512x1, .f32⟩ : BufTy).Contents (Elt Ideal)) (x12 : (⟨S64x1, .f32⟩ : BufTy).Contents (Elt Ideal))
    (x15 : (⟨S512x1, .f32⟩ : BufTy).Contents (Elt Ideal)) (x16 : (⟨S64x1, .f32⟩ : BufTy).Contents (Elt Ideal))
    (x18 : (⟨S512x1, .f32⟩ : BufTy).Contents (Elt Ideal))
    (n : Fin 8192) (k : Fin 17) :
    val_main_v95 (F := Ideal) x0 x1 x2 x3 x4 x5 x6 x7 x11 x12 x15 x16 x18 (ix2 n k)
      = Ideal.logistic (val_main_v87 (F := Ideal) x0 x1 x2 x3 x4 x11 x12 x15 x16 x18 (ix2 n k)) * val_main_v88 (F := Ideal) x5 x6 x7 (ix2 n k) := by
  rw [val_main_v95_apply, val_main_v94_apply, val_main_v93_apply, val_main_cst_17_apply, val_main_v92_apply, val_main_v91_apply,
    val_main_cst_apply, val_main_v90_apply, val_main_v89_apply]
  simp only [Ideal.ofBits_def, Ideal.ofBits_one_f32, Ideal.hostDivf_def, Ideal.addf_def, Ideal.hostUnary_exp_def,
    Ideal.hostNegf_def, Ideal.negf_def, Ideal.mulf_def]
  rfl

/-- Slot k of the summand at (n, j): the slot's potential times its gated mask. -/
private theorem slot
    (x0 : (⟨S16x512x512, .f32⟩ : BufTy).Contents (Elt Ideal)) (x1 : (⟨S2x65536, .i32⟩ : BufTy).Contents (Elt Ideal))
    (x2 : (⟨S65536, .i32⟩ : BufTy).Contents (Elt Ideal)) (x3 : (⟨S2x65536, .i32⟩ : BufTy).Contents (Elt Ideal))
    (x4 : (⟨S65536, .i32⟩ : BufTy).Contents (Elt Ideal)) (x5 : (⟨S8192x8, .f32⟩ : BufTy).Contents (Elt Ideal))
    (x6 : (⟨S8192x8, .f32⟩ : BufTy).Contents (Elt Ideal)) (x7 : (⟨S8192x1, .f32⟩ : BufTy).Contents (Elt Ideal))
    (x9 : (⟨S512x512, .f32⟩ : BufTy).Contents (Elt Ideal)) (x10 : (⟨S64x512, .f32⟩ : BufTy).Contents (Elt Ideal))
    (x11 : (⟨S512x1, .f32⟩ : BufTy).Contents (Elt Ideal)) (x12 : (⟨S64x1, .f32⟩ : BufTy).Contents (Elt Ideal))
    (x13 : (⟨S512x512, .f32⟩ : BufTy).Contents (Elt Ideal)) (x14 : (⟨S64x512, .f32⟩ : BufTy).Contents (Elt Ideal))
    (x15 : (⟨S512x1, .f32⟩ : BufTy).Contents (Elt Ideal)) (x16 : (⟨S64x1, .f32⟩ : BufTy).Contents (Elt Ideal))
    (x17 : (⟨S512x512, .f32⟩ : BufTy).Contents (Elt Ideal)) (x18 : (⟨S512x1, .f32⟩ : BufTy).Contents (Elt Ideal))
    (n : Fin 8192) (j : Fin 512) (k : Fin 17) :
    val_main_v98 (F := Ideal) x0 x1 x2 x3 x4 x5 x6 x7 x9 x10 x11 x12 x13 x14 x15 x16 x17 x18 (idx_main_v99 (ix2 n j) k)
      = val_main_v84 (F := Ideal) x0 x1 x2 x3 x4 x9 x10 x13 x14 x17 (ix3 n k j)
        * (Ideal.logistic (val_main_v87 (F := Ideal) x0 x1 x2 x3 x4 x11 x12 x15 x16 x18 (ix2 n k)) * val_main_v88 (F := Ideal) x5 x6 x7 (ix2 n k)) := by
  have e1 : idx_main_v99 (ix2 n j) k = ix3 n k j :=
    funext fun a => by match a with | ⟨0, _⟩ => rfl | ⟨1, _⟩ => rfl | ⟨2, _⟩ => rfl
  have e2 : idx_main_v96 (idx_main_v97 (ix3 n k j)) = ix2 n k :=
    funext fun a => by match a with | ⟨0, _⟩ => rfl | ⟨1, _⟩ => rfl
  rw [e1, val_main_v98_apply, val_main_v97_apply, val_main_v96_apply, e2, gate_slot]
  rfl

/-! The three arrays of slots, read at an incoming arc's slot, an outgoing arc's slot, and the loop's slot. -/

private theorem pot_slot_in
    (x0 : (⟨S16x512x512, .f32⟩ : BufTy).Contents (Elt Ideal)) (x1 : (⟨S2x65536, .i32⟩ : BufTy).Contents (Elt Ideal))
    (x2 : (⟨S65536, .i32⟩ : BufTy).Contents (Elt Ideal)) (x3 : (⟨S2x65536, .i32⟩ : BufTy).Contents (Elt Ideal))
    (x4 : (⟨S65536, .i32⟩ : BufTy).Contents (Elt Ideal)) (x9 : (⟨S512x512, .f32⟩ : BufTy).Contents (Elt Ideal))
    (x10 : (⟨S64x512, .f32⟩ : BufTy).Contents (Elt Ideal)) (x13 : (⟨S512x512, .f32⟩ : BufTy).Contents (Elt Ideal))
    (x14 : (⟨S64x512, .f32⟩ : BufTy).Contents (Elt Ideal)) (x17 : (⟨S512x512, .f32⟩ : BufTy).Contents (Elt Ideal))
    (hin : Cert.Spec.InRange x1 x2) (n : Fin 8192) (d : Fin 8) (j : Fin 512) :
    val_main_v84 (F := Ideal) x0 x1 x2 x3 x4 x9 x10 x13 x14 x17 (ix3 n ⟨d.val, by omega⟩ j) = Cert.Spec.potE x0 x1 x2 x9 x10 (Cert.Spec.edge n d) j := by
  unfold val_main_v84
  rw [cat3_in, val_main_v81_apply, idx_arc3, pot_in x0 x1 x2 x9 x10 hin]

private theorem pot_slot_out
    (x0 : (⟨S16x512x512, .f32⟩ : BufTy).Contents (Elt Ideal)) (x1 : (⟨S2x65536, .i32⟩ : BufTy).Contents (Elt Ideal))
    (x2 : (⟨S65536, .i32⟩ : BufTy).Contents (Elt Ideal)) (x3 : (⟨S2x65536, .i32⟩ : BufTy).Contents (Elt Ideal))
    (x4 : (⟨S65536, .i32⟩ : BufTy).Contents (Elt Ideal)) (x9 : (⟨S512x512, .f32⟩ : BufTy).Contents (Elt Ideal))
    (x10 : (⟨S64x512, .f32⟩ : BufTy).Contents (Elt Ideal)) (x13 : (⟨S512x512, .f32⟩ : BufTy).Contents (Elt Ideal))
    (x14 : (⟨S64x512, .f32⟩ : BufTy).Contents (Elt Ideal)) (x17 : (⟨S512x512, .f32⟩ : BufTy).Contents (Elt Ideal))
    (hout : Cert.Spec.InRange x3 x4) (n : Fin 8192) (d : Fin 8) (j : Fin 512) :
    val_main_v84 (F := Ideal) x0 x1 x2 x3 x4 x9 x10 x13 x14 x17 (ix3 n ⟨8 + d.val, by omega⟩ j) = Cert.Spec.potE x0 x3 x4 x13 x14 (Cert.Spec.edge n d) j := by
  have e : idx_main_v82 (ix3 n d j) = ix2 (Cert.Spec.edge n d) j := idx_arc3 n d j
  unfold val_main_v84
  rw [cat3_out, val_main_v82_apply, e, pot_out x0 x3 x4 x13 x14 hout]

private theorem pot_slot_loop
    (x0 : (⟨S16x512x512, .f32⟩ : BufTy).Contents (Elt Ideal)) (x1 : (⟨S2x65536, .i32⟩ : BufTy).Contents (Elt Ideal))
    (x2 : (⟨S65536, .i32⟩ : BufTy).Contents (Elt Ideal)) (x3 : (⟨S2x65536, .i32⟩ : BufTy).Contents (Elt Ideal))
    (x4 : (⟨S65536, .i32⟩ : BufTy).Contents (Elt Ideal)) (x9 : (⟨S512x512, .f32⟩ : BufTy).Contents (Elt Ideal))
    (x10 : (⟨S64x512, .f32⟩ : BufTy).Contents (Elt Ideal)) (x13 : (⟨S512x512, .f32⟩ : BufTy).Contents (Elt Ideal))
    (x14 : (⟨S64x512, .f32⟩ : BufTy).Contents (Elt Ideal)) (x17 : (⟨S512x512, .f32⟩ : BufTy).Contents (Elt Ideal))
    (n : Fin 8192) (j : Fin 512) :
    val_main_v84 (F := Ideal) x0 x1 x2 x3 x4 x9 x10 x13 x14 x17 (ix3 n ⟨16, by omega⟩ j) = Cert.Spec.dotCol x0 x17 n j := by
  have e : idx_main_v83 (ix3 n 0 j) = ix2 n j := funext fun a => by match a with | ⟨0, _⟩ => rfl | ⟨1, _⟩ => rfl
  unfold val_main_v84
  rw [cat3_loop, val_main_v83_apply, e]
  exact dot512 x0 x17 n j

private theorem gate_slot_in
    (x0 : (⟨S16x512x512, .f32⟩ : BufTy).Contents (Elt Ideal)) (x1 : (⟨S2x65536, .i32⟩ : BufTy).Contents (Elt Ideal))
    (x2 : (⟨S65536, .i32⟩ : BufTy).Contents (Elt Ideal)) (x3 : (⟨S2x65536, .i32⟩ : BufTy).Contents (Elt Ideal))
    (x4 : (⟨S65536, .i32⟩ : BufTy).Contents (Elt Ideal)) (x11 : (⟨S512x1, .f32⟩ : BufTy).Contents (Elt Ideal))
    (x12 : (⟨S64x1, .f32⟩ : BufTy).Contents (Elt Ideal)) (x15 : (⟨S512x1, .f32⟩ : BufTy).Contents (Elt Ideal))
    (x16 : (⟨S64x1, .f32⟩ : BufTy).Contents (Elt Ideal)) (x18 : (⟨S512x1, .f32⟩ : BufTy).Contents (Elt Ideal))
    (hin : Cert.Spec.InRange x1 x2) (n : Fin 8192) (d : Fin 8) :
    val_main_v87 (F := Ideal) x0 x1 x2 x3 x4 x11 x12 x15 x16 x18 (ix2 n ⟨d.val, by omega⟩) = Cert.Spec.gateE x0 x1 x2 x11 x12 (Cert.Spec.edge n d) := by
  unfold val_main_v87
  rw [cat2_in, val_main_v85_apply, idx_arc2, gate_in x0 x1 x2 x11 x12 hin]

private theorem gate_slot_out
    (x0 : (⟨S16x512x512, .f32⟩ : BufTy).Contents (Elt Ideal)) (x1 : (⟨S2x65536, .i32⟩ : BufTy).Contents (Elt Ideal))
    (x2 : (⟨S65536, .i32⟩ : BufTy).Contents (Elt Ideal)) (x3 : (⟨S2x65536, .i32⟩ : BufTy).Contents (Elt Ideal))
    (x4 : (⟨S65536, .i32⟩ : BufTy).Contents (Elt Ideal)) (x11 : (⟨S512x1, .f32⟩ : BufTy).Contents (Elt Ideal))
    (x12 : (⟨S64x1, .f32⟩ : BufTy).Contents (Elt Ideal)) (x15 : (⟨S512x1, .f32⟩ : BufTy).Contents (Elt Ideal))
    (x16 : (⟨S64x1, .f32⟩ : BufTy).Contents (Elt Ideal)) (x18 : (⟨S512x1, .f32⟩ : BufTy).Contents (Elt Ideal))
    (hout : Cert.Spec.InRange x3 x4) (n : Fin 8192) (d : Fin 8) :
    val_main_v87 (F := Ideal) x0 x1 x2 x3 x4 x11 x12 x15 x16 x18 (ix2 n ⟨8 + d.val, by omega⟩) = Cert.Spec.gateE x0 x3 x4 x15 x16 (Cert.Spec.edge n d) := by
  have e : idx_main_v86 (ix2 n d) = ix2 (Cert.Spec.edge n d) 0 := idx_arc2 n d
  unfold val_main_v87
  rw [cat2_out, val_main_v86_apply, e, gate_out x0 x3 x4 x15 x16 hout]

private theorem gate_slot_loop
    (x0 : (⟨S16x512x512, .f32⟩ : BufTy).Contents (Elt Ideal)) (x1 : (⟨S2x65536, .i32⟩ : BufTy).Contents (Elt Ideal))
    (x2 : (⟨S65536, .i32⟩ : BufTy).Contents (Elt Ideal)) (x3 : (⟨S2x65536, .i32⟩ : BufTy).Contents (Elt Ideal))
    (x4 : (⟨S65536, .i32⟩ : BufTy).Contents (Elt Ideal)) (x11 : (⟨S512x1, .f32⟩ : BufTy).Contents (Elt Ideal))
    (x12 : (⟨S64x1, .f32⟩ : BufTy).Contents (Elt Ideal)) (x15 : (⟨S512x1, .f32⟩ : BufTy).Contents (Elt Ideal))
    (x16 : (⟨S64x1, .f32⟩ : BufTy).Contents (Elt Ideal)) (x18 : (⟨S512x1, .f32⟩ : BufTy).Contents (Elt Ideal))
    (n : Fin 8192) :
    val_main_v87 (F := Ideal) x0 x1 x2 x3 x4 x11 x12 x15 x16 x18 (ix2 n ⟨16, by omega⟩) = Cert.Spec.dotCol x0 x18 n 0 := by
  unfold val_main_v87
  rw [cat2_loop]
  exact dot1 x0 x18 n 0

private theorem mask_slot_in (x5 : (⟨S8192x8, .f32⟩ : BufTy).Contents (Elt Ideal)) (x6 : (⟨S8192x8, .f32⟩ : BufTy).Contents (Elt Ideal)) (x7 : (⟨S8192x1, .f32⟩ : BufTy).Contents (Elt Ideal)) (n : Fin 8192) (d : Fin 8) :
    val_main_v88 (F := Ideal) x5 x6 x7 (ix2 n ⟨d.val, by omega⟩) = x5 (ix2 n d) := by
  unfold val_main_v88
  exact cat2_in x5 x6 x7 n d

private theorem mask_slot_out (x5 : (⟨S8192x8, .f32⟩ : BufTy).Contents (Elt Ideal)) (x6 : (⟨S8192x8, .f32⟩ : BufTy).Contents (Elt Ideal)) (x7 : (⟨S8192x1, .f32⟩ : BufTy).Contents (Elt Ideal)) (n : Fin 8192) (d : Fin 8) :
    val_main_v88 (F := Ideal) x5 x6 x7 (ix2 n ⟨8 + d.val, by omega⟩) = x6 (ix2 n d) := by
  unfold val_main_v88
  exact cat2_out x5 x6 x7 n d

private theorem mask_slot_loop (x5 : (⟨S8192x8, .f32⟩ : BufTy).Contents (Elt Ideal)) (x6 : (⟨S8192x8, .f32⟩ : BufTy).Contents (Elt Ideal)) (x7 : (⟨S8192x1, .f32⟩ : BufTy).Contents (Elt Ideal)) (n : Fin 8192) :
    val_main_v88 (F := Ideal) x5 x6 x7 (ix2 n ⟨16, by omega⟩) = x7 (ix2 n 0) := by
  unfold val_main_v88
  exact cat2_loop x5 x6 x7 n

/-- The reference's message array (its value %99) at node `n`, feature `j`. -/
theorem ref_h (x0 : (⟨S16x512x512, .f32⟩ : BufTy).Contents (Elt Ideal)) (x1 : (⟨S2x65536, .i32⟩ : BufTy).Contents (Elt Ideal)) (x2 : (⟨S65536, .i32⟩ : BufTy).Contents (Elt Ideal)) (x3 : (⟨S2x65536, .i32⟩ : BufTy).Contents (Elt Ideal)) (x4 : (⟨S65536, .i32⟩ : BufTy).Contents (Elt Ideal)) (x5 x6 : (⟨S8192x8, .f32⟩ : BufTy).Contents (Elt Ideal)) (x7 : (⟨S8192x1, .f32⟩ : BufTy).Contents (Elt Ideal)) (x9 : (⟨S512x512, .f32⟩ : BufTy).Contents (Elt Ideal)) (x10 : (⟨S64x512, .f32⟩ : BufTy).Contents (Elt Ideal)) (x11 : (⟨S512x1, .f32⟩ : BufTy).Contents (Elt Ideal)) (x12 : (⟨S64x1, .f32⟩ : BufTy).Contents (Elt Ideal)) (x13 : (⟨S512x512, .f32⟩ : BufTy).Contents (Elt Ideal)) (x14 : (⟨S64x512, .f32⟩ : BufTy).Contents (Elt Ideal)) (x15 : (⟨S512x1, .f32⟩ : BufTy).Contents (Elt Ideal)) (x16 : (⟨S64x1, .f32⟩ : BufTy).Contents (Elt Ideal)) (x17 : (⟨S512x512, .f32⟩ : BufTy).Contents (Elt Ideal)) (x18 : (⟨S512x1, .f32⟩ : BufTy).Contents (Elt Ideal))
    (hin : Cert.Spec.InRange x1 x2) (hout : Cert.Spec.InRange x3 x4) (n : Fin 8192) (j : Fin 512) :
    val_main_v99 (F := Ideal) x0 x1 x2 x3 x4 x5 x6 x7 x9 x10 x11 x12 x13 x14 x15 x16 x17 x18 (ix2 n j)
      = Cert.Spec.hSpec x0 x1 x2 x3 x4 x5 x6 x7 x9 x10 x11 x12 x13 x14 x15 x16 x17 x18 n j := by
  rw [val_main_v99_apply, val_main_cst_18_apply, Ideal.ofBits_def, Ideal.ofBits_zero_f32, zero_add, sum_slots]
  unfold Cert.Spec.hSpec Cert.Spec.arcSum
  congr 1
  · congr 1
    · refine Finset.sum_congr rfl fun d _ => ?_
      rw [slot, pot_slot_in x0 x1 x2 x3 x4 x9 x10 x13 x14 x17 hin, gate_slot_in x0 x1 x2 x3 x4 x11 x12 x15 x16 x18 hin, mask_slot_in]
    · refine Finset.sum_congr rfl fun d _ => ?_
      rw [slot, pot_slot_out x0 x1 x2 x3 x4 x9 x10 x13 x14 x17 hout, gate_slot_out x0 x1 x2 x3 x4 x11 x12 x15 x16 x18 hout, mask_slot_out]
  · rw [slot, pot_slot_loop, gate_slot_loop, mask_slot_loop]
    exact mul_comm _ _

end Cert.ReferenceIdeal.Bridge

end
-- ==== Proof.RefTail.lean ====
/-
  The reference's tail: from its message array (value %99) to its result, index by index — the row mean and variance
  (sums over the 512 features divided by 512), the normalisation by rsqrt (variance + eps), the affine pair, the
  sentence mask, the rectifier, the mask again and the residual.  Stated over the message array as a function, so that
  it composes with whatever that array is shown to be.
-/
import proofs.«408033_j214748365179_3_alg».proof.Proof.Gen.ReferenceIdeal.Read
import proofs.«408033_j214748365179_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Bridge

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

section Tail

variable (x0 : (⟨S16x512x512, .f32⟩ : BufTy).Contents (Elt Ideal)) (x1 : (⟨S2x65536, .i32⟩ : BufTy).Contents (Elt Ideal)) (x2 : (⟨S65536, .i32⟩ : BufTy).Contents (Elt Ideal)) (x3 : (⟨S2x65536, .i32⟩ : BufTy).Contents (Elt Ideal)) (x4 : (⟨S65536, .i32⟩ : BufTy).Contents (Elt Ideal)) (x5 x6 : (⟨S8192x8, .f32⟩ : BufTy).Contents (Elt Ideal)) (x7 : (⟨S8192x1, .f32⟩ : BufTy).Contents (Elt Ideal)) (x8 : (⟨S16x512, .f32⟩ : BufTy).Contents (Elt Ideal)) (x9 : (⟨S512x512, .f32⟩ : BufTy).Contents (Elt Ideal)) (x10 : (⟨S64x512, .f32⟩ : BufTy).Contents (Elt Ideal)) (x11 : (⟨S512x1, .f32⟩ : BufTy).Contents (Elt Ideal)) (x12 : (⟨S64x1, .f32⟩ : BufTy).Contents (Elt Ideal)) (x13 : (⟨S512x512, .f32⟩ : BufTy).Contents (Elt Ideal)) (x14 : (⟨S64x512, .f32⟩ : BufTy).Contents (Elt Ideal)) (x15 : (⟨S512x1, .f32⟩ : BufTy).Contents (Elt Ideal)) (x16 : (⟨S64x1, .f32⟩ : BufTy).Contents (Elt Ideal)) (x17 : (⟨S512x512, .f32⟩ : BufTy).Contents (Elt Ideal)) (x18 : (⟨S512x1, .f32⟩ : BufTy).Contents (Elt Ideal)) (x19 x20 : (⟨S512, .f32⟩ : BufTy).Contents (Elt Ideal))

/-- The message array read by coordinates: row `n` (a node), column `k` (a feature). -/
private abbrev msg : Fin 8192 → Fin 512 → EReal :=
  fun n k => val_main_v99 (F := Ideal) x0 x1 x2 x3 x4 x5 x6 x7 x9 x10 x11 x12 x13 x14 x15 x16 x17 x18 (ix2 n k)

/-- The first row sum: the 512 features of node `n` (the sum's initial value is the word of zero). -/
private theorem sum_row (n : Fin 8192) :
    val_main_v101 (F := Ideal) x0 x1 x2 x3 x4 x5 x6 x7 x9 x10 x11 x12 x13 x14 x15 x16 x17 x18 (ix1 n) = ∑ k : Fin 512, msg x0 x1 x2 x3 x4 x5 x6 x7 x9 x10 x11 x12 x13 x14 x15 x16 x17 x18 n k := by
  rw [val_main_v101_apply, val_main_cst_19_apply, Ideal.ofBits_def, Ideal.ofBits_zero_f32, zero_add]
  refine Finset.sum_congr rfl fun k _ => ?_
  exact congrArg _ (funext fun a => Fin.ext (by match a with | ⟨0, _⟩ => rfl | ⟨1, _⟩ => rfl))

/-- The row mean as the reference carries it, a column of height 8192: the row sum divided by the word of 512. -/
private theorem mean_at (n : Fin 8192) :
    val_main_v104 (F := Ideal) x0 x1 x2 x3 x4 x5 x6 x7 x9 x10 x11 x12 x13 x14 x15 x16 x17 x18 (ix2 n 0) = Cert.Spec.mu (msg x0 x1 x2 x3 x4 x5 x6 x7 x9 x10 x11 x12 x13 x14 x15 x16 x17 x18) n := by
  rw [val_main_v104_apply, val_main_v102_apply, val_main_v103_apply, val_main_cst_20_apply]
  rw [show idx_main_v102 (ix2 n (0 : Fin 1)) = ix1 n from
    funext fun a => Fin.ext (by match a with | ⟨0, _⟩ => rfl)]
  rw [sum_row]
  rfl

/-- The second row sum: the squared deviations from the row mean. -/
private theorem sq_row (n : Fin 8192) :
    val_main_v108 (F := Ideal) x0 x1 x2 x3 x4 x5 x6 x7 x9 x10 x11 x12 x13 x14 x15 x16 x17 x18 (ix1 n)
      = ∑ k : Fin 512, (msg x0 x1 x2 x3 x4 x5 x6 x7 x9 x10 x11 x12 x13 x14 x15 x16 x17 x18 n k - Cert.Spec.mu (msg x0 x1 x2 x3 x4 x5 x6 x7 x9 x10 x11 x12 x13 x14 x15 x16 x17 x18) n) * (msg x0 x1 x2 x3 x4 x5 x6 x7 x9 x10 x11 x12 x13 x14 x15 x16 x17 x18 n k - Cert.Spec.mu (msg x0 x1 x2 x3 x4 x5 x6 x7 x9 x10 x11 x12 x13 x14 x15 x16 x17 x18) n) := by
  rw [val_main_v108_apply, val_main_cst_21_apply, Ideal.ofBits_def, Ideal.ofBits_zero_f32, zero_add]
  refine Finset.sum_congr rfl fun k _ => ?_
  rw [show idx_main_v108 (ix1 n) k = ix2 n k from
    funext fun a => Fin.ext (by match a with | ⟨0, _⟩ => rfl | ⟨1, _⟩ => rfl)]
  rw [val_main_v107_apply, val_main_v106_apply, val_main_v105_apply]
  rw [show idx_main_v105 (ix2 n k) = ix2 n (0 : Fin 1) from
    funext fun a => Fin.ext (by match a with | ⟨0, _⟩ => rfl | ⟨1, _⟩ => rfl)]
  rw [mean_at]
  rfl

/-- The row variance: the second row sum divided by the word of 512. -/
private theorem var_at (n : Fin 8192) :
    val_main_v111 (F := Ideal) x0 x1 x2 x3 x4 x5 x6 x7 x9 x10 x11 x12 x13 x14 x15 x16 x17 x18 (ix2 n 0) = Cert.Spec.var (msg x0 x1 x2 x3 x4 x5 x6 x7 x9 x10 x11 x12 x13 x14 x15 x16 x17 x18) n := by
  rw [val_main_v111_apply, val_main_v109_apply, val_main_v110_apply, val_main_cst_22_apply]
  rw [show idx_main_v109 (ix2 n (0 : Fin 1)) = ix1 n from
    funext fun a => Fin.ext (by match a with | ⟨0, _⟩ => rfl)]
  rw [sq_row]
  rfl

/-- The normalising factor of row `n`: rsqrt of the variance plus the word of eps. -/
private theorem rs_at (n : Fin 8192) :
    val_main_v116 (F := Ideal) x0 x1 x2 x3 x4 x5 x6 x7 x9 x10 x11 x12 x13 x14 x15 x16 x17 x18 (ix2 n 0)
      = Ideal.rsqrt (Cert.Spec.var (msg x0 x1 x2 x3 x4 x5 x6 x7 x9 x10 x11 x12 x13 x14 x15 x16 x17 x18) n + Cert.Spec.epsC) := by
  rw [val_main_v116_apply, val_main_v115_apply, val_main_v114_apply, val_main_cst_23_apply, var_at]
  rfl

/-- The normalised, affinely mapped message at (n, j). -/
private theorem aff_at (n : Fin 8192) (j : Fin 512) :
    val_main_v124 (F := Ideal) x0 x1 x2 x3 x4 x5 x6 x7 x9 x10 x11 x12 x13 x14 x15 x16 x17 x18 x19 x20 (ix2 n j)
      = (msg x0 x1 x2 x3 x4 x5 x6 x7 x9 x10 x11 x12 x13 x14 x15 x16 x17 x18 n j - Cert.Spec.mu (msg x0 x1 x2 x3 x4 x5 x6 x7 x9 x10 x11 x12 x13 x14 x15 x16 x17 x18) n) * Ideal.rsqrt (Cert.Spec.var (msg x0 x1 x2 x3 x4 x5 x6 x7 x9 x10 x11 x12 x13 x14 x15 x16 x17 x18) n + Cert.Spec.epsC)
          * x19 (ix1 j) + x20 (ix1 j) := by
  rw [val_main_v124_apply, val_main_v121_apply, val_main_v118_apply, val_main_v113_apply, val_main_v112_apply,
    val_main_v117_apply, val_main_v120_apply, val_main_v119_apply, val_main_v123_apply, val_main_v122_apply]
  rw [show idx_main_v112 (ix2 n j) = ix2 n (0 : Fin 1) from
    funext fun a => Fin.ext (by match a with | ⟨0, _⟩ => rfl | ⟨1, _⟩ => rfl)]
  rw [show idx_main_v117 (ix2 n j) = ix2 n (0 : Fin 1) from
    funext fun a => Fin.ext (by match a with | ⟨0, _⟩ => rfl | ⟨1, _⟩ => rfl)]
  rw [show idx_main_v119 (idx_main_v120 (ix2 n j)) = ix1 j from
    funext fun a => Fin.ext (by match a with | ⟨0, _⟩ => rfl)]
  rw [show idx_main_v122 (idx_main_v123 (ix2 n j)) = ix1 j from
    funext fun a => Fin.ext (by match a with | ⟨0, _⟩ => rfl)]
  rw [mean_at, rs_at]
  rfl

/-- The sentence mask column at node b * 512 + s is the mask at (b, s): (b * 512 + s) / 512 = b and
    (b * 512 + s) % 512 = s. -/
private theorem mask_at (b : Fin 16) (s : Fin 512) (j : Fin 512) :
    val_main_v125 (F := Ideal) x8 (ix2 (Cert.Spec.node b s) j) = x8 (ix2 b s) := by
  rw [val_main_v125_apply, val_main_v100_apply]
  refine congrArg x8 (funext fun a => Fin.ext ?_)
  have hb := b.isLt; have hs := s.isLt
  match a with
  | ⟨0, _⟩ => show ((b.val * 512 + s.val) * 1 + 0) / 512 = b.val; omega
  | ⟨1, _⟩ => show ((b.val * 512 + s.val) * 1 + 0) % 512 = s.val; omega

end Tail

/-- The reference's result at sentence `b`, position `s`, feature `j`. -/
theorem ref_tail (x0 : (⟨S16x512x512, .f32⟩ : BufTy).Contents (Elt Ideal)) (x1 : (⟨S2x65536, .i32⟩ : BufTy).Contents (Elt Ideal)) (x2 : (⟨S65536, .i32⟩ : BufTy).Contents (Elt Ideal)) (x3 : (⟨S2x65536, .i32⟩ : BufTy).Contents (Elt Ideal)) (x4 : (⟨S65536, .i32⟩ : BufTy).Contents (Elt Ideal)) (x5 x6 : (⟨S8192x8, .f32⟩ : BufTy).Contents (Elt Ideal)) (x7 : (⟨S8192x1, .f32⟩ : BufTy).Contents (Elt Ideal)) (x8 : (⟨S16x512, .f32⟩ : BufTy).Contents (Elt Ideal)) (x9 : (⟨S512x512, .f32⟩ : BufTy).Contents (Elt Ideal)) (x10 : (⟨S64x512, .f32⟩ : BufTy).Contents (Elt Ideal)) (x11 : (⟨S512x1, .f32⟩ : BufTy).Contents (Elt Ideal)) (x12 : (⟨S64x1, .f32⟩ : BufTy).Contents (Elt Ideal)) (x13 : (⟨S512x512, .f32⟩ : BufTy).Contents (Elt Ideal)) (x14 : (⟨S64x512, .f32⟩ : BufTy).Contents (Elt Ideal)) (x15 : (⟨S512x1, .f32⟩ : BufTy).Contents (Elt Ideal)) (x16 : (⟨S64x1, .f32⟩ : BufTy).Contents (Elt Ideal)) (x17 : (⟨S512x512, .f32⟩ : BufTy).Contents (Elt Ideal)) (x18 : (⟨S512x1, .f32⟩ : BufTy).Contents (Elt Ideal)) (x19 x20 : (⟨S512, .f32⟩ : BufTy).Contents (Elt Ideal))
    (b : Fin 16) (s : Fin 512) (j : Fin 512) :
    val_main_v132 (F := Ideal) x0 x1 x2 x3 x4 x5 x6 x7 x8 x9 x10 x11 x12 x13 x14 x15 x16 x17 x18 x19 x20 (ix3 b s j)
      = Cert.Spec.outOf (fun n j => val_main_v99 (F := Ideal) x0 x1 x2 x3 x4 x5 x6 x7 x9 x10 x11 x12 x13 x14 x15 x16 x17 x18 (ix2 n j))
          (fun j => x19 (ix1 j)) (fun j => x20 (ix1 j)) (x8 (ix2 b s)) (x0 (ix3 b s j)) (Cert.Spec.node b s) j := by
  rw [val_main_v132_apply, val_main_v131_apply, val_main_v128_apply, val_main_v130_apply, val_main_v129_apply]
  -- the reshape [8192, 512] → [16, 512, 512] read at (b, s, j) is row b * 512 + s, column j
  rw [show idx_main_v128 (ix3 b s j) = ix2 (Cert.Spec.node b s) j from
    funext fun a => Fin.ext (by
      have hb := b.isLt; have hs := s.isLt; have hj := j.isLt
      match a with
      | ⟨0, _⟩ => show ((b.val * 512 + s.val) * 512 + j.val) / 512 = b.val * 512 + s.val; omega
      | ⟨1, _⟩ => show ((b.val * 512 + s.val) * 512 + j.val) % 512 = j.val; omega)]
  -- the mask broadcast over the feature axis reads the mask at (b, s)
  rw [show idx_main_v129 (idx_main_v130 (ix3 b s j)) = ix2 b s from
    funext fun a => Fin.ext (by match a with | ⟨0, _⟩ => rfl | ⟨1, _⟩ => rfl)]
  rw [val_main_v127_apply, val_main_v126_apply, val_main_call0_v0_apply, val_main_call0_cst_apply, aff_at, mask_at,
    Ideal.ofBits_def, Ideal.ofBits_zero_f32]
  rfl

end Cert.ReferenceIdeal.Bridge

end
-- ==== Proof.RefG.lean ====
/-
  The reference computes the specification: its result tensor is `G` of its arguments, index by index, when the index
  inputs are in range — the tail (layer normalisation, masks, rectifier, residual) over the message array, and the
  message array the specification's message.
-/
import proofs.«408033_j214748365179_3_alg».proof.Proof.Gen.ReferenceIdeal.Read
import proofs.«408033_j214748365179_3_alg».proof.Proof.Spec
import proofs.«408033_j214748365179_3_alg».proof.Proof.RefH
import proofs.«408033_j214748365179_3_alg».proof.Proof.RefTail
import Idealize.ShloMosaic.Lib.ValueIdx

noncomputable section

namespace Cert.ReferenceIdeal.Bridge

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

theorem ref_G (x0 : (⟨S16x512x512, .f32⟩ : BufTy).Contents (Elt Ideal)) (x1 : (⟨S2x65536, .i32⟩ : BufTy).Contents (Elt Ideal)) (x2 : (⟨S65536, .i32⟩ : BufTy).Contents (Elt Ideal)) (x3 : (⟨S2x65536, .i32⟩ : BufTy).Contents (Elt Ideal)) (x4 : (⟨S65536, .i32⟩ : BufTy).Contents (Elt Ideal)) (x5 x6 : (⟨S8192x8, .f32⟩ : BufTy).Contents (Elt Ideal)) (x7 : (⟨S8192x1, .f32⟩ : BufTy).Contents (Elt Ideal)) (x8 : (⟨S16x512, .f32⟩ : BufTy).Contents (Elt Ideal)) (x9 : (⟨S512x512, .f32⟩ : BufTy).Contents (Elt Ideal)) (x10 : (⟨S64x512, .f32⟩ : BufTy).Contents (Elt Ideal)) (x11 : (⟨S512x1, .f32⟩ : BufTy).Contents (Elt Ideal)) (x12 : (⟨S64x1, .f32⟩ : BufTy).Contents (Elt Ideal)) (x13 : (⟨S512x512, .f32⟩ : BufTy).Contents (Elt Ideal)) (x14 : (⟨S64x512, .f32⟩ : BufTy).Contents (Elt Ideal)) (x15 : (⟨S512x1, .f32⟩ : BufTy).Contents (Elt Ideal)) (x16 : (⟨S64x1, .f32⟩ : BufTy).Contents (Elt Ideal)) (x17 : (⟨S512x512, .f32⟩ : BufTy).Contents (Elt Ideal)) (x18 : (⟨S512x1, .f32⟩ : BufTy).Contents (Elt Ideal)) (x19 x20 : (⟨S512, .f32⟩ : BufTy).Contents (Elt Ideal))
    (hin : Cert.Spec.InRange x1 x2) (hout : Cert.Spec.InRange x3 x4) :
    val_main_v132 (F := Ideal) x0 x1 x2 x3 x4 x5 x6 x7 x8 x9 x10 x11 x12 x13 x14 x15 x16 x17 x18 x19 x20 = Cert.Spec.G x0 x1 x2 x3 x4 x5 x6 x7 x8 x9 x10 x11 x12 x13 x14 x15 x16 x17 x18 x19 x20 := by
  funext i
  obtain ⟨b, s, j, rfl⟩ : ∃ (b : Fin 16) (s : Fin 512) (j : Fin 512), i = ix3 b s j := ⟨i 0, i 1, i 2, eq_ix3 i⟩
  rw [ref_tail]
  have hh : (fun n j => val_main_v99 (F := Ideal) x0 x1 x2 x3 x4 x5 x6 x7 x9 x10 x11 x12 x13 x14 x15 x16 x17 x18 (ix2 n j)) = Cert.Spec.hSpec x0 x1 x2 x3 x4 x5 x6 x7 x9 x10 x11 x12 x13 x14 x15 x16 x17 x18 :=
    funext fun n => funext fun j => ref_h x0 x1 x2 x3 x4 x5 x6 x7 x9 x10 x11 x12 x13 x14 x15 x16 x17 x18 hin hout n j
  rw [hh]
  rfl

end Cert.ReferenceIdeal.Bridge

end
-- ==== Proof.lean ====
/-
  One graph-convolution layer over a batch of 16 sentences of 512 positions, 512 features: every node gathers the
  projected features of the sources of its eight incoming and eight outgoing arcs, adds a per-label bias, weighs each by
  the logistic of a scalar gate and a mask, adds its own gated self-loop projection, and the sum is layer-normalised,
  masked, rectified, masked again and added to the node's feature.

  The kernel program computes this with two launches — the projections through packed tables (the gate vector carried
  as column 512 beside the 512 feature columns), then a fused combine over gathered rows with the label bias looked up
  by a one-hot product — and the reference with plain array operations over a 17-slot concatenation.  Over the extended
  reals both are the one function `Cert.Spec.G` of the inputs, provided the index inputs are in range: outside it the
  reference's own indexing wraps negative indices, which the kernel's clip does not reproduce.  The only laws used
  are the commutative-monoid laws of sums, commutativity of the product, and that a one-hot row selects a table row.

  The three frames are the generated ones (the reference's is its generated run with the value dropped); the ideal pass
  rewrote nothing, so the preservation claim is trivial; the algebraic claim pairs the two runs at `G`.
-/
import proofs.«408033_j214748365179_3_alg».proof.Defs
import proofs.«408033_j214748365179_3_alg».proof.Proof.Gen.Kernel
import proofs.«408033_j214748365179_3_alg».proof.Proof.Gen.Kernel.Skeleton
import proofs.«408033_j214748365179_3_alg».proof.Proof.Gen.Kernel.Launch
import proofs.«408033_j214748365179_3_alg».proof.Proof.Gen.Kernel.Points
import proofs.«408033_j214748365179_3_alg».proof.Proof.Gen.Kernel.Frame
import proofs.«408033_j214748365179_3_alg».proof.Proof.Gen.KernelIdeal
import proofs.«408033_j214748365179_3_alg».proof.Proof.Gen.KernelIdeal.Skeleton
import proofs.«408033_j214748365179_3_alg».proof.Proof.Gen.KernelIdeal.Launch
import proofs.«408033_j214748365179_3_alg».proof.Proof.Gen.KernelIdeal.Points
import proofs.«408033_j214748365179_3_alg».proof.Proof.Gen.KernelIdeal.Frame
import proofs.«408033_j214748365179_3_alg».proof.Proof.Gen.ReferenceIdeal
import proofs.«408033_j214748365179_3_alg».proof.Proof.Gen.Pre_finite_inputs
import proofs.«408033_j214748365179_3_alg».proof.Proof.Gen.ReferenceIdeal.Run
import proofs.«408033_j214748365179_3_alg».proof.Proof.Gen.ReferenceIdeal.Read
import proofs.«408033_j214748365179_3_alg».proof.Proof.PreDecode
import proofs.«408033_j214748365179_3_alg».proof.Proof.RunValue
import proofs.«408033_j214748365179_3_alg».proof.Proof.KValue
import proofs.«408033_j214748365179_3_alg».proof.Proof.RefG
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the result `G` of the arguments: the kernel
    program by its run with the result kept and `kernel_G`, the reference by its generated run and `ref_G`; the
    precondition supplies the index ranges both need. -/
theorem algebraic : Cert.algebraic_KernelIdeal_ReferenceIdeal := by
  intro m ρ m' ρ' hpre hagree
  have hin : ∀ c : Dev Cert.KernelIdeal.nD, Cert.Spec.InRange (Cert.KernelIdeal.Bridge.a1 m c) (Cert.KernelIdeal.Bridge.a2 m c) := fun c =>
    Cert.Pre_finite_inputs.Bridge.inRange_in _ _ _ _ _ _ _ _ _ _ _ _ _ _ _ _ _ _ _ _ _ (hpre c)
  have hout : ∀ c : Dev Cert.KernelIdeal.nD, Cert.Spec.InRange (Cert.KernelIdeal.Bridge.a3 m c) (Cert.KernelIdeal.Bridge.a4 m c) := fun c =>
    Cert.Pre_finite_inputs.Bridge.inRange_out _ _ _ _ _ _ _ _ _ _ _ _ _ _ _ _ _ _ _ _ _ (hpre c)
  refine ⟨fun c => Cert.Spec.G (Cert.KernelIdeal.Bridge.a0 m c) (Cert.KernelIdeal.Bridge.a1 m c) (Cert.KernelIdeal.Bridge.a2 m c) (Cert.KernelIdeal.Bridge.a3 m c) (Cert.KernelIdeal.Bridge.a4 m c) (Cert.KernelIdeal.Bridge.a5 m c) (Cert.KernelIdeal.Bridge.a6 m c) (Cert.KernelIdeal.Bridge.a7 m c) (Cert.KernelIdeal.Bridge.a8 m c) (Cert.KernelIdeal.Bridge.a9 m c) (Cert.KernelIdeal.Bridge.a10 m c) (Cert.KernelIdeal.Bridge.a11 m c) (Cert.KernelIdeal.Bridge.a12 m c) (Cert.KernelIdeal.Bridge.a13 m c) (Cert.KernelIdeal.Bridge.a14 m c) (Cert.KernelIdeal.Bridge.a15 m c) (Cert.KernelIdeal.Bridge.a16 m c) (Cert.KernelIdeal.Bridge.a17 m c) (Cert.KernelIdeal.Bridge.a18 m c) (Cert.KernelIdeal.Bridge.a19 m c) (Cert.KernelIdeal.Bridge.a20 m c), ?_, ?_⟩
  · exact (θ_run Cert.KernelIdeal.defs _ _).mono
      (fun r h c => ⟨(h c).1.trans (Cert.KernelIdeal.Bridge.kernel_G m ρ c (hin c) (hout c)), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20⟩ := hagree c
    rw [Cert.ReferenceIdeal.Read.val_main_v132_eq, h0, h1, h2, h3, h4, h5, h6, h7, h8, h9, h10, h11, h12, h13, h14, h15, h16, h17,
      h18, h19, h20]
    exact Cert.ReferenceIdeal.Bridge.ref_G _ _ _ _ _ _ _ _ _ _ _ _ _ _ _ _ _ _ _ _ _ (hin c) (hout c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
